-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x64x4096 : Shape := ⟨3, ![64, 64, 4096]⟩
abbrev S128x512x4096 : Shape := ⟨3, ![128, 512, 4096]⟩
abbrev S64 : Shape := ⟨1, ![64]⟩
abbrev S64x64 : Shape := ⟨2, ![64, 64]⟩
abbrev S_ : Shape := ⟨0, ![]⟩
abbrev S64x1 : Shape := ⟨2, ![64, 1]⟩
abbrev S1x64 : Shape := ⟨2, ![1, 64]⟩

class Facts : Prop where
  bcast_S_S64x64x4096 : S_.BroadcastsInDim S64x64x4096 (![] : Fin 0 → Fin S64x64x4096.rank)
  reducesTo_S64x64x4096_S_d0_1_2 : S64x64x4096.ReducesTo [0, 1, 2] S_
  h_S_ : 0 < S_.numel
  bcast_S_S128x512x4096 : S_.BroadcastsInDim S128x512x4096 (![] : Fin 0 → Fin S128x512x4096.rank)
  reducesTo_S128x512x4096_S_d0_1_2 : S128x512x4096.ReducesTo [0, 1, 2] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S64_S64x1_0 : S64.BroadcastsInDim S64x1 (![0] : Fin 1 → Fin S64x1.rank)
  bcast_S64_S1x64_1 : S64.BroadcastsInDim S1x64 (![1] : Fin 1 → Fin S1x64.rank)
  bcast_S64x1_S64x64_0_1 : S64x1.BroadcastsInDim S64x64 (![0, 1] : Fin 2 → Fin S64x64.rank)
  bcast_S1x64_S64x64_0_1 : S1x64.BroadcastsInDim S64x64 (![0, 1] : Fin 2 → Fin S64x64.rank)

variable [Facts]

def fn_part1 {F : FTy → Type} [FloatOps F] (main_arg2 : IVec S64 32) (main_arg3 : IVec S64x64 32) (main_v0 : IVec S64 32) (main_v16 : IVec S_ 1) : IVec S_ 1 :=
  let main_c_5 : IVec S_ 32 := constantI S_ 32 0#32
  let main_v17 : IVec S64x64 32 := broadcastInDim S64x64 ![] bcast_S_S64x64 main_c_5
  let main_v18 : IVec S64x64 1 := cmpi .sge main_arg3 main_v17
  let main_c_6 : IVec S_ 32 := constantI S_ 32 512#32
  let main_v19 : IVec S64x64 32 := broadcastInDim S64x64 ![] bcast_S_S64x64 main_c_6
  let main_v20 : IVec S64x64 1 := cmpi .slt main_arg3 main_v19
  let main_v21 : IVec S64x64 1 := andi main_v18 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v16 main_v22
  let main_v24 : IVec S64x1 32 := broadcastInDim S64x1 ![0] bcast_S64_S64x1_0 main_arg2
  let main_v25 : IVec S1x64 32 := broadcastInDim S1x64 ![1] bcast_S64_S1x64_1 main_arg2
  let main_v26 : IVec S64x64 32 := broadcastInDim S64x64 ![0, 1] bcast_S64x1_S64x64_0_1 main_v24
  let main_v27 : IVec S64x64 32 := broadcastInDim S64x64 ![0, 1] bcast_S1x64_S64x64_0_1 main_v25
  let main_v28 : IVec S64x64 1 := cmpi .ne main_v26 main_v27
  let main_v29 : IVec S64x1 32 := broadcastInDim S64x1 ![0] bcast_S64_S64x1_0 main_v0
  let main_v30 : IVec S1x64 32 := broadcastInDim S1x64 ![1] bcast_S64_S1x64_1 main_v0
  let main_v31 : IVec S64x64 32 := broadcastInDim S64x64 ![0, 1] bcast_S64x1_S64x64_0_1 main_v29
  let main_v32 : IVec S64x64 32 := broadcastInDim S64x64 ![0, 1] bcast_S1x64_S64x64_0_1 main_v30
  let main_v33 : IVec S64x64 1 := cmpi .eq main_v31 main_v32
  let main_v34 : IVec S64x64 1 := ori main_v28 main_v33
  let main_c_8 : IVec S_ 1 := constantI S_ 1 1#1
  let main_v35 : IVec S_ 1 := (fun x v => Host.reduce IntOp.andi x v reducesTo_S64x64_S_d0_1 h_S_) main_v34 main_c_8
  let main_v36 : IVec S_ 1 := andi main_v23 main_v35
  main_v36

def fn {F : FTy → Type} [FloatOps F] (main_arg0 : FVec F S64x64x4096 .f32) (main_arg1 : FVec F S128x512x4096 .f32) (main_arg2 : IVec S64 32) (main_arg3 : IVec S64x64 32) : IVec S_ 1 :=
  let main_v0 : IVec S64 32 := iotaInDim S64 32 0
  let main_v1 : FVec F S64x64x4096 .f32 := Host.absf main_arg0
  let main_cst : FVec F S_ .f32 := constant S_ .f32 0x7F800000#32
  let main_v2 : FVec F S64x64x4096 .f32 := broadcastInDim S64x64x4096 ![] bcast_S_S64x64x4096 main_cst
  let main_v3 : IVec S64x64x4096 1 := cmpf .olt main_v1 main_v2
  let main_c : IVec S_ 1 := constantI S_ 1 1#1
  let main_v4 : IVec S_ 1 := (fun x v => Host.reduce IntOp.andi x v reducesTo_S64x64x4096_S_d0_1_2 h_S_) main_v3 main_c
  let main_v5 : FVec F S128x512x4096 .f32 := Host.absf main_arg1
  let main_cst_0 : FVec F S_ .f32 := constant S_ .f32 0x7F800000#32
  let main_v6 : FVec F S128x512x4096 .f32 := broadcastInDim S128x512x4096 ![] bcast_S_S128x512x4096 main_cst_0
  let main_v7 : IVec S128x512x4096 1 := cmpf .olt main_v5 main_v6
  let main_c_1 : IVec S_ 1 := constantI S_ 1 1#1
  let main_v8 : IVec S_ 1 := (fun x v => Host.reduce IntOp.andi x v reducesTo_S128x512x4096_S_d0_1_2 h_S_) main_v7 main_c_1
  let main_v9 : IVec S_ 1 := andi main_v4 main_v8
  let main_c_2 : IVec S_ 32 := constantI S_ 32 0#32
  let main_v10 : IVec S64 32 := broadcastInDim S64 ![] bcast_S_S64 main_c_2
  let main_v11 : IVec S64 1 := cmpi .sge main_arg2 main_v10
  let main_c_3 : IVec S_ 32 := constantI S_ 32 128#32
  let main_v12 : IVec S64 32 := broadcastInDim S64 ![] bcast_S_S64 main_c_3
  let main_v13 : IVec S64 1 := cmpi .slt main_arg2 main_v12
  let main_v14 : IVec S64 1 := andi main_v11 main_v13
  let main_c_4 : IVec S_ 1 := constantI S_ 1 1#1
  let main_v15 : IVec S_ 1 := (fun x v => Host.reduce IntOp.andi x v reducesTo_S64_S_d0 h_S_) main_v14 main_c_4
  let main_v16 : IVec S_ 1 := andi main_v9 main_v15
  fn_part1 (F := F) main_arg2 main_arg3 main_v0 main_v16
-- ==== Kernel.lean ====
abbrev S64x64x4096 : Shape := ⟨3, ![64, 64, 4096]⟩
abbrev S128x512x4096 : Shape := ⟨3, ![128, 512, 4096]⟩
abbrev S64 : Shape := ⟨1, ![64]⟩
abbrev S64x64 : Shape := ⟨2, ![64, 64]⟩
abbrev S64x512x4096 : Shape := ⟨3, ![64, 512, 4096]⟩
abbrev S1x64x4096 : Shape := ⟨3, ![1, 64, 4096]⟩
abbrev S1x512x4096 : Shape := ⟨3, ![1, 512, 4096]⟩
abbrev S1 : Shape := ⟨1, ![1]⟩
abbrev S1x1 : Shape := ⟨2, ![1, 1]⟩
abbrev S1x1x4096 : Shape := ⟨3, ![1, 1, 4096]⟩
abbrev S4096 : Shape := ⟨1, ![4096]⟩
abbrev S64x4096 : Shape := ⟨2, ![64, 4096]⟩

abbrev nBuf : Space → Nat
  | .hbm => 3
  | .vmem => 6
  | .smem => 2
  | _ => 0

abbrev bufTy : (tb : Table) → Fin (tcTables nBuf tb) → BufTy
  | .hbm, ⟨0, _⟩ => ⟨S64x64x4096, .f32⟩
  | .hbm, ⟨1, _⟩ => ⟨S128x512x4096, .f32⟩
  | .hbm, ⟨2, _⟩ => ⟨S64x512x4096, .f32⟩
  | .local _ .vmem, ⟨0, _⟩ => ⟨S1x64x4096, .f32⟩
  | .local _ .vmem, ⟨1, _⟩ => ⟨S1x64x4096, .f32⟩
  | .local _ .vmem, ⟨2, _⟩ => ⟨S1x512x4096, .f32⟩
  | .local _ .vmem, ⟨3, _⟩ => ⟨S1x512x4096, .f32⟩
  | .local _ .vmem, ⟨4, _⟩ => ⟨S1x512x4096, .f32⟩
  | .local _ .vmem, ⟨5, _⟩ => ⟨S1x512x4096, .f32⟩
  | .local _ .smem, ⟨0, _⟩ => ⟨S64, .i32⟩
  | .local _ .smem, ⟨1, _⟩ => ⟨S64x64, .i32⟩
  | _, _ => ⟨S64x64x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_arg2 : Ref sig .tc := ⟨.smem, 0, rfl⟩
abbrev main_arg3 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![64], ![false]⟩

abbrev pre0 : Pipeline.Prefetch sig := ⟨2, ![main_arg2.idx, main_arg3.idx], fun | 0 => main_arg2.names | 1 => main_arg3.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 2 → Nat :=
  let arg0 : BitVec 32 := BitVec.ofNat 32 (i 0).val
  let v0 : Index := Scalar.indexCast arg0
  let c0_i32 : BitVec 32 := 0#32
  let v1 : Index := Scalar.indexCast c0_i32
  ![v0.toNat, 0]
def k0_off3 (v2 : BitVec 32) : Fin 3 → Nat :=
  let c0_3 : Index := 0#32
  let v10 : Index := Scalar.indexCast v2
  let c0_4 : Index := 0#32
  ![0, v10.toNat, 0]

def k0_chk1 (v2 : BitVec 32) : Prop :=
  (∀ a, (k0_off3 v2) a + S1x1x4096.size a ≤ S1x512x4096.size a)
instance k0_chk1.dec : ∀ (v2 : BitVec 32), Decidable (k0_chk1 v2) := fun v2 => decidable_of_iff' _ (Iff.of_eq (k0_chk1.eq_1 v2))
theorem k0_off3_inb : ∀ (v2 : BitVec 32) (k0_hw1 : k0_chk1 v2), ∀ a, (k0_off3 v2) a + S1x1x4096.size a ≤ S1x512x4096.size a := fun v2 k0_hw1 => k0_hw1

def k0_off4 (i : grid0.Coords) : Fin 2 → Nat :=
  let arg0 : BitVec 32 := BitVec.ofNat 32 (i 0).val
  let v14 : Index := Scalar.indexCast arg0
  let c1_i32 : BitVec 32 := 1#32
  let v15 : Index := Scalar.indexCast c1_i32
  ![v14.toNat, 1]
def k0_off5 (v16 : BitVec 32) : Fin 3 → Nat :=
  let c0_11 : Index := 0#32
  let v24 : Index := Scalar.indexCast v16
  let c0_12 : Index := 0#32
  ![0, v24.toNat, 0]

def k0_chk2 (v16 : BitVec 32) : Prop :=
  (∀ a, (k0_off5 v16) a + S1x1x4096.size a ≤ S1x512x4096.size a)
instance k0_chk2.dec : ∀ (v16 : BitVec 32), Decidable (k0_chk2 v16) := fun v16 => decidable_of_iff' _ (Iff.of_eq (k0_chk2.eq_1 v16))
theorem k0_off5_inb : ∀ (v16 : BitVec 32) (k0_hw2 : k0_chk2 v16), ∀ a, (k0_off5 v16) a + S1x1x4096.size a ≤ S1x512x4096.size a := fun v16 k0_hw2 => k0_hw2

def k0_off6 (i : grid0.Coords) : Fin 2 → Nat :=
  let arg0 : BitVec 32 := BitVec.ofNat 32 (i 0).val
  let v28 : Index := Scalar.indexCast arg0
  let c2_i32 : BitVec 32 := 2#32
  let v29 : Index := Scalar.indexCast c2_i32
  ![v28.toNat, 2]
def k0_off7 (v30 : BitVec 32) : Fin 3 → Nat :=
  let c0_19 : Index := 0#32
  let v38 : Index := Scalar.indexCast v30
  let c0_20 : Index := 0#32
  ![0, v38.toNat, 0]

def k0_chk3 (v30 : BitVec 32) : Prop :=
  (∀ a, (k0_off7 v30) a + S1x1x4096.size a ≤ S1x512x4096.size a)
instance k0_chk3.dec : ∀ (v30 : BitVec 32), Decidable (k0_chk3 v30) := fun v30 => decidable_of_iff' _ (Iff.of_eq (k0_chk3.eq_1 v30))
theorem k0_off7_inb : ∀ (v30 : BitVec 32) (k0_hw3 : k0_chk3 v30), ∀ a, (k0_off7 v30) a + S1x1x4096.size a ≤ S1x512x4096.size a := fun v30 k0_hw3 => k0_hw3

def k0_off8 (i : grid0.Coords) : Fin 2 → Nat :=
  let arg0 : BitVec 32 := BitVec.ofNat 32 (i 0).val
  let v42 : Index := Scalar.indexCast arg0
  let c3_i32 : BitVec 32 := 3#32
  let v43 : Index := Scalar.indexCast c3_i32
  ![v42.toNat, 3]
def k0_off9 (v44 : BitVec 32) : Fin 3 → Nat :=
  let c0_27 : Index := 0#32
  let v52 : Index := Scalar.indexCast v44
  let c0_28 : Index := 0#32
  ![0, v52.toNat, 0]

def k0_chk4 (v44 : BitVec 32) : Prop :=
  (∀ a, (k0_off9 v44) a + S1x1x4096.size a ≤ S1x512x4096.size a)
instance k0_chk4.dec : ∀ (v44 : BitVec 32), Decidable (k0_chk4 v44) := fun v44 => decidable_of_iff' _ (Iff.of_eq (k0_chk4.eq_1 v44))
theorem k0_off9_inb : ∀ (v44 : BitVec 32) (k0_hw4 : k0_chk4 v44), ∀ a, (k0_off9 v44) a + S1x1x4096.size a ≤ S1x512x4096.size a := fun v44 k0_hw4 => k0_hw4

def k0_off10 (i : grid0.Coords) : Fin 2 → Nat :=
  let arg0 : BitVec 32 := BitVec.ofNat 32 (i 0).val
  let v56 : Index := Scalar.indexCast arg0
  let c4_i32 : BitVec 32 := 4#32
  let v57 : Index := Scalar.indexCast c4_i32
  ![v56.toNat, 4]
def k0_off11 (v58 : BitVec 32) : Fin 3 → Nat :=
  let c0_35 : Index := 0#32
  let v66 : Index := Scalar.indexCast v58
  let c0_36 : Index := 0#32
  ![0, v66.toNat, 0]

def k0_chk5 (v58 : BitVec 32) : Prop :=
  (∀ a, (k0_off11 v58) a + S1x1x4096.size a ≤ S1x512x4096.size a)
instance k0_chk5.dec : ∀ (v58 : BitVec 32), Decidable (k0_chk5 v58) := fun v58 => decidable_of_iff' _ (Iff.of_eq (k0_chk5.eq_1 v58))
theorem k0_off11_inb : ∀ (v58 : BitVec 32) (k0_hw5 : k0_chk5 v58), ∀ a, (k0_off11 v58) a + S1x1x4096.size a ≤ S1x512x4096.size a := fun v58 k0_hw5 => k0_hw5

def k0_off12 (i : grid0.Coords) : Fin 2 → Nat :=
  let arg0 : BitVec 32 := BitVec.ofNat 32 (i 0).val
  let v70 : Index := Scalar.indexCast arg0
  let c5_i32 : BitVec 32 := 5#32
  let v71 : Index := Scalar.indexCast c5_i32
  ![v70.toNat, 5]
def k0_off13 (v72 : BitVec 32) : Fin 3 → Nat :=
  let c0_43 : Index := 0#32
  let v80 : Index := Scalar.indexCast v72
  let c0_44 : Index := 0#32
  ![0, v80.toNat, 0]

def k0_chk6 (v72 : BitVec 32) : Prop :=
  (∀ a, (k0_off13 v72) a + S1x1x4096.size a ≤ S1x512x4096.size a)
instance k0_chk6.dec : ∀ (v72 : BitVec 32), Decidable (k0_chk6 v72) := fun v72 => decidable_of_iff' _ (Iff.of_eq (k0_chk6.eq_1 v72))
theorem k0_off13_inb : ∀ (v72 : BitVec 32) (k0_hw6 : k0_chk6 v72), ∀ a, (k0_off13 v72) a + S1x1x4096.size a ≤ S1x512x4096.size a := fun v72 k0_hw6 => k0_hw6

def k0_off14 (i : grid0.Coords) : Fin 2 → Nat :=
  let arg0 : BitVec 32 := BitVec.ofNat 32 (i 0).val
  let v84 : Index := Scalar.indexCast arg0
  let c6_i32 : BitVec 32 := 6#32
  let v85 : Index := Scalar.indexCast c6_i32
  ![v84.toNat, 6]
def k0_off15 (v86 : BitVec 32) : Fin 3 → Nat :=
  let c0_51 : Index := 0#32
  let v94 : Index := Scalar.indexCast v86
  let c0_52 : Index := 0#32
  ![0, v94.toNat, 0]

def k0_chk7 (v86 : BitVec 32) : Prop :=
  (∀ a, (k0_off15 v86) a + S1x1x4096.size a ≤ S1x512x4096.size a)
instance k0_chk7.dec : ∀ (v86 : BitVec 32), Decidable (k0_chk7 v86) := fun v86 => decidable_of_iff' _ (Iff.of_eq (k0_chk7.eq_1 v86))
theorem k0_off15_inb : ∀ (v86 : BitVec 32) (k0_hw7 : k0_chk7 v86), ∀ a, (k0_off15 v86) a + S1x1x4096.size a ≤ S1x512x4096.size a := fun v86 k0_hw7 => k0_hw7

def k0_off16 (i : grid0.Coords) : Fin 2 → Nat :=
  let arg0 : BitVec 32 := BitVec.ofNat 32 (i 0).val
  let v98 : Index := Scalar.indexCast arg0
  let c7_i32 : BitVec 32 := 7#32
  let v99 : Index := Scalar.indexCast c7_i32
  ![v98.toNat, 7]
def k0_off17 (v100 : BitVec 32) : Fin 3 → Nat :=
  let c0_59 : Index := 0#32
  let v108 : Index := Scalar.indexCast v100
  let c0_60 : Index := 0#32
  ![0, v108.toNat, 0]

def k0_chk8 (v100 : BitVec 32) : Prop :=
  (∀ a, (k0_off17 v100) a + S1x1x4096.size a ≤ S1x512x4096.size a)
instance k0_chk8.dec : ∀ (v100 : BitVec 32), Decidable (k0_chk8 v100) := fun v100 => decidable_of_iff' _ (Iff.of_eq (k0_chk8.eq_1 v100))
theorem k0_off17_inb : ∀ (v100 : BitVec 32) (k0_hw8 : k0_chk8 v100), ∀ a, (k0_off17 v100) a + S1x1x4096.size a ≤ S1x512x4096.size a := fun v100 k0_hw8 => k0_hw8

def k0_off18 (i : grid0.Coords) : Fin 2 → Nat :=
  let arg0 : BitVec 32 := BitVec.ofNat 32 (i 0).val
  let v112 : Index := Scalar.indexCast arg0
  let c8_i32 : BitVec 32 := 8#32
  let v113 : Index := Scalar.indexCast c8_i32
  ![v112.toNat, 8]
def k0_off19 (v114 : BitVec 32) : Fin 3 → Nat :=
  let c0_67 : Index := 0#32
  let v122 : Index := Scalar.indexCast v114
  let c0_68 : Index := 0#32
  ![0, v122.toNat, 0]

def k0_chk9 (v114 : BitVec 32) : Prop :=
  (∀ a, (k0_off19 v114) a + S1x1x4096.size a ≤ S1x512x4096.size a)
instance k0_chk9.dec : ∀ (v114 : BitVec 32), Decidable (k0_chk9 v114) := fun v114 => decidable_of_iff' _ (Iff.of_eq (k0_chk9.eq_1 v114))
theorem k0_off19_inb : ∀ (v114 : BitVec 32) (k0_hw9 : k0_chk9 v114), ∀ a, (k0_off19 v114) a + S1x1x4096.size a ≤ S1x512x4096.size a := fun v114 k0_hw9 => k0_hw9

def k0_off20 (i : grid0.Coords) : Fin 2 → Nat :=
  let arg0 : BitVec 32 := BitVec.ofNat 32 (i 0).val
  let v126 : Index := Scalar.indexCast arg0
  let c9_i32 : BitVec 32 := 9#32
  let v127 : Index := Scalar.indexCast c9_i32
  ![v126.toNat, 9]
def k0_off21 (v128 : BitVec 32) : Fin 3 → Nat :=
  let c0_75 : Index := 0#32
  let v136 : Index := Scalar.indexCast v128
  let c0_76 : Index := 0#32
  ![0, v136.toNat, 0]

def k0_chk10 (v128 : BitVec 32) : Prop :=
  (∀ a, (k0_off21 v128) a + S1x1x4096.size a ≤ S1x512x4096.size a)
instance k0_chk10.dec : ∀ (v128 : BitVec 32), Decidable (k0_chk10 v128) := fun v128 => decidable_of_iff' _ (Iff.of_eq (k0_chk10.eq_1 v128))
theorem k0_off21_inb : ∀ (v128 : BitVec 32) (k0_hw10 : k0_chk10 v128), ∀ a, (k0_off21 v128) a + S1x1x4096.size a ≤ S1x512x4096.size a := fun v128 k0_hw10 => k0_hw10

def k0_off22 (i : grid0.Coords) : Fin 2 → Nat :=
  let arg0 : BitVec 32 := BitVec.ofNat 32 (i 0).val
  let v140 : Index := Scalar.indexCast arg0
  let c10_i32 : BitVec 32 := 10#32
  let v141 : Index := Scalar.indexCast c10_i32
  ![v140.toNat, 10]
def k0_off23 (v142 : BitVec 32) : Fin 3 → Nat :=
  let c0_83 : Index := 0#32
  let v150 : Index := Scalar.indexCast v142
  let c0_84 : Index := 0#32
  ![0, v150.toNat, 0]

def k0_chk11 (v142 : BitVec 32) : Prop :=
  (∀ a, (k0_off23 v142) a + S1x1x4096.size a ≤ S1x512x4096.size a)
instance k0_chk11.dec : ∀ (v142 : BitVec 32), Decidable (k0_chk11 v142) := fun v142 => decidable_of_iff' _ (Iff.of_eq (k0_chk11.eq_1 v142))
theorem k0_off23_inb : ∀ (v142 : BitVec 32) (k0_hw11 : k0_chk11 v142), ∀ a, (k0_off23 v142) a + S1x1x4096.size a ≤ S1x512x4096.size a := fun v142 k0_hw11 => k0_hw11

def k0_off24 (i : grid0.Coords) : Fin 2 → Nat :=
  let arg0 : BitVec 32 := BitVec.ofNat 32 (i 0).val
  let v154 : Index := Scalar.indexCast arg0
  let c11_i32 : BitVec 32 := 11#32
  let v155 : Index := Scalar.indexCast c11_i32
  ![v154.toNat, 11]
def k0_off25 (v156 : BitVec 32) : Fin 3 → Nat :=
  let c0_91 : Index := 0#32
  let v164 : Index := Scalar.indexCast v156
  let c0_92 : Index := 0#32
  ![0, v164.toNat, 0]

def k0_chk12 (v156 : BitVec 32) : Prop :=
  (∀ a, (k0_off25 v156) a + S1x1x4096.size a ≤ S1x512x4096.size a)
instance k0_chk12.dec : ∀ (v156 : BitVec 32), Decidable (k0_chk12 v156) := fun v156 => decidable_of_iff' _ (Iff.of_eq (k0_chk12.eq_1 v156))
theorem k0_off25_inb : ∀ (v156 : BitVec 32) (k0_hw12 : k0_chk12 v156), ∀ a, (k0_off25 v156) a + S1x1x4096.size a ≤ S1x512x4096.size a := fun v156 k0_hw12 => k0_hw12

def k0_off26 (i : grid0.Coords) : Fin 2 → Nat :=
  let arg0 : BitVec 32 := BitVec.ofNat 32 (i 0).val
  let v168 : Index := Scalar.indexCast arg0
  let c12_i32 : BitVec 32 := 12#32
  let v169 : Index := Scalar.indexCast c12_i32
  ![v168.toNat, 12]
def k0_off27 (v170 : BitVec 32) : Fin 3 → Nat :=
  let c0_99 : Index := 0#32
  let v178 : Index := Scalar.indexCast v170
  let c0_100 : Index := 0#32
  ![0, v178.toNat, 0]

def k0_chk13 (v170 : BitVec 32) : Prop :=
  (∀ a, (k0_off27 v170) a + S1x1x4096.size a ≤ S1x512x4096.size a)
instance k0_chk13.dec : ∀ (v170 : BitVec 32), Decidable (k0_chk13 v170) := fun v170 => decidable_of_iff' _ (Iff.of_eq (k0_chk13.eq_1 v170))
theorem k0_off27_inb : ∀ (v170 : BitVec 32) (k0_hw13 : k0_chk13 v170), ∀ a, (k0_off27 v170) a + S1x1x4096.size a ≤ S1x512x4096.size a := fun v170 k0_hw13 => k0_hw13

def k0_off28 (i : grid0.Coords) : Fin 2 → Nat :=
  let arg0 : BitVec 32 := BitVec.ofNat 32 (i 0).val
  let v182 : Index := Scalar.indexCast arg0
  let c13_i32 : BitVec 32 := 13#32
  let v183 : Index := Scalar.indexCast c13_i32
  ![v182.toNat, 13]
def k0_off29 (v184 : BitVec 32) : Fin 3 → Nat :=
  let c0_107 : Index := 0#32
  let v192 : Index := Scalar.indexCast v184
  let c0_108 : Index := 0#32
  ![0, v192.toNat, 0]

def k0_chk14 (v184 : BitVec 32) : Prop :=
  (∀ a, (k0_off29 v184) a + S1x1x4096.size a ≤ S1x512x4096.size a)
instance k0_chk14.dec : ∀ (v184 : BitVec 32), Decidable (k0_chk14 v184) := fun v184 => decidable_of_iff' _ (Iff.of_eq (k0_chk14.eq_1 v184))
theorem k0_off29_inb : ∀ (v184 : BitVec 32) (k0_hw14 : k0_chk14 v184), ∀ a, (k0_off29 v184) a + S1x1x4096.size a ≤ S1x512x4096.size a := fun v184 k0_hw14 => k0_hw14

def k0_off30 (i : grid0.Coords) : Fin 2 → Nat :=
  let arg0 : BitVec 32 := BitVec.ofNat 32 (i 0).val
  let v196 : Index := Scalar.indexCast arg0
  let c14_i32 : BitVec 32 := 14#32
  let v197 : Index := Scalar.indexCast c14_i32
  ![v196.toNat, 14]
def k0_off31 (v198 : BitVec 32) : Fin 3 → Nat :=
  let c0_115 : Index := 0#32
  let v206 : Index := Scalar.indexCast v198
  let c0_116 : Index := 0#32
  ![0, v206.toNat, 0]

def k0_chk15 (v198 : BitVec 32) : Prop :=
  (∀ a, (k0_off31 v198) a + S1x1x4096.size a ≤ S1x512x4096.size a)
instance k0_chk15.dec : ∀ (v198 : BitVec 32), Decidable (k0_chk15 v198) := fun v198 => decidable_of_iff' _ (Iff.of_eq (k0_chk15.eq_1 v198))
theorem k0_off31_inb : ∀ (v198 : BitVec 32) (k0_hw15 : k0_chk15 v198), ∀ a, (k0_off31 v198) a + S1x1x4096.size a ≤ S1x512x4096.size a := fun v198 k0_hw15 => k0_hw15

def k0_off32 (i : grid0.Coords) : Fin 2 → Nat :=
  let arg0 : BitVec 32 := BitVec.ofNat 32 (i 0).val
  let v210 : Index := Scalar.indexCast arg0
  let c15_i32 : BitVec 32 := 15#32
  let v211 : Index := Scalar.indexCast c15_i32
  ![v210.toNat, 15]
def k0_off33 (v212 : BitVec 32) : Fin 3 → Nat :=
  let c0_123 : Index := 0#32
  let v220 : Index := Scalar.indexCast v212
  let c0_124 : Index := 0#32
  ![0, v220.toNat, 0]

def k0_chk16 (v212 : BitVec 32) : Prop :=
  (∀ a, (k0_off33 v212) a + S1x1x4096.size a ≤ S1x512x4096.size a)
instance k0_chk16.dec : ∀ (v212 : BitVec 32), Decidable (k0_chk16 v212) := fun v212 => decidable_of_iff' _ (Iff.of_eq (k0_chk16.eq_1 v212))
theorem k0_off33_inb : ∀ (v212 : BitVec 32) (k0_hw16 : k0_chk16 v212), ∀ a, (k0_off33 v212) a + S1x1x4096.size a ≤ S1x512x4096.size a := fun v212 k0_hw16 => k0_hw16

def k0_off34 (i : grid0.Coords) : Fin 2 → Nat :=
  let arg0 : BitVec 32 := BitVec.ofNat 32 (i 0).val
  let v224 : Index := Scalar.indexCast arg0
  let c16_i32 : BitVec 32 := 16#32
  let v225 : Index := Scalar.indexCast c16_i32
  ![v224.toNat, 16]
def k0_off35 (v226 : BitVec 32) : Fin 3 → Nat :=
  let c0_131 : Index := 0#32
  let v234 : Index := Scalar.indexCast v226
  let c0_132 : Index := 0#32
  ![0, v234.toNat, 0]

def k0_chk17 (v226 : BitVec 32) : Prop :=
  (∀ a, (k0_off35 v226) a + S1x1x4096.size a ≤ S1x512x4096.size a)
instance k0_chk17.dec : ∀ (v226 : BitVec 32), Decidable (k0_chk17 v226) := fun v226 => decidable_of_iff' _ (Iff.of_eq (k0_chk17.eq_1 v226))
theorem k0_off35_inb : ∀ (v226 : BitVec 32) (k0_hw17 : k0_chk17 v226), ∀ a, (k0_off35 v226) a + S1x1x4096.size a ≤ S1x512x4096.size a := fun v226 k0_hw17 => k0_hw17

def k0_off36 (i : grid0.Coords) : Fin 2 → Nat :=
  let arg0 : BitVec 32 := BitVec.ofNat 32 (i 0).val
  let v238 : Index := Scalar.indexCast arg0
  let c17_i32 : BitVec 32 := 17#32
  let v239 : Index := Scalar.indexCast c17_i32
  ![v238.toNat, 17]
def k0_off37 (v240 : BitVec 32) : Fin 3 → Nat :=
  let c0_139 : Index := 0#32
  let v248 : Index := Scalar.indexCast v240
  let c0_140 : Index := 0#32
  ![0, v248.toNat, 0]

def k0_chk18 (v240 : BitVec 32) : Prop :=
  (∀ a, (k0_off37 v240) a + S1x1x4096.size a ≤ S1x512x4096.size a)
instance k0_chk18.dec : ∀ (v240 : BitVec 32), Decidable (k0_chk18 v240) := fun v240 => decidable_of_iff' _ (Iff.of_eq (k0_chk18.eq_1 v240))
theorem k0_off37_inb : ∀ (v240 : BitVec 32) (k0_hw18 : k0_chk18 v240), ∀ a, (k0_off37 v240) a + S1x1x4096.size a ≤ S1x512x4096.size a := fun v240 k0_hw18 => k0_hw18

def k0_off38 (i : grid0.Coords) : Fin 2 → Nat :=
  let arg0 : BitVec 32 := BitVec.ofNat 32 (i 0).val
  let v252 : Index := Scalar.indexCast arg0
  let c18_i32 : BitVec 32 := 18#32
  let v253 : Index := Scalar.indexCast c18_i32
  ![v252.toNat, 18]
def k0_off39 (v254 : BitVec 32) : Fin 3 → Nat :=
  let c0_147 : Index := 0#32
  let v262 : Index := Scalar.indexCast v254
  let c0_148 : Index := 0#32
  ![0, v262.toNat, 0]

def k0_chk19 (v254 : BitVec 32) : Prop :=
  (∀ a, (k0_off39 v254) a + S1x1x4096.size a ≤ S1x512x4096.size a)
instance k0_chk19.dec : ∀ (v254 : BitVec 32), Decidable (k0_chk19 v254) := fun v254 => decidable_of_iff' _ (Iff.of_eq (k0_chk19.eq_1 v254))
theorem k0_off39_inb : ∀ (v254 : BitVec 32) (k0_hw19 : k0_chk19 v254), ∀ a, (k0_off39 v254) a + S1x1x4096.size a ≤ S1x512x4096.size a := fun v254 k0_hw19 => k0_hw19

def k0_off40 (i : grid0.Coords) : Fin 2 → Nat :=
  let arg0 : BitVec 32 := BitVec.ofNat 32 (i 0).val
  let v266 : Index := Scalar.indexCast arg0
  let c19_i32 : BitVec 32 := 19#32
  let v267 : Index := Scalar.indexCast c19_i32
  ![v266.toNat, 19]
def k0_off41 (v268 : BitVec 32) : Fin 3 → Nat :=
  let c0_155 : Index := 0#32
  let v276 : Index := Scalar.indexCast v268
  let c0_156 : Index := 0#32
  ![0, v276.toNat, 0]

def k0_chk20 (v268 : BitVec 32) : Prop :=
  (∀ a, (k0_off41 v268) a + S1x1x4096.size a ≤ S1x512x4096.size a)
instance k0_chk20.dec : ∀ (v268 : BitVec 32), Decidable (k0_chk20 v268) := fun v268 => decidable_of_iff' _ (Iff.of_eq (k0_chk20.eq_1 v268))
theorem k0_off41_inb : ∀ (v268 : BitVec 32) (k0_hw20 : k0_chk20 v268), ∀ a, (k0_off41 v268) a + S1x1x4096.size a ≤ S1x512x4096.size a := fun v268 k0_hw20 => k0_hw20

def k0_off42 (i : grid0.Coords) : Fin 2 → Nat :=
  let arg0 : BitVec 32 := BitVec.ofNat 32 (i 0).val
  let v280 : Index := Scalar.indexCast arg0
  let c20_i32 : BitVec 32 := 20#32
  let v281 : Index := Scalar.indexCast c20_i32
  ![v280.toNat, 20]
def k0_off43 (v282 : BitVec 32) : Fin 3 → Nat :=
  let c0_163 : Index := 0#32
  let v290 : Index := Scalar.indexCast v282
  let c0_164 : Index := 0#32
  ![0, v290.toNat, 0]

def k0_chk21 (v282 : BitVec 32) : Prop :=
  (∀ a, (k0_off43 v282) a + S1x1x4096.size a ≤ S1x512x4096.size a)
instance k0_chk21.dec : ∀ (v282 : BitVec 32), Decidable (k0_chk21 v282) := fun v282 => decidable_of_iff' _ (Iff.of_eq (k0_chk21.eq_1 v282))
theorem k0_off43_inb : ∀ (v282 : BitVec 32) (k0_hw21 : k0_chk21 v282), ∀ a, (k0_off43 v282) a + S1x1x4096.size a ≤ S1x512x4096.size a := fun v282 k0_hw21 => k0_hw21

def k0_off44 (i : grid0.Coords) : Fin 2 → Nat :=
  let arg0 : BitVec 32 := BitVec.ofNat 32 (i 0).val
  let v294 : Index := Scalar.indexCast arg0
  let c21_i32 : BitVec 32 := 21#32
  let v295 : Index := Scalar.indexCast c21_i32
  ![v294.toNat, 21]
def k0_off45 (v296 : BitVec 32) : Fin 3 → Nat :=
  let c0_171 : Index := 0#32
  let v304 : Index := Scalar.indexCast v296
  let c0_172 : Index := 0#32
  ![0, v304.toNat, 0]

def k0_chk22 (v296 : BitVec 32) : Prop :=
  (∀ a, (k0_off45 v296) a + S1x1x4096.size a ≤ S1x512x4096.size a)
instance k0_chk22.dec : ∀ (v296 : BitVec 32), Decidable (k0_chk22 v296) := fun v296 => decidable_of_iff' _ (Iff.of_eq (k0_chk22.eq_1 v296))
theorem k0_off45_inb : ∀ (v296 : BitVec 32) (k0_hw22 : k0_chk22 v296), ∀ a, (k0_off45 v296) a + S1x1x4096.size a ≤ S1x512x4096.size a := fun v296 k0_hw22 => k0_hw22

def k0_off46 (i : grid0.Coords) : Fin 2 → Nat :=
  let arg0 : BitVec 32 := BitVec.ofNat 32 (i 0).val
  let v308 : Index := Scalar.indexCast arg0
  let c22_i32 : BitVec 32 := 22#32
  let v309 : Index := Scalar.indexCast c22_i32
  ![v308.toNat, 22]
def k0_off47 (v310 : BitVec 32) : Fin 3 → Nat :=
  let c0_179 : Index := 0#32
  let v318 : Index := Scalar.indexCast v310
  let c0_180 : Index := 0#32
  ![0, v318.toNat, 0]

def k0_chk23 (v310 : BitVec 32) : Prop :=
  (∀ a, (k0_off47 v310) a + S1x1x4096.size a ≤ S1x512x4096.size a)
instance k0_chk23.dec : ∀ (v310 : BitVec 32), Decidable (k0_chk23 v310) := fun v310 => decidable_of_iff' _ (Iff.of_eq (k0_chk23.eq_1 v310))
theorem k0_off47_inb : ∀ (v310 : BitVec 32) (k0_hw23 : k0_chk23 v310), ∀ a, (k0_off47 v310) a + S1x1x4096.size a ≤ S1x512x4096.size a := fun v310 k0_hw23 => k0_hw23

def k0_off48 (i : grid0.Coords) : Fin 2 → Nat :=
  let arg0 : BitVec 32 := BitVec.ofNat 32 (i 0).val
  let v322 : Index := Scalar.indexCast arg0
  let c23_i32 : BitVec 32 := 23#32
  let v323 : Index := Scalar.indexCast c23_i32
  ![v322.toNat, 23]
def k0_off49 (v324 : BitVec 32) : Fin 3 → Nat :=
  let c0_187 : Index := 0#32
  let v332 : Index := Scalar.indexCast v324
  let c0_188 : Index := 0#32
  ![0, v332.toNat, 0]

def k0_chk24 (v324 : BitVec 32) : Prop :=
  (∀ a, (k0_off49 v324) a + S1x1x4096.size a ≤ S1x512x4096.size a)
instance k0_chk24.dec : ∀ (v324 : BitVec 32), Decidable (k0_chk24 v324) := fun v324 => decidable_of_iff' _ (Iff.of_eq (k0_chk24.eq_1 v324))
theorem k0_off49_inb : ∀ (v324 : BitVec 32) (k0_hw24 : k0_chk24 v324), ∀ a, (k0_off49 v324) a + S1x1x4096.size a ≤ S1x512x4096.size a := fun v324 k0_hw24 => k0_hw24

def k0_off50 (i : grid0.Coords) : Fin 2 → Nat :=
  let arg0 : BitVec 32 := BitVec.ofNat 32 (i 0).val
  let v336 : Index := Scalar.indexCast arg0
  let c24_i32 : BitVec 32 := 24#32
  let v337 : Index := Scalar.indexCast c24_i32
  ![v336.toNat, 24]
def k0_off51 (v338 : BitVec 32) : Fin 3 → Nat :=
  let c0_195 : Index := 0#32
  let v346 : Index := Scalar.indexCast v338
  let c0_196 : Index := 0#32
  ![0, v346.toNat, 0]

def k0_chk25 (v338 : BitVec 32) : Prop :=
  (∀ a, (k0_off51 v338) a + S1x1x4096.size a ≤ S1x512x4096.size a)
instance k0_chk25.dec : ∀ (v338 : BitVec 32), Decidable (k0_chk25 v338) := fun v338 => decidable_of_iff' _ (Iff.of_eq (k0_chk25.eq_1 v338))
theorem k0_off51_inb : ∀ (v338 : BitVec 32) (k0_hw25 : k0_chk25 v338), ∀ a, (k0_off51 v338) a + S1x1x4096.size a ≤ S1x512x4096.size a := fun v338 k0_hw25 => k0_hw25

def k0_off52 (i : grid0.Coords) : Fin 2 → Nat :=
  let arg0 : BitVec 32 := BitVec.ofNat 32 (i 0).val
  let v350 : Index := Scalar.indexCast arg0
  let c25_i32 : BitVec 32 := 25#32
  let v351 : Index := Scalar.indexCast c25_i32
  ![v350.toNat, 25]
def k0_off53 (v352 : BitVec 32) : Fin 3 → Nat :=
  let c0_203 : Index := 0#32
  let v360 : Index := Scalar.indexCast v352
  let c0_204 : Index := 0#32
  ![0, v360.toNat, 0]

def k0_chk26 (v352 : BitVec 32) : Prop :=
  (∀ a, (k0_off53 v352) a + S1x1x4096.size a ≤ S1x512x4096.size a)
instance k0_chk26.dec : ∀ (v352 : BitVec 32), Decidable (k0_chk26 v352) := fun v352 => decidable_of_iff' _ (Iff.of_eq (k0_chk26.eq_1 v352))
theorem k0_off53_inb : ∀ (v352 : BitVec 32) (k0_hw26 : k0_chk26 v352), ∀ a, (k0_off53 v352) a + S1x1x4096.size a ≤ S1x512x4096.size a := fun v352 k0_hw26 => k0_hw26

def k0_off54 (i : grid0.Coords) : Fin 2 → Nat :=
  let arg0 : BitVec 32 := BitVec.ofNat 32 (i 0).val
  let v364 : Index := Scalar.indexCast arg0
  let c26_i32 : BitVec 32 := 26#32
  let v365 : Index := Scalar.indexCast c26_i32
  ![v364.toNat, 26]
def k0_off55 (v366 : BitVec 32) : Fin 3 → Nat :=
  let c0_211 : Index := 0#32
  let v374 : Index := Scalar.indexCast v366
  let c0_212 : Index := 0#32
  ![0, v374.toNat, 0]

def k0_chk27 (v366 : BitVec 32) : Prop :=
  (∀ a, (k0_off55 v366) a + S1x1x4096.size a ≤ S1x512x4096.size a)
instance k0_chk27.dec : ∀ (v366 : BitVec 32), Decidable (k0_chk27 v366) := fun v366 => decidable_of_iff' _ (Iff.of_eq (k0_chk27.eq_1 v366))
theorem k0_off55_inb : ∀ (v366 : BitVec 32) (k0_hw27 : k0_chk27 v366), ∀ a, (k0_off55 v366) a + S1x1x4096.size a ≤ S1x512x4096.size a := fun v366 k0_hw27 => k0_hw27

def k0_off56 (i : grid0.Coords) : Fin 2 → Nat :=
  let arg0 : BitVec 32 := BitVec.ofNat 32 (i 0).val
  let v378 : Index := Scalar.indexCast arg0
  let c27_i32 : BitVec 32 := 27#32
  let v379 : Index := Scalar.indexCast c27_i32
  ![v378.toNat, 27]
def k0_off57 (v380 : BitVec 32) : Fin 3 → Nat :=
  let c0_219 : Index := 0#32
  let v388 : Index := Scalar.indexCast v380
  let c0_220 : Index := 0#32
  ![0, v388.toNat, 0]

def k0_chk28 (v380 : BitVec 32) : Prop :=
  (∀ a, (k0_off57 v380) a + S1x1x4096.size a ≤ S1x512x4096.size a)
instance k0_chk28.dec : ∀ (v380 : BitVec 32), Decidable (k0_chk28 v380) := fun v380 => decidable_of_iff' _ (Iff.of_eq (k0_chk28.eq_1 v380))
theorem k0_off57_inb : ∀ (v380 : BitVec 32) (k0_hw28 : k0_chk28 v380), ∀ a, (k0_off57 v380) a + S1x1x4096.size a ≤ S1x512x4096.size a := fun v380 k0_hw28 => k0_hw28

def k0_off58 (i : grid0.Coords) : Fin 2 → Nat :=
  let arg0 : BitVec 32 := BitVec.ofNat 32 (i 0).val
  let v392 : Index := Scalar.indexCast arg0
  let c28_i32 : BitVec 32 := 28#32
  let v393 : Index := Scalar.indexCast c28_i32
  ![v392.toNat, 28]
def k0_off59 (v394 : BitVec 32) : Fin 3 → Nat :=
  let c0_227 : Index := 0#32
  let v402 : Index := Scalar.indexCast v394
  let c0_228 : Index := 0#32
  ![0, v402.toNat, 0]

def k0_chk29 (v394 : BitVec 32) : Prop :=
  (∀ a, (k0_off59 v394) a + S1x1x4096.size a ≤ S1x512x4096.size a)
instance k0_chk29.dec : ∀ (v394 : BitVec 32), Decidable (k0_chk29 v394) := fun v394 => decidable_of_iff' _ (Iff.of_eq (k0_chk29.eq_1 v394))
theorem k0_off59_inb : ∀ (v394 : BitVec 32) (k0_hw29 : k0_chk29 v394), ∀ a, (k0_off59 v394) a + S1x1x4096.size a ≤ S1x512x4096.size a := fun v394 k0_hw29 => k0_hw29

def k0_off60 (i : grid0.Coords) : Fin 2 → Nat :=
  let arg0 : BitVec 32 := BitVec.ofNat 32 (i 0).val
  let v406 : Index := Scalar.indexCast arg0
  let c29_i32 : BitVec 32 := 29#32
  let v407 : Index := Scalar.indexCast c29_i32
  ![v406.toNat, 29]
def k0_off61 (v408 : BitVec 32) : Fin 3 → Nat :=
  let c0_235 : Index := 0#32
  let v416 : Index := Scalar.indexCast v408
  let c0_236 : Index := 0#32
  ![0, v416.toNat, 0]

def k0_chk30 (v408 : BitVec 32) : Prop :=
  (∀ a, (k0_off61 v408) a + S1x1x4096.size a ≤ S1x512x4096.size a)
instance k0_chk30.dec : ∀ (v408 : BitVec 32), Decidable (k0_chk30 v408) := fun v408 => decidable_of_iff' _ (Iff.of_eq (k0_chk30.eq_1 v408))
theorem k0_off61_inb : ∀ (v408 : BitVec 32) (k0_hw30 : k0_chk30 v408), ∀ a, (k0_off61 v408) a + S1x1x4096.size a ≤ S1x512x4096.size a := fun v408 k0_hw30 => k0_hw30

def k0_off62 (i : grid0.Coords) : Fin 2 → Nat :=
  let arg0 : BitVec 32 := BitVec.ofNat 32 (i 0).val
  let v420 : Index := Scalar.indexCast arg0
  let c30_i32 : BitVec 32 := 30#32
  let v421 : Index := Scalar.indexCast c30_i32
  ![v420.toNat, 30]
def k0_off63 (v422 : BitVec 32) : Fin 3 → Nat :=
  let c0_243 : Index := 0#32
  let v430 : Index := Scalar.indexCast v422
  let c0_244 : Index := 0#32
  ![0, v430.toNat, 0]

def k0_chk31 (v422 : BitVec 32) : Prop :=
  (∀ a, (k0_off63 v422) a + S1x1x4096.size a ≤ S1x512x4096.size a)
instance k0_chk31.dec : ∀ (v422 : BitVec 32), Decidable (k0_chk31 v422) := fun v422 => decidable_of_iff' _ (Iff.of_eq (k0_chk31.eq_1 v422))
theorem k0_off63_inb : ∀ (v422 : BitVec 32) (k0_hw31 : k0_chk31 v422), ∀ a, (k0_off63 v422) a + S1x1x4096.size a ≤ S1x512x4096.size a := fun v422 k0_hw31 => k0_hw31

def k0_off64 (i : grid0.Coords) : Fin 2 → Nat :=
  let arg0 : BitVec 32 := BitVec.ofNat 32 (i 0).val
  let v434 : Index := Scalar.indexCast arg0
  let c31_i32 : BitVec 32 := 31#32
  let v435 : Index := Scalar.indexCast c31_i32
  ![v434.toNat, 31]
def k0_off65 (v436 : BitVec 32) : Fin 3 → Nat :=
  let c0_251 : Index := 0#32
  let v444 : Index := Scalar.indexCast v436
  let c0_252 : Index := 0#32
  ![0, v444.toNat, 0]

def k0_chk32 (v436 : BitVec 32) : Prop :=
  (∀ a, (k0_off65 v436) a + S1x1x4096.size a ≤ S1x512x4096.size a)
instance k0_chk32.dec : ∀ (v436 : BitVec 32), Decidable (k0_chk32 v436) := fun v436 => decidable_of_iff' _ (Iff.of_eq (k0_chk32.eq_1 v436))
theorem k0_off65_inb : ∀ (v436 : BitVec 32) (k0_hw32 : k0_chk32 v436), ∀ a, (k0_off65 v436) a + S1x1x4096.size a ≤ S1x512x4096.size a := fun v436 k0_hw32 => k0_hw32

def k0_off66 (i : grid0.Coords) : Fin 2 → Nat :=
  let arg0 : BitVec 32 := BitVec.ofNat 32 (i 0).val
  let v448 : Index := Scalar.indexCast arg0
  let c32_i32 : BitVec 32 := 32#32
  let v449 : Index := Scalar.indexCast c32_i32
  ![v448.toNat, 32]
def k0_off67 (v450 : BitVec 32) : Fin 3 → Nat :=
  let c0_259 : Index := 0#32
  let v458 : Index := Scalar.indexCast v450
  let c0_260 : Index := 0#32
  ![0, v458.toNat, 0]

def k0_chk33 (v450 : BitVec 32) : Prop :=
  (∀ a, (k0_off67 v450) a + S1x1x4096.size a ≤ S1x512x4096.size a)
instance k0_chk33.dec : ∀ (v450 : BitVec 32), Decidable (k0_chk33 v450) := fun v450 => decidable_of_iff' _ (Iff.of_eq (k0_chk33.eq_1 v450))
theorem k0_off67_inb : ∀ (v450 : BitVec 32) (k0_hw33 : k0_chk33 v450), ∀ a, (k0_off67 v450) a + S1x1x4096.size a ≤ S1x512x4096.size a := fun v450 k0_hw33 => k0_hw33

def k0_off68 (i : grid0.Coords) : Fin 2 → Nat :=
  let arg0 : BitVec 32 := BitVec.ofNat 32 (i 0).val
  let v462 : Index := Scalar.indexCast arg0
  let c33_i32 : BitVec 32 := 33#32
  let v463 : Index := Scalar.indexCast c33_i32
  ![v462.toNat, 33]
def k0_off69 (v464 : BitVec 32) : Fin 3 → Nat :=
  let c0_267 : Index := 0#32
  let v472 : Index := Scalar.indexCast v464
  let c0_268 : Index := 0#32
  ![0, v472.toNat, 0]

def k0_chk34 (v464 : BitVec 32) : Prop :=
  (∀ a, (k0_off69 v464) a + S1x1x4096.size a ≤ S1x512x4096.size a)
instance k0_chk34.dec : ∀ (v464 : BitVec 32), Decidable (k0_chk34 v464) := fun v464 => decidable_of_iff' _ (Iff.of_eq (k0_chk34.eq_1 v464))
theorem k0_off69_inb : ∀ (v464 : BitVec 32) (k0_hw34 : k0_chk34 v464), ∀ a, (k0_off69 v464) a + S1x1x4096.size a ≤ S1x512x4096.size a := fun v464 k0_hw34 => k0_hw34

def k0_off70 (i : grid0.Coords) : Fin 2 → Nat :=
  let arg0 : BitVec 32 := BitVec.ofNat 32 (i 0).val
  let v476 : Index := Scalar.indexCast arg0
  let c34_i32 : BitVec 32 := 34#32
  let v477 : Index := Scalar.indexCast c34_i32
  ![v476.toNat, 34]
def k0_off71 (v478 : BitVec 32) : Fin 3 → Nat :=
  let c0_275 : Index := 0#32
  let v486 : Index := Scalar.indexCast v478
  let c0_276 : Index := 0#32
  ![0, v486.toNat, 0]

def k0_chk35 (v478 : BitVec 32) : Prop :=
  (∀ a, (k0_off71 v478) a + S1x1x4096.size a ≤ S1x512x4096.size a)
instance k0_chk35.dec : ∀ (v478 : BitVec 32), Decidable (k0_chk35 v478) := fun v478 => decidable_of_iff' _ (Iff.of_eq (k0_chk35.eq_1 v478))
theorem k0_off71_inb : ∀ (v478 : BitVec 32) (k0_hw35 : k0_chk35 v478), ∀ a, (k0_off71 v478) a + S1x1x4096.size a ≤ S1x512x4096.size a := fun v478 k0_hw35 => k0_hw35

def k0_off72 (i : grid0.Coords) : Fin 2 → Nat :=
  let arg0 : BitVec 32 := BitVec.ofNat 32 (i 0).val
  let v490 : Index := Scalar.indexCast arg0
  let c35_i32 : BitVec 32 := 35#32
  let v491 : Index := Scalar.indexCast c35_i32
  ![v490.toNat, 35]
def k0_off73 (v492 : BitVec 32) : Fin 3 → Nat :=
  let c0_283 : Index := 0#32
  let v500 : Index := Scalar.indexCast v492
  let c0_284 : Index := 0#32
  ![0, v500.toNat, 0]

def k0_chk36 (v492 : BitVec 32) : Prop :=
  (∀ a, (k0_off73 v492) a + S1x1x4096.size a ≤ S1x512x4096.size a)
instance k0_chk36.dec : ∀ (v492 : BitVec 32), Decidable (k0_chk36 v492) := fun v492 => decidable_of_iff' _ (Iff.of_eq (k0_chk36.eq_1 v492))
theorem k0_off73_inb : ∀ (v492 : BitVec 32) (k0_hw36 : k0_chk36 v492), ∀ a, (k0_off73 v492) a + S1x1x4096.size a ≤ S1x512x4096.size a := fun v492 k0_hw36 => k0_hw36

def k0_off74 (i : grid0.Coords) : Fin 2 → Nat :=
  let arg0 : BitVec 32 := BitVec.ofNat 32 (i 0).val
  let v504 : Index := Scalar.indexCast arg0
  let c36_i32 : BitVec 32 := 36#32
  let v505 : Index := Scalar.indexCast c36_i32
  ![v504.toNat, 36]
def k0_off75 (v506 : BitVec 32) : Fin 3 → Nat :=
  let c0_291 : Index := 0#32
  let v514 : Index := Scalar.indexCast v506
  let c0_292 : Index := 0#32
  ![0, v514.toNat, 0]

def k0_chk37 (v506 : BitVec 32) : Prop :=
  (∀ a, (k0_off75 v506) a + S1x1x4096.size a ≤ S1x512x4096.size a)
instance k0_chk37.dec : ∀ (v506 : BitVec 32), Decidable (k0_chk37 v506) := fun v506 => decidable_of_iff' _ (Iff.of_eq (k0_chk37.eq_1 v506))
theorem k0_off75_inb : ∀ (v506 : BitVec 32) (k0_hw37 : k0_chk37 v506), ∀ a, (k0_off75 v506) a + S1x1x4096.size a ≤ S1x512x4096.size a := fun v506 k0_hw37 => k0_hw37

def k0_off76 (i : grid0.Coords) : Fin 2 → Nat :=
  let arg0 : BitVec 32 := BitVec.ofNat 32 (i 0).val
  let v518 : Index := Scalar.indexCast arg0
  let c37_i32 : BitVec 32 := 37#32
  let v519 : Index := Scalar.indexCast c37_i32
  ![v518.toNat, 37]
def k0_off77 (v520 : BitVec 32) : Fin 3 → Nat :=
  let c0_299 : Index := 0#32
  let v528 : Index := Scalar.indexCast v520
  let c0_300 : Index := 0#32
  ![0, v528.toNat, 0]

def k0_chk38 (v520 : BitVec 32) : Prop :=
  (∀ a, (k0_off77 v520) a + S1x1x4096.size a ≤ S1x512x4096.size a)
instance k0_chk38.dec : ∀ (v520 : BitVec 32), Decidable (k0_chk38 v520) := fun v520 => decidable_of_iff' _ (Iff.of_eq (k0_chk38.eq_1 v520))
theorem k0_off77_inb : ∀ (v520 : BitVec 32) (k0_hw38 : k0_chk38 v520), ∀ a, (k0_off77 v520) a + S1x1x4096.size a ≤ S1x512x4096.size a := fun v520 k0_hw38 => k0_hw38

def k0_off78 (i : grid0.Coords) : Fin 2 → Nat :=
  let arg0 : BitVec 32 := BitVec.ofNat 32 (i 0).val
  let v532 : Index := Scalar.indexCast arg0
  let c38_i32 : BitVec 32 := 38#32
  let v533 : Index := Scalar.indexCast c38_i32
  ![v532.toNat, 38]
def k0_off79 (v534 : BitVec 32) : Fin 3 → Nat :=
  let c0_307 : Index := 0#32
  let v542 : Index := Scalar.indexCast v534
  let c0_308 : Index := 0#32
  ![0, v542.toNat, 0]

def k0_chk39 (v534 : BitVec 32) : Prop :=
  (∀ a, (k0_off79 v534) a + S1x1x4096.size a ≤ S1x512x4096.size a)
instance k0_chk39.dec : ∀ (v534 : BitVec 32), Decidable (k0_chk39 v534) := fun v534 => decidable_of_iff' _ (Iff.of_eq (k0_chk39.eq_1 v534))
theorem k0_off79_inb : ∀ (v534 : BitVec 32) (k0_hw39 : k0_chk39 v534), ∀ a, (k0_off79 v534) a + S1x1x4096.size a ≤ S1x512x4096.size a := fun v534 k0_hw39 => k0_hw39

def k0_off80 (i : grid0.Coords) : Fin 2 → Nat :=
  let arg0 : BitVec 32 := BitVec.ofNat 32 (i 0).val
  let v546 : Index := Scalar.indexCast arg0
  let c39_i32 : BitVec 32 := 39#32
  let v547 : Index := Scalar.indexCast c39_i32
  ![v546.toNat, 39]
def k0_off81 (v548 : BitVec 32) : Fin 3 → Nat :=
  let c0_315 : Index := 0#32
  let v556 : Index := Scalar.indexCast v548
  let c0_316 : Index := 0#32
  ![0, v556.toNat, 0]

def k0_chk40 (v548 : BitVec 32) : Prop :=
  (∀ a, (k0_off81 v548) a + S1x1x4096.size a ≤ S1x512x4096.size a)
instance k0_chk40.dec : ∀ (v548 : BitVec 32), Decidable (k0_chk40 v548) := fun v548 => decidable_of_iff' _ (Iff.of_eq (k0_chk40.eq_1 v548))
theorem k0_off81_inb : ∀ (v548 : BitVec 32) (k0_hw40 : k0_chk40 v548), ∀ a, (k0_off81 v548) a + S1x1x4096.size a ≤ S1x512x4096.size a := fun v548 k0_hw40 => k0_hw40

def k0_off82 (i : grid0.Coords) : Fin 2 → Nat :=
  let arg0 : BitVec 32 := BitVec.ofNat 32 (i 0).val
  let v560 : Index := Scalar.indexCast arg0
  let c40_i32 : BitVec 32 := 40#32
  let v561 : Index := Scalar.indexCast c40_i32
  ![v560.toNat, 40]
def k0_off83 (v562 : BitVec 32) : Fin 3 → Nat :=
  let c0_323 : Index := 0#32
  let v570 : Index := Scalar.indexCast v562
  let c0_324 : Index := 0#32
  ![0, v570.toNat, 0]

def k0_chk41 (v562 : BitVec 32) : Prop :=
  (∀ a, (k0_off83 v562) a + S1x1x4096.size a ≤ S1x512x4096.size a)
instance k0_chk41.dec : ∀ (v562 : BitVec 32), Decidable (k0_chk41 v562) := fun v562 => decidable_of_iff' _ (Iff.of_eq (k0_chk41.eq_1 v562))
theorem k0_off83_inb : ∀ (v562 : BitVec 32) (k0_hw41 : k0_chk41 v562), ∀ a, (k0_off83 v562) a + S1x1x4096.size a ≤ S1x512x4096.size a := fun v562 k0_hw41 => k0_hw41

def k0_off84 (i : grid0.Coords) : Fin 2 → Nat :=
  let arg0 : BitVec 32 := BitVec.ofNat 32 (i 0).val
  let v574 : Index := Scalar.indexCast arg0
  let c41_i32 : BitVec 32 := 41#32
  let v575 : Index := Scalar.indexCast c41_i32
  ![v574.toNat, 41]
def k0_off85 (v576 : BitVec 32) : Fin 3 → Nat :=
  let c0_331 : Index := 0#32
  let v584 : Index := Scalar.indexCast v576
  let c0_332 : Index := 0#32
  ![0, v584.toNat, 0]

def k0_chk42 (v576 : BitVec 32) : Prop :=
  (∀ a, (k0_off85 v576) a + S1x1x4096.size a ≤ S1x512x4096.size a)
instance k0_chk42.dec : ∀ (v576 : BitVec 32), Decidable (k0_chk42 v576) := fun v576 => decidable_of_iff' _ (Iff.of_eq (k0_chk42.eq_1 v576))
theorem k0_off85_inb : ∀ (v576 : BitVec 32) (k0_hw42 : k0_chk42 v576), ∀ a, (k0_off85 v576) a + S1x1x4096.size a ≤ S1x512x4096.size a := fun v576 k0_hw42 => k0_hw42

def k0_off86 (i : grid0.Coords) : Fin 2 → Nat :=
  let arg0 : BitVec 32 := BitVec.ofNat 32 (i 0).val
  let v588 : Index := Scalar.indexCast arg0
  let c42_i32 : BitVec 32 := 42#32
  let v589 : Index := Scalar.indexCast c42_i32
  ![v588.toNat, 42]
def k0_off87 (v590 : BitVec 32) : Fin 3 → Nat :=
  let c0_339 : Index := 0#32
  let v598 : Index := Scalar.indexCast v590
  let c0_340 : Index := 0#32
  ![0, v598.toNat, 0]

def k0_chk43 (v590 : BitVec 32) : Prop :=
  (∀ a, (k0_off87 v590) a + S1x1x4096.size a ≤ S1x512x4096.size a)
instance k0_chk43.dec : ∀ (v590 : BitVec 32), Decidable (k0_chk43 v590) := fun v590 => decidable_of_iff' _ (Iff.of_eq (k0_chk43.eq_1 v590))
theorem k0_off87_inb : ∀ (v590 : BitVec 32) (k0_hw43 : k0_chk43 v590), ∀ a, (k0_off87 v590) a + S1x1x4096.size a ≤ S1x512x4096.size a := fun v590 k0_hw43 => k0_hw43

def k0_off88 (i : grid0.Coords) : Fin 2 → Nat :=
  let arg0 : BitVec 32 := BitVec.ofNat 32 (i 0).val
  let v602 : Index := Scalar.indexCast arg0
  let c43_i32 : BitVec 32 := 43#32
  let v603 : Index := Scalar.indexCast c43_i32
  ![v602.toNat, 43]
def k0_off89 (v604 : BitVec 32) : Fin 3 → Nat :=
  let c0_347 : Index := 0#32
  let v612 : Index := Scalar.indexCast v604
  let c0_348 : Index := 0#32
  ![0, v612.toNat, 0]

def k0_chk44 (v604 : BitVec 32) : Prop :=
  (∀ a, (k0_off89 v604) a + S1x1x4096.size a ≤ S1x512x4096.size a)
instance k0_chk44.dec : ∀ (v604 : BitVec 32), Decidable (k0_chk44 v604) := fun v604 => decidable_of_iff' _ (Iff.of_eq (k0_chk44.eq_1 v604))
theorem k0_off89_inb : ∀ (v604 : BitVec 32) (k0_hw44 : k0_chk44 v604), ∀ a, (k0_off89 v604) a + S1x1x4096.size a ≤ S1x512x4096.size a := fun v604 k0_hw44 => k0_hw44

def k0_off90 (i : grid0.Coords) : Fin 2 → Nat :=
  let arg0 : BitVec 32 := BitVec.ofNat 32 (i 0).val
  let v616 : Index := Scalar.indexCast arg0
  let c44_i32 : BitVec 32 := 44#32
  let v617 : Index := Scalar.indexCast c44_i32
  ![v616.toNat, 44]
def k0_off91 (v618 : BitVec 32) : Fin 3 → Nat :=
  let c0_355 : Index := 0#32
  let v626 : Index := Scalar.indexCast v618
  let c0_356 : Index := 0#32
  ![0, v626.toNat, 0]

def k0_chk45 (v618 : BitVec 32) : Prop :=
  (∀ a, (k0_off91 v618) a + S1x1x4096.size a ≤ S1x512x4096.size a)
instance k0_chk45.dec : ∀ (v618 : BitVec 32), Decidable (k0_chk45 v618) := fun v618 => decidable_of_iff' _ (Iff.of_eq (k0_chk45.eq_1 v618))
theorem k0_off91_inb : ∀ (v618 : BitVec 32) (k0_hw45 : k0_chk45 v618), ∀ a, (k0_off91 v618) a + S1x1x4096.size a ≤ S1x512x4096.size a := fun v618 k0_hw45 => k0_hw45

def k0_off92 (i : grid0.Coords) : Fin 2 → Nat :=
  let arg0 : BitVec 32 := BitVec.ofNat 32 (i 0).val
  let v630 : Index := Scalar.indexCast arg0
  let c45_i32 : BitVec 32 := 45#32
  let v631 : Index := Scalar.indexCast c45_i32
  ![v630.toNat, 45]
def k0_off93 (v632 : BitVec 32) : Fin 3 → Nat :=
  let c0_363 : Index := 0#32
  let v640 : Index := Scalar.indexCast v632
  let c0_364 : Index := 0#32
  ![0, v640.toNat, 0]

def k0_chk46 (v632 : BitVec 32) : Prop :=
  (∀ a, (k0_off93 v632) a + S1x1x4096.size a ≤ S1x512x4096.size a)
instance k0_chk46.dec : ∀ (v632 : BitVec 32), Decidable (k0_chk46 v632) := fun v632 => decidable_of_iff' _ (Iff.of_eq (k0_chk46.eq_1 v632))
theorem k0_off93_inb : ∀ (v632 : BitVec 32) (k0_hw46 : k0_chk46 v632), ∀ a, (k0_off93 v632) a + S1x1x4096.size a ≤ S1x512x4096.size a := fun v632 k0_hw46 => k0_hw46

def k0_off94 (i : grid0.Coords) : Fin 2 → Nat :=
  let arg0 : BitVec 32 := BitVec.ofNat 32 (i 0).val
  let v644 : Index := Scalar.indexCast arg0
  let c46_i32 : BitVec 32 := 46#32
  let v645 : Index := Scalar.indexCast c46_i32
  ![v644.toNat, 46]
def k0_off95 (v646 : BitVec 32) : Fin 3 → Nat :=
  let c0_371 : Index := 0#32
  let v654 : Index := Scalar.indexCast v646
  let c0_372 : Index := 0#32
  ![0, v654.toNat, 0]

def k0_chk47 (v646 : BitVec 32) : Prop :=
  (∀ a, (k0_off95 v646) a + S1x1x4096.size a ≤ S1x512x4096.size a)
instance k0_chk47.dec : ∀ (v646 : BitVec 32), Decidable (k0_chk47 v646) := fun v646 => decidable_of_iff' _ (Iff.of_eq (k0_chk47.eq_1 v646))
theorem k0_off95_inb : ∀ (v646 : BitVec 32) (k0_hw47 : k0_chk47 v646), ∀ a, (k0_off95 v646) a + S1x1x4096.size a ≤ S1x512x4096.size a := fun v646 k0_hw47 => k0_hw47

def k0_off96 (i : grid0.Coords) : Fin 2 → Nat :=
  let arg0 : BitVec 32 := BitVec.ofNat 32 (i 0).val
  let v658 : Index := Scalar.indexCast arg0
  let c47_i32 : BitVec 32 := 47#32
  let v659 : Index := Scalar.indexCast c47_i32
  ![v658.toNat, 47]
def k0_off97 (v660 : BitVec 32) : Fin 3 → Nat :=
  let c0_379 : Index := 0#32
  let v668 : Index := Scalar.indexCast v660
  let c0_380 : Index := 0#32
  ![0, v668.toNat, 0]

def k0_chk48 (v660 : BitVec 32) : Prop :=
  (∀ a, (k0_off97 v660) a + S1x1x4096.size a ≤ S1x512x4096.size a)
instance k0_chk48.dec : ∀ (v660 : BitVec 32), Decidable (k0_chk48 v660) := fun v660 => decidable_of_iff' _ (Iff.of_eq (k0_chk48.eq_1 v660))
theorem k0_off97_inb : ∀ (v660 : BitVec 32) (k0_hw48 : k0_chk48 v660), ∀ a, (k0_off97 v660) a + S1x1x4096.size a ≤ S1x512x4096.size a := fun v660 k0_hw48 => k0_hw48

def k0_off98 (i : grid0.Coords) : Fin 2 → Nat :=
  let arg0 : BitVec 32 := BitVec.ofNat 32 (i 0).val
  let v672 : Index := Scalar.indexCast arg0
  let c48_i32 : BitVec 32 := 48#32
  let v673 : Index := Scalar.indexCast c48_i32
  ![v672.toNat, 48]
def k0_off99 (v674 : BitVec 32) : Fin 3 → Nat :=
  let c0_387 : Index := 0#32
  let v682 : Index := Scalar.indexCast v674
  let c0_388 : Index := 0#32
  ![0, v682.toNat, 0]

def k0_chk49 (v674 : BitVec 32) : Prop :=
  (∀ a, (k0_off99 v674) a + S1x1x4096.size a ≤ S1x512x4096.size a)
instance k0_chk49.dec : ∀ (v674 : BitVec 32), Decidable (k0_chk49 v674) := fun v674 => decidable_of_iff' _ (Iff.of_eq (k0_chk49.eq_1 v674))
theorem k0_off99_inb : ∀ (v674 : BitVec 32) (k0_hw49 : k0_chk49 v674), ∀ a, (k0_off99 v674) a + S1x1x4096.size a ≤ S1x512x4096.size a := fun v674 k0_hw49 => k0_hw49

def k0_off100 (i : grid0.Coords) : Fin 2 → Nat :=
  let arg0 : BitVec 32 := BitVec.ofNat 32 (i 0).val
  let v686 : Index := Scalar.indexCast arg0
  let c49_i32 : BitVec 32 := 49#32
  let v687 : Index := Scalar.indexCast c49_i32
  ![v686.toNat, 49]
def k0_off101 (v688 : BitVec 32) : Fin 3 → Nat :=
  let c0_395 : Index := 0#32
  let v696 : Index := Scalar.indexCast v688
  let c0_396 : Index := 0#32
  ![0, v696.toNat, 0]

def k0_chk50 (v688 : BitVec 32) : Prop :=
  (∀ a, (k0_off101 v688) a + S1x1x4096.size a ≤ S1x512x4096.size a)
instance k0_chk50.dec : ∀ (v688 : BitVec 32), Decidable (k0_chk50 v688) := fun v688 => decidable_of_iff' _ (Iff.of_eq (k0_chk50.eq_1 v688))
theorem k0_off101_inb : ∀ (v688 : BitVec 32) (k0_hw50 : k0_chk50 v688), ∀ a, (k0_off101 v688) a + S1x1x4096.size a ≤ S1x512x4096.size a := fun v688 k0_hw50 => k0_hw50

def k0_off102 (i : grid0.Coords) : Fin 2 → Nat :=
  let arg0 : BitVec 32 := BitVec.ofNat 32 (i 0).val
  let v700 : Index := Scalar.indexCast arg0
  let c50_i32 : BitVec 32 := 50#32
  let v701 : Index := Scalar.indexCast c50_i32
  ![v700.toNat, 50]
def k0_off103 (v702 : BitVec 32) : Fin 3 → Nat :=
  let c0_403 : Index := 0#32
  let v710 : Index := Scalar.indexCast v702
  let c0_404 : Index := 0#32
  ![0, v710.toNat, 0]

def k0_chk51 (v702 : BitVec 32) : Prop :=
  (∀ a, (k0_off103 v702) a + S1x1x4096.size a ≤ S1x512x4096.size a)
instance k0_chk51.dec : ∀ (v702 : BitVec 32), Decidable (k0_chk51 v702) := fun v702 => decidable_of_iff' _ (Iff.of_eq (k0_chk51.eq_1 v702))
theorem k0_off103_inb : ∀ (v702 : BitVec 32) (k0_hw51 : k0_chk51 v702), ∀ a, (k0_off103 v702) a + S1x1x4096.size a ≤ S1x512x4096.size a := fun v702 k0_hw51 => k0_hw51

def k0_off104 (i : grid0.Coords) : Fin 2 → Nat :=
  let arg0 : BitVec 32 := BitVec.ofNat 32 (i 0).val
  let v714 : Index := Scalar.indexCast arg0
  let c51_i32 : BitVec 32 := 51#32
  let v715 : Index := Scalar.indexCast c51_i32
  ![v714.toNat, 51]
def k0_off105 (v716 : BitVec 32) : Fin 3 → Nat :=
  let c0_411 : Index := 0#32
  let v724 : Index := Scalar.indexCast v716
  let c0_412 : Index := 0#32
  ![0, v724.toNat, 0]

def k0_chk52 (v716 : BitVec 32) : Prop :=
  (∀ a, (k0_off105 v716) a + S1x1x4096.size a ≤ S1x512x4096.size a)
instance k0_chk52.dec : ∀ (v716 : BitVec 32), Decidable (k0_chk52 v716) := fun v716 => decidable_of_iff' _ (Iff.of_eq (k0_chk52.eq_1 v716))
theorem k0_off105_inb : ∀ (v716 : BitVec 32) (k0_hw52 : k0_chk52 v716), ∀ a, (k0_off105 v716) a + S1x1x4096.size a ≤ S1x512x4096.size a := fun v716 k0_hw52 => k0_hw52

def k0_off106 (i : grid0.Coords) : Fin 2 → Nat :=
  let arg0 : BitVec 32 := BitVec.ofNat 32 (i 0).val
  let v728 : Index := Scalar.indexCast arg0
  let c52_i32 : BitVec 32 := 52#32
  let v729 : Index := Scalar.indexCast c52_i32
  ![v728.toNat, 52]
def k0_off107 (v730 : BitVec 32) : Fin 3 → Nat :=
  let c0_419 : Index := 0#32
  let v738 : Index := Scalar.indexCast v730
  let c0_420 : Index := 0#32
  ![0, v738.toNat, 0]

def k0_chk53 (v730 : BitVec 32) : Prop :=
  (∀ a, (k0_off107 v730) a + S1x1x4096.size a ≤ S1x512x4096.size a)
instance k0_chk53.dec : ∀ (v730 : BitVec 32), Decidable (k0_chk53 v730) := fun v730 => decidable_of_iff' _ (Iff.of_eq (k0_chk53.eq_1 v730))
theorem k0_off107_inb : ∀ (v730 : BitVec 32) (k0_hw53 : k0_chk53 v730), ∀ a, (k0_off107 v730) a + S1x1x4096.size a ≤ S1x512x4096.size a := fun v730 k0_hw53 => k0_hw53

def k0_off108 (i : grid0.Coords) : Fin 2 → Nat :=
  let arg0 : BitVec 32 := BitVec.ofNat 32 (i 0).val
  let v742 : Index := Scalar.indexCast arg0
  let c53_i32 : BitVec 32 := 53#32
  let v743 : Index := Scalar.indexCast c53_i32
  ![v742.toNat, 53]
def k0_off109 (v744 : BitVec 32) : Fin 3 → Nat :=
  let c0_427 : Index := 0#32
  let v752 : Index := Scalar.indexCast v744
  let c0_428 : Index := 0#32
  ![0, v752.toNat, 0]

def k0_chk54 (v744 : BitVec 32) : Prop :=
  (∀ a, (k0_off109 v744) a + S1x1x4096.size a ≤ S1x512x4096.size a)
instance k0_chk54.dec : ∀ (v744 : BitVec 32), Decidable (k0_chk54 v744) := fun v744 => decidable_of_iff' _ (Iff.of_eq (k0_chk54.eq_1 v744))
theorem k0_off109_inb : ∀ (v744 : BitVec 32) (k0_hw54 : k0_chk54 v744), ∀ a, (k0_off109 v744) a + S1x1x4096.size a ≤ S1x512x4096.size a := fun v744 k0_hw54 => k0_hw54

def k0_off110 (i : grid0.Coords) : Fin 2 → Nat :=
  let arg0 : BitVec 32 := BitVec.ofNat 32 (i 0).val
  let v756 : Index := Scalar.indexCast arg0
  let c54_i32 : BitVec 32 := 54#32
  let v757 : Index := Scalar.indexCast c54_i32
  ![v756.toNat, 54]
def k0_off111 (v758 : BitVec 32) : Fin 3 → Nat :=
  let c0_435 : Index := 0#32
  let v766 : Index := Scalar.indexCast v758
  let c0_436 : Index := 0#32
  ![0, v766.toNat, 0]

def k0_chk55 (v758 : BitVec 32) : Prop :=
  (∀ a, (k0_off111 v758) a + S1x1x4096.size a ≤ S1x512x4096.size a)
instance k0_chk55.dec : ∀ (v758 : BitVec 32), Decidable (k0_chk55 v758) := fun v758 => decidable_of_iff' _ (Iff.of_eq (k0_chk55.eq_1 v758))
theorem k0_off111_inb : ∀ (v758 : BitVec 32) (k0_hw55 : k0_chk55 v758), ∀ a, (k0_off111 v758) a + S1x1x4096.size a ≤ S1x512x4096.size a := fun v758 k0_hw55 => k0_hw55

def k0_off112 (i : grid0.Coords) : Fin 2 → Nat :=
  let arg0 : BitVec 32 := BitVec.ofNat 32 (i 0).val
  let v770 : Index := Scalar.indexCast arg0
  let c55_i32 : BitVec 32 := 55#32
  let v771 : Index := Scalar.indexCast c55_i32
  ![v770.toNat, 55]
def k0_off113 (v772 : BitVec 32) : Fin 3 → Nat :=
  let c0_443 : Index := 0#32
  let v780 : Index := Scalar.indexCast v772
  let c0_444 : Index := 0#32
  ![0, v780.toNat, 0]

def k0_chk56 (v772 : BitVec 32) : Prop :=
  (∀ a, (k0_off113 v772) a + S1x1x4096.size a ≤ S1x512x4096.size a)
instance k0_chk56.dec : ∀ (v772 : BitVec 32), Decidable (k0_chk56 v772) := fun v772 => decidable_of_iff' _ (Iff.of_eq (k0_chk56.eq_1 v772))
theorem k0_off113_inb : ∀ (v772 : BitVec 32) (k0_hw56 : k0_chk56 v772), ∀ a, (k0_off113 v772) a + S1x1x4096.size a ≤ S1x512x4096.size a := fun v772 k0_hw56 => k0_hw56

def k0_off114 (i : grid0.Coords) : Fin 2 → Nat :=
  let arg0 : BitVec 32 := BitVec.ofNat 32 (i 0).val
  let v784 : Index := Scalar.indexCast arg0
  let c56_i32 : BitVec 32 := 56#32
  let v785 : Index := Scalar.indexCast c56_i32
  ![v784.toNat, 56]
def k0_off115 (v786 : BitVec 32) : Fin 3 → Nat :=
  let c0_451 : Index := 0#32
  let v794 : Index := Scalar.indexCast v786
  let c0_452 : Index := 0#32
  ![0, v794.toNat, 0]

def k0_chk57 (v786 : BitVec 32) : Prop :=
  (∀ a, (k0_off115 v786) a + S1x1x4096.size a ≤ S1x512x4096.size a)
instance k0_chk57.dec : ∀ (v786 : BitVec 32), Decidable (k0_chk57 v786) := fun v786 => decidable_of_iff' _ (Iff.of_eq (k0_chk57.eq_1 v786))
theorem k0_off115_inb : ∀ (v786 : BitVec 32) (k0_hw57 : k0_chk57 v786), ∀ a, (k0_off115 v786) a + S1x1x4096.size a ≤ S1x512x4096.size a := fun v786 k0_hw57 => k0_hw57

def k0_off116 (i : grid0.Coords) : Fin 2 → Nat :=
  let arg0 : BitVec 32 := BitVec.ofNat 32 (i 0).val
  let v798 : Index := Scalar.indexCast arg0
  let c57_i32 : BitVec 32 := 57#32
  let v799 : Index := Scalar.indexCast c57_i32
  ![v798.toNat, 57]
def k0_off117 (v800 : BitVec 32) : Fin 3 → Nat :=
  let c0_459 : Index := 0#32
  let v808 : Index := Scalar.indexCast v800
  let c0_460 : Index := 0#32
  ![0, v808.toNat, 0]

def k0_chk58 (v800 : BitVec 32) : Prop :=
  (∀ a, (k0_off117 v800) a + S1x1x4096.size a ≤ S1x512x4096.size a)
instance k0_chk58.dec : ∀ (v800 : BitVec 32), Decidable (k0_chk58 v800) := fun v800 => decidable_of_iff' _ (Iff.of_eq (k0_chk58.eq_1 v800))
theorem k0_off117_inb : ∀ (v800 : BitVec 32) (k0_hw58 : k0_chk58 v800), ∀ a, (k0_off117 v800) a + S1x1x4096.size a ≤ S1x512x4096.size a := fun v800 k0_hw58 => k0_hw58

def k0_off118 (i : grid0.Coords) : Fin 2 → Nat :=
  let arg0 : BitVec 32 := BitVec.ofNat 32 (i 0).val
  let v812 : Index := Scalar.indexCast arg0
  let c58_i32 : BitVec 32 := 58#32
  let v813 : Index := Scalar.indexCast c58_i32
  ![v812.toNat, 58]
def k0_off119 (v814 : BitVec 32) : Fin 3 → Nat :=
  let c0_467 : Index := 0#32
  let v822 : Index := Scalar.indexCast v814
  let c0_468 : Index := 0#32
  ![0, v822.toNat, 0]

def k0_chk59 (v814 : BitVec 32) : Prop :=
  (∀ a, (k0_off119 v814) a + S1x1x4096.size a ≤ S1x512x4096.size a)
instance k0_chk59.dec : ∀ (v814 : BitVec 32), Decidable (k0_chk59 v814) := fun v814 => decidable_of_iff' _ (Iff.of_eq (k0_chk59.eq_1 v814))
theorem k0_off119_inb : ∀ (v814 : BitVec 32) (k0_hw59 : k0_chk59 v814), ∀ a, (k0_off119 v814) a + S1x1x4096.size a ≤ S1x512x4096.size a := fun v814 k0_hw59 => k0_hw59

def k0_off120 (i : grid0.Coords) : Fin 2 → Nat :=
  let arg0 : BitVec 32 := BitVec.ofNat 32 (i 0).val
  let v826 : Index := Scalar.indexCast arg0
  let c59_i32 : BitVec 32 := 59#32
  let v827 : Index := Scalar.indexCast c59_i32
  ![v826.toNat, 59]
def k0_off121 (v828 : BitVec 32) : Fin 3 → Nat :=
  let c0_475 : Index := 0#32
  let v836 : Index := Scalar.indexCast v828
  let c0_476 : Index := 0#32
  ![0, v836.toNat, 0]

def k0_chk60 (v828 : BitVec 32) : Prop :=
  (∀ a, (k0_off121 v828) a + S1x1x4096.size a ≤ S1x512x4096.size a)
instance k0_chk60.dec : ∀ (v828 : BitVec 32), Decidable (k0_chk60 v828) := fun v828 => decidable_of_iff' _ (Iff.of_eq (k0_chk60.eq_1 v828))
theorem k0_off121_inb : ∀ (v828 : BitVec 32) (k0_hw60 : k0_chk60 v828), ∀ a, (k0_off121 v828) a + S1x1x4096.size a ≤ S1x512x4096.size a := fun v828 k0_hw60 => k0_hw60

def k0_off122 (i : grid0.Coords) : Fin 2 → Nat :=
  let arg0 : BitVec 32 := BitVec.ofNat 32 (i 0).val
  let v840 : Index := Scalar.indexCast arg0
  let c60_i32 : BitVec 32 := 60#32
  let v841 : Index := Scalar.indexCast c60_i32
  ![v840.toNat, 60]
def k0_off123 (v842 : BitVec 32) : Fin 3 → Nat :=
  let c0_483 : Index := 0#32
  let v850 : Index := Scalar.indexCast v842
  let c0_484 : Index := 0#32
  ![0, v850.toNat, 0]

def k0_chk61 (v842 : BitVec 32) : Prop :=
  (∀ a, (k0_off123 v842) a + S1x1x4096.size a ≤ S1x512x4096.size a)
instance k0_chk61.dec : ∀ (v842 : BitVec 32), Decidable (k0_chk61 v842) := fun v842 => decidable_of_iff' _ (Iff.of_eq (k0_chk61.eq_1 v842))
theorem k0_off123_inb : ∀ (v842 : BitVec 32) (k0_hw61 : k0_chk61 v842), ∀ a, (k0_off123 v842) a + S1x1x4096.size a ≤ S1x512x4096.size a := fun v842 k0_hw61 => k0_hw61

def k0_off124 (i : grid0.Coords) : Fin 2 → Nat :=
  let arg0 : BitVec 32 := BitVec.ofNat 32 (i 0).val
  let v854 : Index := Scalar.indexCast arg0
  let c61_i32 : BitVec 32 := 61#32
  let v855 : Index := Scalar.indexCast c61_i32
  ![v854.toNat, 61]
def k0_off125 (v856 : BitVec 32) : Fin 3 → Nat :=
  let c0_491 : Index := 0#32
  let v864 : Index := Scalar.indexCast v856
  let c0_492 : Index := 0#32
  ![0, v864.toNat, 0]

def k0_chk62 (v856 : BitVec 32) : Prop :=
  (∀ a, (k0_off125 v856) a + S1x1x4096.size a ≤ S1x512x4096.size a)
instance k0_chk62.dec : ∀ (v856 : BitVec 32), Decidable (k0_chk62 v856) := fun v856 => decidable_of_iff' _ (Iff.of_eq (k0_chk62.eq_1 v856))
theorem k0_off125_inb : ∀ (v856 : BitVec 32) (k0_hw62 : k0_chk62 v856), ∀ a, (k0_off125 v856) a + S1x1x4096.size a ≤ S1x512x4096.size a := fun v856 k0_hw62 => k0_hw62

def k0_off126 (i : grid0.Coords) : Fin 2 → Nat :=
  let arg0 : BitVec 32 := BitVec.ofNat 32 (i 0).val
  let v868 : Index := Scalar.indexCast arg0
  let c62_i32 : BitVec 32 := 62#32
  let v869 : Index := Scalar.indexCast c62_i32
  ![v868.toNat, 62]
def k0_off127 (v870 : BitVec 32) : Fin 3 → Nat :=
  let c0_499 : Index := 0#32
  let v878 : Index := Scalar.indexCast v870
  let c0_500 : Index := 0#32
  ![0, v878.toNat, 0]

def k0_chk63 (v870 : BitVec 32) : Prop :=
  (∀ a, (k0_off127 v870) a + S1x1x4096.size a ≤ S1x512x4096.size a)
instance k0_chk63.dec : ∀ (v870 : BitVec 32), Decidable (k0_chk63 v870) := fun v870 => decidable_of_iff' _ (Iff.of_eq (k0_chk63.eq_1 v870))
theorem k0_off127_inb : ∀ (v870 : BitVec 32) (k0_hw63 : k0_chk63 v870), ∀ a, (k0_off127 v870) a + S1x1x4096.size a ≤ S1x512x4096.size a := fun v870 k0_hw63 => k0_hw63

def k0_off128 (i : grid0.Coords) : Fin 2 → Nat :=
  let arg0 : BitVec 32 := BitVec.ofNat 32 (i 0).val
  let v882 : Index := Scalar.indexCast arg0
  let c63_i32 : BitVec 32 := 63#32
  let v883 : Index := Scalar.indexCast c63_i32
  ![v882.toNat, 63]
def k0_off129 (v884 : BitVec 32) : Fin 3 → Nat :=
  let c0_507 : Index := 0#32
  let v892 : Index := Scalar.indexCast v884
  let c0_508 : Index := 0#32
  ![0, v892.toNat, 0]

def k0_chk64 (v884 : BitVec 32) : Prop :=
  (∀ a, (k0_off129 v884) a + S1x1x4096.size a ≤ S1x512x4096.size a)
instance k0_chk64.dec : ∀ (v884 : BitVec 32), Decidable (k0_chk64 v884) := fun v884 => decidable_of_iff' _ (Iff.of_eq (k0_chk64.eq_1 v884))
theorem k0_off129_inb : ∀ (v884 : BitVec 32) (k0_hw64 : k0_chk64 v884), ∀ a, (k0_off129 v884) a + S1x1x4096.size a ≤ S1x512x4096.size a := fun v884 k0_hw64 => k0_hw64

def k0_off130 (i : grid0.Coords) : Fin 1 → Nat :=
  let arg0 : BitVec 32 := BitVec.ofNat 32 (i 0).val
  let v896 : Index := Scalar.indexCast arg0
  ![v896.toNat]
def k0_mult1 : BitVec 32 :=
  let c0_i32_512 : BitVec 32 := 0#32
  let c64_i32_513 : BitVec 32 := 64#32
  let v902 : BitVec 32 := Scalar.muli c0_i32_512 c64_i32_513
  v902
def k0_off131 (c0_i32_512 : BitVec 32) : Fin 3 → Nat :=
  let c0_514 : Index := 0#32
  let c64_i32_513 : BitVec 32 := 64#32
  let v902 : BitVec 32 := Scalar.muli c0_i32_512 c64_i32_513
  let v903 : BitVec 32 := v902
  let v904 : Index := Scalar.indexCast v903
  let c0_515 : Index := 0#32
  ![0, v904.toNat, 0]
def k0_mult2 : BitVec 32 :=
  let c1_i32_518 : BitVec 32 := 1#32
  let c64_i32_519 : BitVec 32 := 64#32
  let v911 : BitVec 32 := Scalar.muli c1_i32_518 c64_i32_519
  v911
def k0_mult3 : BitVec 32 :=
  let c2_i32_524 : BitVec 32 := 2#32
  let c64_i32_525 : BitVec 32 := 64#32
  let v920 : BitVec 32 := Scalar.muli c2_i32_524 c64_i32_525
  v920
def k0_mult4 : BitVec 32 :=
  let c3_i32_530 : BitVec 32 := 3#32
  let c64_i32_531 : BitVec 32 := 64#32
  let v929 : BitVec 32 := Scalar.muli c3_i32_530 c64_i32_531
  v929
def k0_mult5 : BitVec 32 :=
  let c4_i32_536 : BitVec 32 := 4#32
  let c64_i32_537 : BitVec 32 := 64#32
  let v938 : BitVec 32 := Scalar.muli c4_i32_536 c64_i32_537
  v938
def k0_mult6 : BitVec 32 :=
  let c5_i32_542 : BitVec 32 := 5#32
  let c64_i32_543 : BitVec 32 := 64#32
  let v947 : BitVec 32 := Scalar.muli c5_i32_542 c64_i32_543
  v947
def k0_mult7 : BitVec 32 :=
  let c6_i32_548 : BitVec 32 := 6#32
  let c64_i32_549 : BitVec 32 := 64#32
  let v956 : BitVec 32 := Scalar.muli c6_i32_548 c64_i32_549
  v956
def k0_mult8 : BitVec 32 :=
  let c7_i32_554 : BitVec 32 := 7#32
  let c64_i32_555 : BitVec 32 := 64#32
  let v965 : BitVec 32 := Scalar.muli c7_i32_554 c64_i32_555
  v965
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (k0_off1_inb : ∀ i : grid0.Coords, ∀ a, (k0_off1 i) a + S1.size a ≤ S64.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S64) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x64x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  numel1_S1 : S1.numel = 1
  numel1_S1x1 : S1x1.numel = 1
  inb_S1x64x4096_S1x1x4096_0_0_0 : ∀ a, (![0, 0, 0] : Fin 3 → Nat) a + S1x1x4096.size a ≤ S1x64x4096.size a
  h_S1x1x4096 : 0 < S1x1x4096.numel
  shapeCasts_S1x1x4096_S4096 : S1x1x4096.ShapeCasts S4096
  shapeCasts_S4096_S1x1x4096 : S4096.ShapeCasts S1x1x4096
  inb_S1x64x4096_S1x1x4096_0_1_0 : ∀ a, (![0, 1, 0] : Fin 3 → Nat) a + S1x1x4096.size a ≤ S1x64x4096.size a
  inb_S1x64x4096_S1x1x4096_0_2_0 : ∀ a, (![0, 2, 0] : Fin 3 → Nat) a + S1x1x4096.size a ≤ S1x64x4096.size a
  inb_S1x64x4096_S1x1x4096_0_3_0 : ∀ a, (![0, 3, 0] : Fin 3 → Nat) a + S1x1x4096.size a ≤ S1x64x4096.size a
  inb_S1x64x4096_S1x1x4096_0_4_0 : ∀ a, (![0, 4, 0] : Fin 3 → Nat) a + S1x1x4096.size a ≤ S1x64x4096.size a
  inb_S1x64x4096_S1x1x4096_0_5_0 : ∀ a, (![0, 5, 0] : Fin 3 → Nat) a + S1x1x4096.size a ≤ S1x64x4096.size a
  inb_S1x64x4096_S1x1x4096_0_6_0 : ∀ a, (![0, 6, 0] : Fin 3 → Nat) a + S1x1x4096.size a ≤ S1x64x4096.size a
  inb_S1x64x4096_S1x1x4096_0_7_0 : ∀ a, (![0, 7, 0] : Fin 3 → Nat) a + S1x1x4096.size a ≤ S1x64x4096.size a
  inb_S1x64x4096_S1x1x4096_0_8_0 : ∀ a, (![0, 8, 0] : Fin 3 → Nat) a + S1x1x4096.size a ≤ S1x64x4096.size a
  inb_S1x64x4096_S1x1x4096_0_9_0 : ∀ a, (![0, 9, 0] : Fin 3 → Nat) a + S1x1x4096.size a ≤ S1x64x4096.size a
  inb_S1x64x4096_S1x1x4096_0_10_0 : ∀ a, (![0, 10, 0] : Fin 3 → Nat) a + S1x1x4096.size a ≤ S1x64x4096.size a
  inb_S1x64x4096_S1x1x4096_0_11_0 : ∀ a, (![0, 11, 0] : Fin 3 → Nat) a + S1x1x4096.size a ≤ S1x64x4096.size a
  inb_S1x64x4096_S1x1x4096_0_12_0 : ∀ a, (![0, 12, 0] : Fin 3 → Nat) a + S1x1x4096.size a ≤ S1x64x4096.size a
  inb_S1x64x4096_S1x1x4096_0_13_0 : ∀ a, (![0, 13, 0] : Fin 3 → Nat) a + S1x1x4096.size a ≤ S1x64x4096.size a
  inb_S1x64x4096_S1x1x4096_0_14_0 : ∀ a, (![0, 14, 0] : Fin 3 → Nat) a + S1x1x4096.size a ≤ S1x64x4096.size a
  inb_S1x64x4096_S1x1x4096_0_15_0 : ∀ a, (![0, 15, 0] : Fin 3 → Nat) a + S1x1x4096.size a ≤ S1x64x4096.size a
  inb_S1x64x4096_S1x1x4096_0_16_0 : ∀ a, (![0, 16, 0] : Fin 3 → Nat) a + S1x1x4096.size a ≤ S1x64x4096.size a
  inb_S1x64x4096_S1x1x4096_0_17_0 : ∀ a, (![0, 17, 0] : Fin 3 → Nat) a + S1x1x4096.size a ≤ S1x64x4096.size a
  inb_S1x64x4096_S1x1x4096_0_18_0 : ∀ a, (![0, 18, 0] : Fin 3 → Nat) a + S1x1x4096.size a ≤ S1x64x4096.size a
  inb_S1x64x4096_S1x1x4096_0_19_0 : ∀ a, (![0, 19, 0] : Fin 3 → Nat) a + S1x1x4096.size a ≤ S1x64x4096.size a
  inb_S1x64x4096_S1x1x4096_0_20_0 : ∀ a, (![0, 20, 0] : Fin 3 → Nat) a + S1x1x4096.size a ≤ S1x64x4096.size a
  inb_S1x64x4096_S1x1x4096_0_21_0 : ∀ a, (![0, 21, 0] : Fin 3 → Nat) a + S1x1x4096.size a ≤ S1x64x4096.size a
  inb_S1x64x4096_S1x1x4096_0_22_0 : ∀ a, (![0, 22, 0] : Fin 3 → Nat) a + S1x1x4096.size a ≤ S1x64x4096.size a
  inb_S1x64x4096_S1x1x4096_0_23_0 : ∀ a, (![0, 23, 0] : Fin 3 → Nat) a + S1x1x4096.size a ≤ S1x64x4096.size a
  inb_S1x64x4096_S1x1x4096_0_24_0 : ∀ a, (![0, 24, 0] : Fin 3 → Nat) a + S1x1x4096.size a ≤ S1x64x4096.size a
  inb_S1x64x4096_S1x1x4096_0_25_0 : ∀ a, (![0, 25, 0] : Fin 3 → Nat) a + S1x1x4096.size a ≤ S1x64x4096.size a
  inb_S1x64x4096_S1x1x4096_0_26_0 : ∀ a, (![0, 26, 0] : Fin 3 → Nat) a + S1x1x4096.size a ≤ S1x64x4096.size a
  inb_S1x64x4096_S1x1x4096_0_27_0 : ∀ a, (![0, 27, 0] : Fin 3 → Nat) a + S1x1x4096.size a ≤ S1x64x4096.size a
  inb_S1x64x4096_S1x1x4096_0_28_0 : ∀ a, (![0, 28, 0] : Fin 3 → Nat) a + S1x1x4096.size a ≤ S1x64x4096.size a
  inb_S1x64x4096_S1x1x4096_0_29_0 : ∀ a, (![0, 29, 0] : Fin 3 → Nat) a + S1x1x4096.size a ≤ S1x64x4096.size a
  inb_S1x64x4096_S1x1x4096_0_30_0 : ∀ a, (![0, 30, 0] : Fin 3 → Nat) a + S1x1x4096.size a ≤ S1x64x4096.size a
  inb_S1x64x4096_S1x1x4096_0_31_0 : ∀ a, (![0, 31, 0] : Fin 3 → Nat) a + S1x1x4096.size a ≤ S1x64x4096.size a
  inb_S1x64x4096_S1x1x4096_0_32_0 : ∀ a, (![0, 32, 0] : Fin 3 → Nat) a + S1x1x4096.size a ≤ S1x64x4096.size a
  inb_S1x64x4096_S1x1x4096_0_33_0 : ∀ a, (![0, 33, 0] : Fin 3 → Nat) a + S1x1x4096.size a ≤ S1x64x4096.size a
  inb_S1x64x4096_S1x1x4096_0_34_0 : ∀ a, (![0, 34, 0] : Fin 3 → Nat) a + S1x1x4096.size a ≤ S1x64x4096.size a
  inb_S1x64x4096_S1x1x4096_0_35_0 : ∀ a, (![0, 35, 0] : Fin 3 → Nat) a + S1x1x4096.size a ≤ S1x64x4096.size a
  inb_S1x64x4096_S1x1x4096_0_36_0 : ∀ a, (![0, 36, 0] : Fin 3 → Nat) a + S1x1x4096.size a ≤ S1x64x4096.size a
  inb_S1x64x4096_S1x1x4096_0_37_0 : ∀ a, (![0, 37, 0] : Fin 3 → Nat) a + S1x1x4096.size a ≤ S1x64x4096.size a
  inb_S1x64x4096_S1x1x4096_0_38_0 : ∀ a, (![0, 38, 0] : Fin 3 → Nat) a + S1x1x4096.size a ≤ S1x64x4096.size a
  inb_S1x64x4096_S1x1x4096_0_39_0 : ∀ a, (![0, 39, 0] : Fin 3 → Nat) a + S1x1x4096.size a ≤ S1x64x4096.size a
  inb_S1x64x4096_S1x1x4096_0_40_0 : ∀ a, (![0, 40, 0] : Fin 3 → Nat) a + S1x1x4096.size a ≤ S1x64x4096.size a
  inb_S1x64x4096_S1x1x4096_0_41_0 : ∀ a, (![0, 41, 0] : Fin 3 → Nat) a + S1x1x4096.size a ≤ S1x64x4096.size a
  inb_S1x64x4096_S1x1x4096_0_42_0 : ∀ a, (![0, 42, 0] : Fin 3 → Nat) a + S1x1x4096.size a ≤ S1x64x4096.size a
  inb_S1x64x4096_S1x1x4096_0_43_0 : ∀ a, (![0, 43, 0] : Fin 3 → Nat) a + S1x1x4096.size a ≤ S1x64x4096.size a
  inb_S1x64x4096_S1x1x4096_0_44_0 : ∀ a, (![0, 44, 0] : Fin 3 → Nat) a + S1x1x4096.size a ≤ S1x64x4096.size a
  inb_S1x64x4096_S1x1x4096_0_45_0 : ∀ a, (![0, 45, 0] : Fin 3 → Nat) a + S1x1x4096.size a ≤ S1x64x4096.size a
  inb_S1x64x4096_S1x1x4096_0_46_0 : ∀ a, (![0, 46, 0] : Fin 3 → Nat) a + S1x1x4096.size a ≤ S1x64x4096.size a
  inb_S1x64x4096_S1x1x4096_0_47_0 : ∀ a, (![0, 47, 0] : Fin 3 → Nat) a + S1x1x4096.size a ≤ S1x64x4096.size a
  inb_S1x64x4096_S1x1x4096_0_48_0 : ∀ a, (![0, 48, 0] : Fin 3 → Nat) a + S1x1x4096.size a ≤ S1x64x4096.size a
  inb_S1x64x4096_S1x1x4096_0_49_0 : ∀ a, (![0, 49, 0] : Fin 3 → Nat) a + S1x1x4096.size a ≤ S1x64x4096.size a
  inb_S1x64x4096_S1x1x4096_0_50_0 : ∀ a, (![0, 50, 0] : Fin 3 → Nat) a + S1x1x4096.size a ≤ S1x64x4096.size a
  inb_S1x64x4096_S1x1x4096_0_51_0 : ∀ a, (![0, 51, 0] : Fin 3 → Nat) a + S1x1x4096.size a ≤ S1x64x4096.size a
  inb_S1x64x4096_S1x1x4096_0_52_0 : ∀ a, (![0, 52, 0] : Fin 3 → Nat) a + S1x1x4096.size a ≤ S1x64x4096.size a
  inb_S1x64x4096_S1x1x4096_0_53_0 : ∀ a, (![0, 53, 0] : Fin 3 → Nat) a + S1x1x4096.size a ≤ S1x64x4096.size a
  inb_S1x64x4096_S1x1x4096_0_54_0 : ∀ a, (![0, 54, 0] : Fin 3 → Nat) a + S1x1x4096.size a ≤ S1x64x4096.size a
  inb_S1x64x4096_S1x1x4096_0_55_0 : ∀ a, (![0, 55, 0] : Fin 3 → Nat) a + S1x1x4096.size a ≤ S1x64x4096.size a
  inb_S1x64x4096_S1x1x4096_0_56_0 : ∀ a, (![0, 56, 0] : Fin 3 → Nat) a + S1x1x4096.size a ≤ S1x64x4096.size a
  inb_S1x64x4096_S1x1x4096_0_57_0 : ∀ a, (![0, 57, 0] : Fin 3 → Nat) a + S1x1x4096.size a ≤ S1x64x4096.size a
  inb_S1x64x4096_S1x1x4096_0_58_0 : ∀ a, (![0, 58, 0] : Fin 3 → Nat) a + S1x1x4096.size a ≤ S1x64x4096.size a
  inb_S1x64x4096_S1x1x4096_0_59_0 : ∀ a, (![0, 59, 0] : Fin 3 → Nat) a + S1x1x4096.size a ≤ S1x64x4096.size a
  inb_S1x64x4096_S1x1x4096_0_60_0 : ∀ a, (![0, 60, 0] : Fin 3 → Nat) a + S1x1x4096.size a ≤ S1x64x4096.size a
  inb_S1x64x4096_S1x1x4096_0_61_0 : ∀ a, (![0, 61, 0] : Fin 3 → Nat) a + S1x1x4096.size a ≤ S1x64x4096.size a
  inb_S1x64x4096_S1x1x4096_0_62_0 : ∀ a, (![0, 62, 0] : Fin 3 → Nat) a + S1x1x4096.size a ≤ S1x64x4096.size a
  inb_S1x64x4096_S1x1x4096_0_63_0 : ∀ a, (![0, 63, 0] : Fin 3 → Nat) a + S1x1x4096.size a ≤ S1x64x4096.size a
  h_S1x64x4096 : 0 < S1x64x4096.numel
  shapeCasts_S1x64x4096_S64x4096 : S1x64x4096.ShapeCasts S64x4096
  shapeCasts_S64x4096_S1x64x4096 : S64x4096.ShapeCasts S1x64x4096
  hrank0 : 0 < grid0.rank
  k0_off1_inb : ∀ i : grid0.Coords, ∀ a, (k0_off1 i) a + S1.size a ≤ S64.size a
  k0_off2_inb : ∀ i : grid0.Coords, ∀ a, (k0_off2 i) a + S1x1.size a ≤ S64x64.size a
  k0_off4_inb : ∀ i : grid0.Coords, ∀ a, (k0_off4 i) a + S1x1.size a ≤ S64x64.size a
  k0_off6_inb : ∀ i : grid0.Coords, ∀ a, (k0_off6 i) a + S1x1.size a ≤ S64x64.size a
  k0_off8_inb : ∀ i : grid0.Coords, ∀ a, (k0_off8 i) a + S1x1.size a ≤ S64x64.size a
  k0_off10_inb : ∀ i : grid0.Coords, ∀ a, (k0_off10 i) a + S1x1.size a ≤ S64x64.size a
  k0_off12_inb : ∀ i : grid0.Coords, ∀ a, (k0_off12 i) a + S1x1.size a ≤ S64x64.size a
  k0_off14_inb : ∀ i : grid0.Coords, ∀ a, (k0_off14 i) a + S1x1.size a ≤ S64x64.size a
  k0_off16_inb : ∀ i : grid0.Coords, ∀ a, (k0_off16 i) a + S1x1.size a ≤ S64x64.size a
  k0_off18_inb : ∀ i : grid0.Coords, ∀ a, (k0_off18 i) a + S1x1.size a ≤ S64x64.size a
  k0_off20_inb : ∀ i : grid0.Coords, ∀ a, (k0_off20 i) a + S1x1.size a ≤ S64x64.size a
  k0_off22_inb : ∀ i : grid0.Coords, ∀ a, (k0_off22 i) a + S1x1.size a ≤ S64x64.size a
  k0_off24_inb : ∀ i : grid0.Coords, ∀ a, (k0_off24 i) a + S1x1.size a ≤ S64x64.size a
  k0_off26_inb : ∀ i : grid0.Coords, ∀ a, (k0_off26 i) a + S1x1.size a ≤ S64x64.size a
  k0_off28_inb : ∀ i : grid0.Coords, ∀ a, (k0_off28 i) a + S1x1.size a ≤ S64x64.size a
  k0_off30_inb : ∀ i : grid0.Coords, ∀ a, (k0_off30 i) a + S1x1.size a ≤ S64x64.size a
  k0_off32_inb : ∀ i : grid0.Coords, ∀ a, (k0_off32 i) a + S1x1.size a ≤ S64x64.size a
  k0_off34_inb : ∀ i : grid0.Coords, ∀ a, (k0_off34 i) a + S1x1.size a ≤ S64x64.size a
  k0_off36_inb : ∀ i : grid0.Coords, ∀ a, (k0_off36 i) a + S1x1.size a ≤ S64x64.size a
  k0_off38_inb : ∀ i : grid0.Coords, ∀ a, (k0_off38 i) a + S1x1.size a ≤ S64x64.size a
  k0_off40_inb : ∀ i : grid0.Coords, ∀ a, (k0_off40 i) a + S1x1.size a ≤ S64x64.size a
  k0_off42_inb : ∀ i : grid0.Coords, ∀ a, (k0_off42 i) a + S1x1.size a ≤ S64x64.size a
  k0_off44_inb : ∀ i : grid0.Coords, ∀ a, (k0_off44 i) a + S1x1.size a ≤ S64x64.size a
  k0_off46_inb : ∀ i : grid0.Coords, ∀ a, (k0_off46 i) a + S1x1.size a ≤ S64x64.size a
  k0_off48_inb : ∀ i : grid0.Coords, ∀ a, (k0_off48 i) a + S1x1.size a ≤ S64x64.size a
  k0_off50_inb : ∀ i : grid0.Coords, ∀ a, (k0_off50 i) a + S1x1.size a ≤ S64x64.size a
  k0_off52_inb : ∀ i : grid0.Coords, ∀ a, (k0_off52 i) a + S1x1.size a ≤ S64x64.size a
  k0_off54_inb : ∀ i : grid0.Coords, ∀ a, (k0_off54 i) a + S1x1.size a ≤ S64x64.size a
  k0_off56_inb : ∀ i : grid0.Coords, ∀ a, (k0_off56 i) a + S1x1.size a ≤ S64x64.size a
  k0_off58_inb : ∀ i : grid0.Coords, ∀ a, (k0_off58 i) a + S1x1.size a ≤ S64x64.size a
  k0_off60_inb : ∀ i : grid0.Coords, ∀ a, (k0_off60 i) a + S1x1.size a ≤ S64x64.size a
  k0_off62_inb : ∀ i : grid0.Coords, ∀ a, (k0_off62 i) a + S1x1.size a ≤ S64x64.size a
  k0_off64_inb : ∀ i : grid0.Coords, ∀ a, (k0_off64 i) a + S1x1.size a ≤ S64x64.size a
  k0_off66_inb : ∀ i : grid0.Coords, ∀ a, (k0_off66 i) a + S1x1.size a ≤ S64x64.size a
  k0_off68_inb : ∀ i : grid0.Coords, ∀ a, (k0_off68 i) a + S1x1.size a ≤ S64x64.size a
  k0_off70_inb : ∀ i : grid0.Coords, ∀ a, (k0_off70 i) a + S1x1.size a ≤ S64x64.size a
  k0_off72_inb : ∀ i : grid0.Coords, ∀ a, (k0_off72 i) a + S1x1.size a ≤ S64x64.size a
  k0_off74_inb : ∀ i : grid0.Coords, ∀ a, (k0_off74 i) a + S1x1.size a ≤ S64x64.size a
  k0_off76_inb : ∀ i : grid0.Coords, ∀ a, (k0_off76 i) a + S1x1.size a ≤ S64x64.size a
  k0_off78_inb : ∀ i : grid0.Coords, ∀ a, (k0_off78 i) a + S1x1.size a ≤ S64x64.size a
  k0_off80_inb : ∀ i : grid0.Coords, ∀ a, (k0_off80 i) a + S1x1.size a ≤ S64x64.size a
  k0_off82_inb : ∀ i : grid0.Coords, ∀ a, (k0_off82 i) a + S1x1.size a ≤ S64x64.size a
  k0_off84_inb : ∀ i : grid0.Coords, ∀ a, (k0_off84 i) a + S1x1.size a ≤ S64x64.size a
  k0_off86_inb : ∀ i : grid0.Coords, ∀ a, (k0_off86 i) a + S1x1.size a ≤ S64x64.size a
  k0_off88_inb : ∀ i : grid0.Coords, ∀ a, (k0_off88 i) a + S1x1.size a ≤ S64x64.size a
  k0_off90_inb : ∀ i : grid0.Coords, ∀ a, (k0_off90 i) a + S1x1.size a ≤ S64x64.size a
  k0_off92_inb : ∀ i : grid0.Coords, ∀ a, (k0_off92 i) a + S1x1.size a ≤ S64x64.size a
  k0_off94_inb : ∀ i : grid0.Coords, ∀ a, (k0_off94 i) a + S1x1.size a ≤ S64x64.size a
  k0_off96_inb : ∀ i : grid0.Coords, ∀ a, (k0_off96 i) a + S1x1.size a ≤ S64x64.size a
  k0_off98_inb : ∀ i : grid0.Coords, ∀ a, (k0_off98 i) a + S1x1.size a ≤ S64x64.size a
  k0_off100_inb : ∀ i : grid0.Coords, ∀ a, (k0_off100 i) a + S1x1.size a ≤ S64x64.size a
  k0_off102_inb : ∀ i : grid0.Coords, ∀ a, (k0_off102 i) a + S1x1.size a ≤ S64x64.size a
  k0_off104_inb : ∀ i : grid0.Coords, ∀ a, (k0_off104 i) a + S1x1.size a ≤ S64x64.size a
  k0_off106_inb : ∀ i : grid0.Coords, ∀ a, (k0_off106 i) a + S1x1.size a ≤ S64x64.size a
  k0_off108_inb : ∀ i : grid0.Coords, ∀ a, (k0_off108 i) a + S1x1.size a ≤ S64x64.size a
  k0_off110_inb : ∀ i : grid0.Coords, ∀ a, (k0_off110 i) a + S1x1.size a ≤ S64x64.size a
  k0_off112_inb : ∀ i : grid0.Coords, ∀ a, (k0_off112 i) a + S1x1.size a ≤ S64x64.size a
  k0_off114_inb : ∀ i : grid0.Coords, ∀ a, (k0_off114 i) a + S1x1.size a ≤ S64x64.size a
  k0_off116_inb : ∀ i : grid0.Coords, ∀ a, (k0_off116 i) a + S1x1.size a ≤ S64x64.size a
  k0_off118_inb : ∀ i : grid0.Coords, ∀ a, (k0_off118 i) a + S1x1.size a ≤ S64x64.size a
  k0_off120_inb : ∀ i : grid0.Coords, ∀ a, (k0_off120 i) a + S1x1.size a ≤ S64x64.size a
  k0_off122_inb : ∀ i : grid0.Coords, ∀ a, (k0_off122 i) a + S1x1.size a ≤ S64x64.size a
  k0_off124_inb : ∀ i : grid0.Coords, ∀ a, (k0_off124 i) a + S1x1.size a ≤ S64x64.size a
  k0_off126_inb : ∀ i : grid0.Coords, ∀ a, (k0_off126 i) a + S1x1.size a ≤ S64x64.size a
  k0_off128_inb : ∀ i : grid0.Coords, ∀ a, (k0_off128 i) a + S1x1.size a ≤ S64x64.size a
  k0_off130_inb : ∀ i : grid0.Coords, ∀ a, (k0_off130 i) a + S1.size a ≤ S64.size a
  k0_mult1_dvd : 64 ∣ k0_mult1.toNat
  k0_off131_inb : ∀ (r : Fin 8), ∀ a, (k0_off131 (BitVec.ofNat 32 r.val)) a + S1x64x4096.size a ≤ S1x512x4096.size a
  k0_mult2_dvd : 64 ∣ k0_mult2.toNat
  k0_mult3_dvd : 64 ∣ k0_mult3.toNat
  k0_mult4_dvd : 64 ∣ k0_mult4.toNat
  k0_mult5_dvd : 64 ∣ k0_mult5.toNat
  k0_mult6_dvd : 64 ∣ k0_mult6.toNat
  k0_mult7_dvd : 64 ∣ k0_mult7.toNat
  k0_mult8_dvd : 64 ∣ k0_mult8.toNat
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x64x4096.size a ≤ S64x64x4096.size a
  hwx0_0 : ∀ i : grid0.Coords, EltTy.bits .f32 = 32 ∨ (Rect.block (s := S64x64x4096) S1x64x4096.size (cc0_transform_0 i) (hinb0_0 i)).WholeWords (EltTy.packing .f32)
  hstage0_1 : ∀ j, (stage0_1 j).IsWhole
  nbuf0_1 : grid0.bufCount reads0_1 false = 2
  hreads0_1 : ∀ {F : FTy → Type} [FloatOps F] (pf : pre0.Contents (Elt F)) (i i' : grid0.Coords), (∀ a, reads0_1 a = true → i a = i' a) → cc0_transform_1 k0_off1_inb numel1_S1 pf i = cc0_transform_1 k0_off1_inb numel1_S1 pf i'
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x4096.size a ≤ S64x512x4096.size a
  hwx0_2 : ∀ i : grid0.Coords, EltTy.bits .f32 = 32 ∨ (Rect.block (s := S64x512x4096) S1x512x4096.size (cc0_transform_2 i) (hinb0_2 i)).WholeWords (EltTy.packing .f32)

variable [Facts₀]

abbrev spec0_0 : Pipeline.WinSpec sig grid0.rank :=
  Pipeline.WinSpec.ofSpec (Memref.whole main_arg0) S1x64x4096.size reads0_0 false false 2 stage0_0 sem0_0 nbuf0_0 hstage0_0

abbrev spec0_1 : Pipeline.WinSpec sig grid0.rank :=
  Pipeline.WinSpec.ofSpec (Memref.whole main_arg1) S1x512x4096.size reads0_1 false false 2 stage0_1 sem0_1 nbuf0_1 hstage0_1

abbrev spec0_2 : Pipeline.WinSpec sig grid0.rank :=
  Pipeline.WinSpec.ofSpec (Memref.whole main_v0) S1x512x4096.size reads0_2 true false 2 stage0_2 sem0_2 nbuf0_2 hstage0_2

abbrev spec0 : Fin 3 → Pipeline.WinSpec sig grid0.rank := fun | 0 => spec0_0 | 1 => spec0_1 | 2 => spec0_2 | ⟨_ + 3, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | ⟨_ + 3, h⟩ => absurd h (Nat.not_lt.2 (Nat.le_add_left _ _))
abbrev ix0 (pf : pre0.Contents (Elt F)) : (w : Fin 3) → grid0.Coords → Fin (spec0 w).shape.rank → Nat := fun | 0 => cc0_transform_0 | 1 => cc0_transform_1 k0_off1_inb numel1_S1 pf | 2 => cc0_transform_2 | ⟨_ + 3, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 | 1 => hreads0_1 pf | 2 => hreads0_2 | ⟨_ + 3, h⟩ => absurd h (Nat.not_lt.2 (Nat.le_add_left _ _))
def ok0 (pf : pre0.Contents (Elt F)) : Prop :=
  (∀ i : grid0.Coords, ∃ h : (∀ a, (cc0_transform_1 k0_off1_inb numel1_S1 pf i a + 1) * S1x512x4096.size a ≤ S128x512x4096.size a), EltTy.bits .f32 = 32 ∨ (Rect.block (s := S128x512x4096) S1x512x4096.size (cc0_transform_1 k0_off1_inb numel1_S1 pf i) h).WholeWords (EltTy.packing .f32))
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun pf hok => fun | 0 => hinb0_0 | 1 => fun i a => (hok i).elim fun h _ => h a | 2 => hinb0_2 | ⟨_ + 3, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun pf hok => fun | 0 => hwx0_0 | 1 => fun i => (hok i).elim fun _ h => h | 2 => hwx0_2 | ⟨_ + 3, h⟩ => absurd h (Nat.not_lt.2 (Nat.le_add_left _ _))

class Facts : Prop extends Facts₀ where
  harr0 : ∀ w, (spec0 w).arr.IsWhole

variable [Facts]
-- ==== ReferenceIdeal.lean ====
abbrev S64x64x4096 : Shape := ⟨3, ![64, 64, 4096]⟩
abbrev S128x512x4096 : Shape := ⟨3, ![128, 512, 4096]⟩
abbrev S64 : Shape := ⟨1, ![64]⟩
abbrev S64x64 : Shape := ⟨2, ![64, 64]⟩
abbrev S64x1 : Shape := ⟨2, ![64, 1]⟩
abbrev S_ : Shape := ⟨0, ![]⟩
abbrev S64x64x1 : Shape := ⟨3, ![64, 64, 1]⟩
abbrev S64x64x2 : Shape := ⟨3, ![64, 64, 2]⟩
abbrev S64x512x4096 : Shape := ⟨3, ![64, 512, 4096]⟩

abbrev nBuf : Space → Nat
  | .hbm => 33
  | .vmem => 0
  | .smem => 0
  | _ => 0

abbrev bufTy : (tb : Table) → Fin (tcTables nBuf tb) → BufTy
  | .hbm, ⟨0, _⟩ => ⟨S64x64x4096, .f32⟩
  | .hbm, ⟨1, _⟩ => ⟨S128x512x4096, .f32⟩
  | .hbm, ⟨2, _⟩ => ⟨S64, .i32⟩
  | .hbm, ⟨3, _⟩ => ⟨S64x64, .i32⟩
  | .hbm, ⟨4, _⟩ => ⟨S64x1, .i32⟩
  | .hbm, ⟨5, _⟩ => ⟨S_, .i32⟩
  | .hbm, ⟨6, _⟩ => ⟨S64x1, .i32⟩
  | .hbm, ⟨7, _⟩ => ⟨S64x1, .i1⟩
  | .hbm, ⟨8, _⟩ => ⟨S_, .i32⟩
  | .hbm, ⟨9, _⟩ => ⟨S64x1, .i32⟩
  | .hbm, ⟨10, _⟩ => ⟨S64x1, .i32⟩
  | .hbm, ⟨11, _⟩ => ⟨S64x1, .i32⟩
  | .hbm, ⟨12, _⟩ => ⟨S_, .i32⟩
  | .hbm, ⟨13, _⟩ => ⟨S64x64, .i32⟩
  | .hbm, ⟨14, _⟩ => ⟨S64x64, .i1⟩
  | .hbm, ⟨15, _⟩ => ⟨S_, .i32⟩
  | .hbm, ⟨16, _⟩ => ⟨S64x64, .i32⟩
  | .hbm, ⟨17, _⟩ => ⟨S64x64, .i32⟩
  | .hbm, ⟨18, _⟩ => ⟨S64x64, .i32⟩
  | .hbm, ⟨19, _⟩ => ⟨S64x64, .i32⟩
  | .hbm, ⟨20, _⟩ => ⟨S64x64x1, .i32⟩
  | .hbm, ⟨21, _⟩ => ⟨S64x64x1, .i32⟩
  | .hbm, ⟨22, _⟩ => ⟨S64x64x2, .i32⟩
  | .hbm, ⟨23, _⟩ => ⟨S128x512x4096, .f32⟩
  | .hbm, ⟨24, _⟩ => ⟨S_, .i32⟩
  | .hbm, ⟨25, _⟩ => ⟨S64, .i32⟩
  | .hbm, ⟨26, _⟩ => ⟨S64, .i1⟩
  | .hbm, ⟨27, _⟩ => ⟨S_, .i32⟩
  | .hbm, ⟨28, _⟩ => ⟨S64, .i32⟩
  | .hbm, ⟨29, _⟩ => ⟨S64, .i32⟩
  | .hbm, ⟨30, _⟩ => ⟨S64, .i32⟩
  | .hbm, ⟨31, _⟩ => ⟨S64x1, .i32⟩
  | .hbm, ⟨32, _⟩ => ⟨S64x512x4096, .f32⟩
  | _, _ => ⟨S64x64x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c_1 : Ref sig .tc := ⟨.hbm, 12, rfl⟩
abbrev main_v6 : Ref sig .tc := ⟨.hbm, 13, rfl⟩
abbrev main_v7 : Ref sig .tc := ⟨.hbm, 14, rfl⟩
abbrev main_c_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_c_3 : Ref sig .tc := ⟨.hbm, 24, rfl⟩
abbrev main_v16 : Ref sig .tc := ⟨.hbm, 25, rfl⟩
abbrev main_v17 : Ref sig .tc := ⟨.hbm, 26, rfl⟩
abbrev main_c_4 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩

abbrev nD : Nat := 1
abbrev τ : Topo := Topo.v7x

variable {F : FTy → Type} [FloatOps F]

class Facts₀ : Prop where
  bcast_S64_S64x1_0 : S64.BroadcastsInDim S64x1 (![0] : Fin 1 → Fin S64x1.rank)
  bcast_S_S64x1 : S_.BroadcastsInDim S64x1 (![] : Fin 0 → Fin S64x1.rank)
  bcast_S_S64x64 : S_.BroadcastsInDim S64x64 (![] : Fin 0 → Fin S64x64.rank)
  bcast_S64x1_S64x64_0_1 : S64x1.BroadcastsInDim S64x64 (![0, 1] : Fin 2 → Fin S64x64.rank)
  bcast_S64x64_S64x64x1_0_1 : S64x64.BroadcastsInDim S64x64x1 (![0, 1] : Fin 2 → Fin S64x64x1.rank)
  concatenates_S64x64x1_S64x64x1_S64x64x2_d2 : Shape.Concatenates [S64x64x1, S64x64x1] S64x64x2 2
  bcast_S_S64 : S_.BroadcastsInDim S64 (![] : Fin 0 → Fin S64.rank)
  scatter_S128x512x4096_S64x64x2_S64x64x4096_2_01_01_2_wf : ScatterDims.WF S128x512x4096 S64x64x2 S64x64x4096 [2] [0, 1] [0, 1] 2
  gather_S128x512x4096_S64x1_S64x512x4096_12_0_n_n_0_1_15124096_wf : GatherDims.WF S128x512x4096 S64x1 S64x512x4096 [1, 2] [0] [] [0] [] 1 ![1, 512, 4096]

variable [Facts₀]

def scatter_S128x512x4096_S64x64x2_S64x64x4096_2_01_01_2 : ScatterDims S128x512x4096 S64x64x2 S64x64x4096 where
  updateWindowDims := [2]
  insertedWindowDims := [0, 1]
  scatterDimsToOperandDims := [0, 1]
  indexVectorDim := 2
  wf := scatter_S128x512x4096_S64x64x2_S64x64x4096_2_01_01_2_wf
def gather_S128x512x4096_S64x1_S64x512x4096_12_0_n_n_0_1_15124096 : GatherDims S128x512x4096 S64x1 S64x512x4096 where
  offsetDims := [1, 2]
  collapsedSliceDims := [0]
  operandBatchingDims := []
  startIndicesBatchingDims := []
  startIndexMap := [0]
  indexVectorDim := 1
  sliceSizes := ![1, 512, 4096]
  wf := gather_S128x512x4096_S64x1_S64x512x4096_12_0_n_n_0_1_15124096_wf

class Facts : Prop extends Facts₀ where

variable [Facts]
-- ==== Proof.K.Region.lean ====
/-
  The one pallas_call of @main as the pipeline library sees it, at the tables this memory holds.

  @main is the region alone, so what the region finds in every buffer is the launch memory. The two prefetched
  tables — the sequences' slot words and the rows the updates aim at — are read off that memory; the pipeline is
  taken at those contents, under its side condition `Ok` (every slot word names a block inside the cache). The
  body is handed, at grid point `t`, the two tables whole, the current staging buffer of the update block
  `x[t]`, of the cache block the slot word of `t` names, and of the result block `t`.
-/
import proofs.«409922_j19043884990814_2_alg».proof.Proof.Gen.Kernel.Launch
import proofs.«409922_j19043884990814_2_alg».proof.Proof.Gen.Kernel.Skeleton
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the region finds -/

/-- Core `c`'s buffers when the region is entered: the launch memory (no host operation runs before it). -/
abbrev Ent (c : Dev nD) (b : Ref sig .tc) : Buf (Elt F) ((c : Thread nD τ).loc b) := m ((c : Thread nD τ).loc b)

/-- @main is the region alone. -/
theorem main_is_region (𝒱₀ : Variants) :
    Pipeline.HMainP (Ix := Unit) (Name := ℕ) (U := UR sig nD τ) (Lvl := ℕ) pcfgs 0 defs₀ 𝒱₀ m (main (F := F)) (Ent m) :=
  Pipeline.hmainP_region pcfgs 0 defs₀ 𝒱₀ m main fun c => (main_chain c).trans rfl

/-- The tables as the region reads them (there is one device). -/
def tbl : pre0.Contents (Elt F) := fun j => Ent m (0 : Dev nD) (pre0.ref j)

theorem Ent_pre (c : Dev nD) (j : Fin 2) : Ent m c (pre0.ref j) = tbl m j := by
  obtain rfl : c = 0 := Subsingleton.elim _ _; rfl

/-- The pipeline's side condition of the tables: every cache block a slot word names lies inside the cache. -/
abbrev Ok : Prop := ok0 (F := F) (tbl m)

/-- The tables as admissible contents, and the pipeline at them. -/
abbrev adm (hO : Ok m) : (pcfg0 (F := F)).Adm := ⟨tbl m, hO⟩
abbrev cfgM (hO : Ok m) : Pipeline.Cfg sig Λ₀ := cfg0 (adm m hO)

/-! ## The tables as the body holds them -/

/-- The slot table and the row table as the body is handed them: whole buffers. -/
abbrev seqM : Memref sig .tc .smem S64 .i32 := Memref.whole main_arg2
abbrev hseqM : (seqM).IsWhole := Memref.isWhole_whole _
abbrev rowM : Memref sig .tc .smem S64x64 .i32 := Memref.whole main_arg3
abbrev hrowM : (rowM).IsWhole := Memref.isWhole_whole _

/-- A table's contents type, and the table held at the half share the region lends the body (read-only). -/
abbrev TbBuf (c : Dev nD) {S : Shape} {e : EltTy} (M : Memref sig .tc .smem S e) : Type := Buf (Elt F) (M.view.loc (c : Thread nD τ))
abbrev tbPt (c : Dev nD) {S : Shape} {e : EltTy} (M : Memref sig .tc .smem S e) (f : TbBuf (F := F) c M) : sProp 𝕄 :=
  M.view.loc (c : Thread nD τ) ↦{fullShare.right} f

/-- The tables' halves, table by table. -/
theorem tables_held (c : Dev nD) :
    (Pipeline.ΦT pre0 (tbl m) c : sProp 𝕄) = iprop(tbPt c seqM (tbl m 0) ∗ tbPt c rowM (tbl m 1)) := by
  unfold Pipeline.ΦT Pipeline.prefHeld
  rw [show (Finset.univ : Finset (Fin 2)) = insert (0 : Fin 2) {(1 : Fin 2)} from by decide,
    bigSep_insert (by decide), bigSep_singleton]
  rfl

/-! ## The windows' blocks and staging buffers -/

/-- Window `w`'s block at point `t`, read off its array as the region finds it. -/
def blk (hO : Ok m) (c : Dev nD) (w : Fin (cfgM m hO).W) (t : Fin (cfgM m hO).N) :
    (((cfgM m hO).win w).xblock ((cfgM m hO).grid.coords t)).Idx → Elt F ((cfgM m hO).win w).elt :=
  (((cfgM m hO).win w).blk t).view.read (Elt F) (Ent m c (Pipeline.arrRef spec0 w))

/-- The current staging buffer of each window at point `t`, as the pipeline passes it to the body. -/
abbrev stX (hO : Ok m) (t : Fin (cfgM m hO).N) : Memref sig .tc .vmem S1x64x4096 .f32 := spec0_0.stage ((cfgM m hO).slots t 0)
abbrev hstX (hO : Ok m) (t : Fin (cfgM m hO).N) : (stX m hO t).IsWhole := hstage0_0 (((cfgM m hO).slots t 0).cast nbuf0_0)
abbrev stC (hO : Ok m) (t : Fin (cfgM m hO).N) : Memref sig .tc .vmem S1x512x4096 .f32 := spec0_1.stage ((cfgM m hO).slots t 1)
abbrev hstC (hO : Ok m) (t : Fin (cfgM m hO).N) : (stC m hO t).IsWhole := hstage0_1 (((cfgM m hO).slots t 1).cast nbuf0_1)
abbrev stO (hO : Ok m) (t : Fin (cfgM m hO).N) : Memref sig .tc .vmem S1x512x4096 .f32 := spec0_2.stage ((cfgM m hO).slots t 2)
abbrev hstO (hO : Ok m) (t : Fin (cfgM m hO).N) : (stO m hO t).IsWhole := hstage0_2 (((cfgM m hO).slots t 2).cast nbuf0_2)

/-- The kernel body as the pipeline calls it at point `t`. -/
abbrev bodyAt (a : (pcfg0 (F := F)).Adm) (t : Fin (cfg0 a).N) : Prog (TpuEff nD τ sig (Elt F) Λ₀ .tc) PUnit :=
  cc0__kernel (grid0.coords t) (Memref.whole main_arg2) (Memref.isWhole_whole _) (Memref.whole main_arg3) (Memref.isWhole_whole _)
    (spec0_0.stage ((cfg0 a).slots t 0)) (hstage0_0 (((cfg0 a).slots t 0).cast nbuf0_0))
    (spec0_1.stage ((cfg0 a).slots t 1)) (hstage0_1 (((cfg0 a).slots t 1).cast nbuf0_1))
    (spec0_2.stage ((cfg0 a).slots t 2)) (hstage0_2 (((cfg0 a).slots t 2).cast nbuf0_2))

end Cert.Kernel.Hand

end
-- ==== Proof.K.Body.lean ====
/-
  The kernel body, run once on symbolic operands.

  At a grid point the body holds the two tables (read-only), the update block `x[t]` (read-only), the cache
  block of the point's slot, and the result block. It reads the 64 row words of the point, stores update row `j`
  of `x[t]` over row `row (t, j)` of the CACHE block's buffer, `j` increasing, and then copies that buffer into
  the result block in eight chunks of 64 rows. Each row store is in range because every row word is below 512
  (`hrow`). What the two written buffers end with — the pieces stored, last first — is found by the run.
-/
import proofs.«409922_j19043884990814_2_alg».proof.Proof.K.Region

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Every word of the row table names a row of a cache block. -/
abbrev RowsOk (c : Dev nD) (xt1 : TbBuf (F := F) c rowM) : Prop :=
  ∀ (R : LoadRect S64x64) (y : R.shape.Idx), (Scalar.indexCast (rowM.view.readAt (Elt F) R xt1 y)).toNat < 512

/-- A row word below 512 keeps the unit row rectangle at that row inside a cache block. -/
theorem chk_of_rows (c : Dev nD) (xt1 : TbBuf (F := F) c rowM) (hrow : RowsOk c xt1)
    (R : LoadRect S64x64) (y : R.shape.Idx) :
    ∀ a, (![0, (Scalar.indexCast (rowM.view.readAt (Elt F) R xt1 y)).toNat, 0] : Fin 3 → Nat) a
      + S1x1x4096.size a ≤ S1x512x4096.size a := by
  intro a
  have h := hrow R y
  fin_cases a
  · show 0 + 1 ≤ 1; omega
  · show (Scalar.indexCast (rowM.view.readAt (Elt F) R xt1 y)).toNat + 1 ≤ 512; omega
  · show 0 + 4096 ≤ 4096; omega

set_option maxHeartbeats 4000000 in
/-- What the body's stores leave in the cache block's buffer and in the result block's buffer, as pieces (last
    first), with the run: from the update block at `x0`, the cache block's buffer whole at raw contents `f1`, the
    result's at anything and the tables at `xt0`, `xt1`, the body runs to its return with the update block and the
    tables as they were and the two written buffers at their pieces over what they held. -/
noncomputable def kernelRun (c : Dev nD) (i : grid0.Coords)
    (arg3 : Memref sig .tc .vmem S1x64x4096 .f32) (harg3 : arg3.IsWhole)
    (arg4 : Memref sig .tc .vmem S1x512x4096 .f32) (harg4 : arg4.IsWhole)
    (arg5 : Memref sig .tc .vmem S1x512x4096 .f32) (harg5 : arg5.IsWhole)
    (x0 : Vec F S1x64x4096 .f32) (f1 : Buf (Elt F) (arg4.view.loc (c : Thread nD τ)))
    (xt0 : TbBuf (F := F) c seqM) (xt1 : TbBuf (F := F) c rowM) (hrow : RowsOk c xt1) :
    { L : List (View.Piece (Elt F) S1x512x4096 .f32) × List (View.Piece (Elt F) S1x512x4096 .f32) //
      ∀ (E : Set ℕ) (K : PUnit → sProp 𝕄),
        iprop(owns (c : Thread nD τ) arg3 fullShare x0
            ∗ (arg4.view.loc (c : Thread nD τ) ↦[arg4.view.set]{fullShare} f1)
            ∗ (∃ d, owns (c : Thread nD τ) arg5 fullShare d)
            ∗ tbPt c seqM xt0 ∗ tbPt c rowM xt1
            ∗ (iprop(owns (c : Thread nD τ) arg3 fullShare x0
                ∗ (arg4.view.loc (c : Thread nD τ) ↦[arg4.view.set]{fullShare} arg4.view.writes (Elt F) f1 L.1)
                ∗ (∃ f, arg5.view.loc (c : Thread nD τ) ↦[arg5.view.set]{fullShare} arg5.view.writes (Elt F) f L.2)
                ∗ tbPt c seqM xt0 ∗ tbPt c rowM xt1) -∗ K ⟨⟩))
          ⊢ wp frame (wpE (defs₀ (F := F)) Variants.none c none) E
              (cc0__kernel i seqM hseqM rowM hrowM arg3 harg3 arg4 harg4 arg5 harg5) K } := by
  refine ⟨⟨?_, ?_⟩, fun E K => ?run⟩
  case run =>
    unfold owns
    iintro ⟨⟨%f0, %hf0, H0⟩, H1, ⟨%d2, %f2, -, H2⟩, HT0, HT1, Hk⟩
    obtain rfl := harg3.eq_unread hf0
    sl_exec_parts! (disch := exact chk_of_rows c xt1 hrow _ _)
    sl_step
    iapply Hk
    isplitl [H0]
    · iexists _; isplitr; · ipureintro; exact harg3.read_unread _
      iexact H0
    isplitl [H1]; · iexact H1
    isplitl [H2]; · iexists _; iexact H2
    isplitl [HT0]; · iexact HT0
    iexact HT1

end Cert.Kernel.Hand

end
-- ==== Proof.RowStores.lean ====
/-
  Row stores read back.

  A buffer of 512 rows of 4096 words (one leading unit axis) receives a sequence of whole-row stores, store `k`
  writing the row `val k` at row `ρ k`, in the order `k = 0, 1, …, n - 1`. Reading row `r` afterwards gives the
  row written by the LAST store aimed at `r`, and what the buffer held before where no store aims at `r`.
-/
import Idealize.ShloMosaic.Lib.Writes
import Idealize.ShloMosaic.Lib.ValueIdx

noncomputable section

namespace Cert.RowStores

open Idealize.ShloMosaic Idealize.ShloMosaic.ValueIdx

/-- The buffer's shape and one row's. -/
abbrev SB : Shape := ⟨3, ![1, 512, 4096]⟩
abbrev SW : Shape := ⟨3, ![1, 1, 4096]⟩

variable {sig : RefSig} {κ : Kind} {sp : Space} {e : EltTy} {Val : EltTy → Type}

/-- The rectangle of row `ρ`. -/
abbrev rowRect (ρ : Nat) (hin : ∀ a, (![0, ρ, 0] : Fin 3 → Nat) a + SW.size a ≤ SB.size a) : Rect SB :=
  Rect.unit (s := SB) ![0, ρ, 0] SW.size hin

theorem rowRect_row_lt {ρ : Nat} (hin : ∀ a, (![0, ρ, 0] : Fin 3 → Nat) a + SW.size a ≤ SB.size a) : ρ < 512 := by
  have := hin 1
  simp only [Matrix.cons_val_one, Matrix.cons_val_zero, Shape.size] at this
  omega

/-- Word `hh` of a row, as an index of the row's shape and of the buffer's. -/
abbrev inRow (hh : Fin 4096) : SW.Idx := ix3 (0 : Fin 1) (0 : Fin 1) hh
abbrev inBuf (r : Fin 512) (hh : Fin 4096) : SB.Idx := ix3 (0 : Fin 1) r hh

theorem emb_inRow (ρ : Nat) (hin) (hh : Fin 4096) :
    (rowRect ρ hin).emb (inRow hh) = inBuf ⟨ρ, rowRect_row_lt hin⟩ hh := by
  funext a
  apply Fin.ext
  rw [Rect.emb_apply]
  match a with
  | ⟨0, _⟩ => rfl
  | ⟨1, _⟩ => simp [rowRect, inRow, inBuf]
  | ⟨2, _⟩ => simp [rowRect, inRow, inBuf]

theorem inBuf_mem_rowRect_iff (ρ : Nat) (hin) (r : Fin 512) (hh : Fin 4096) :
    inBuf r hh ∈ (rowRect ρ hin).set ↔ ρ = r.val := by
  rw [Rect.mem_set_unit]
  constructor
  · intro h
    have h1 : ρ ≤ r.val ∧ r.val < ρ + 1 := h 1
    omega
  · intro h a
    match a with
    | ⟨0, _⟩ => exact (show (0 : Nat) ≤ 0 ∧ (0 : Nat) < 0 + 1 from ⟨Nat.le_refl _, Nat.one_pos⟩)
    | ⟨1, _⟩ => exact (show ρ ≤ r.val ∧ r.val < ρ + 1 from ⟨by omega, by omega⟩)
    | ⟨2, _⟩ => exact (show (0 : Nat) ≤ hh.val ∧ hh.val < 0 + 4096 from ⟨Nat.zero_le _, by have := hh.isLt; omega⟩)

/-- One more row store on top of earlier ones, read at row `r`. -/
theorem read_cons_row (v : View sig κ sp SB e) (f : v.ty.Contents Val) (ρ : Nat) (hin)
    (w : (rowRect ρ hin).shape.Idx → Val e) (L : List (View.Piece Val SB e)) (r : Fin 512) (hh : Fin 4096) :
    v.read Val (v.writes Val f (⟨rowRect ρ hin, w⟩ :: L)) (inBuf r hh)
      = if ρ = r.val then w (inRow hh) else v.read Val (v.writes Val f L) (inBuf r hh) := by
  by_cases h : ρ = r.val
  · rw [if_pos h]
    have hr : r = ⟨ρ, rowRect_row_lt hin⟩ := Fin.ext h.symm
    rw [hr, ← emb_inRow ρ hin hh]
    exact View.read_writes_cons_emb v f (rowRect ρ hin) w L (inRow hh)
  · rw [if_neg h, View.writes_cons]
    refine View.read_slice_write_of_not_mem (rowRect ρ hin) _ _ _ ?_
    rw [Rect.map_emb_univ]
    exact fun hm => h ((inBuf_mem_rowRect_iff ρ hin r hh).1 hm)

/-- The pieces of the stores `k = 0, …, n - 1`, last first: store `k` a whole row at row `ρ k` holding `val k`. -/
inductive RowList (ρ : Nat → Nat) (val : Nat → Fin 4096 → Val e) : Nat → List (View.Piece Val SB e) → Prop
  | nil : RowList ρ val 0 []
  | cons (n : Nat) (L : List (View.Piece Val SB e)) (ρ' : Nat) (hin) (w : (rowRect ρ' hin).shape.Idx → Val e) :
      RowList ρ val n L → ρ' = ρ n → (∀ hh, w (inRow hh) = val n hh) → RowList ρ val (n + 1) (⟨rowRect ρ' hin, w⟩ :: L)

/-- Where no store aims at row `r`, the row is what the buffer held. -/
theorem read_rowList_miss (v : View sig κ sp SB e) (f : v.ty.Contents Val) {ρ : Nat → Nat} {val : Nat → Fin 4096 → Val e}
    {n : Nat} {L : List (View.Piece Val SB e)} (hL : RowList ρ val n L) (r : Fin 512) (hh : Fin 4096)
    (hmiss : ∀ k, k < n → ρ k ≠ r.val) :
    v.read Val (v.writes Val f L) (inBuf r hh) = v.read Val f (inBuf r hh) := by
  induction hL with
  | nil => rfl
  | cons n L ρ' hin w _ hρ _ ih =>
    subst hρ
    rw [read_cons_row, if_neg (hmiss n (Nat.lt_succ_self n))]
    exact ih fun k hk => hmiss k (Nat.lt_succ_of_lt hk)

/-- Where store `k` is the last aimed at row `r`, the row is the one it wrote. -/
theorem read_rowList_hit (v : View sig κ sp SB e) (f : v.ty.Contents Val) {ρ : Nat → Nat} {val : Nat → Fin 4096 → Val e}
    {n : Nat} {L : List (View.Piece Val SB e)} (hL : RowList ρ val n L) (r : Fin 512) (hh : Fin 4096)
    (k : Nat) (hk : k < n) (hit : ρ k = r.val) (hlast : ∀ k', k < k' → k' < n → ρ k' ≠ r.val) :
    v.read Val (v.writes Val f L) (inBuf r hh) = val k hh := by
  induction hL with
  | nil => exact absurd hk (Nat.not_lt_zero k)
  | cons n L ρ' hin w _ hρ hw ih =>
    subst hρ
    rw [read_cons_row]
    rcases Nat.lt_succ_iff_lt_or_eq.1 hk with hlt | rfl
    · rw [if_neg (hlast n hlt (Nat.lt_succ_self n))]
      exact ih hlt fun k' h1 h2 => hlast k' h1 (Nat.lt_succ_of_lt h2)
    · rw [if_pos hit, hw]

end Cert.RowStores

end
-- ==== Proof.K.Pieces.lean ====
/-
  What the body's run left, read as mathematics.

  The cache block's buffer received the point's 64 row stores, store `k` writing row `k` of the update block at the
  row the table's word `(i, k)` names; the result block's buffer received eight chunks of 64 rows, each what a load
  of those rows of the cache block's buffer read after the 64 stores — so the eight pieces are restrictions of ONE
  function, the cache block's buffer as read after the stores, and together they cover the result block.
-/
import proofs.«409922_j19043884990814_2_alg».proof.Proof.K.Body
import proofs.«409922_j19043884990814_2_alg».proof.Proof.RowStores
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic Idealize.ShloMosaic.ValueIdx
open Idealize.SL Idealize.SL.Sem

variable {F : FTy → Type} [FloatOps F]

section
variable (c : Dev nD) (i : grid0.Coords)
    (arg3 : Memref sig .tc .vmem S1x64x4096 .f32) (harg3 : arg3.IsWhole)
    (arg4 : Memref sig .tc .vmem S1x512x4096 .f32) (harg4 : arg4.IsWhole)
    (arg5 : Memref sig .tc .vmem S1x512x4096 .f32) (harg5 : arg5.IsWhole)
    (x0 : Vec F S1x64x4096 .f32) (f1 : Buf (Elt F) (arg4.view.loc (c : Thread nD τ)))
    (xt0 : TbBuf (F := F) c seqM) (xt1 : TbBuf (F := F) c rowM) (hrow : RowsOk c xt1)

/-- The row the table's word `(i, k)` names (zero past the 64 updates, to make it a function of a natural). -/
def rowOf (k : Nat) : Nat :=
  if hk : k < 64 then ((rowM.view.read (Elt F) xt1 : S64x64.Idx → BitVec 32) (ix2 (i 0) ⟨k, hk⟩)).toNat else 0

/-- Row `k` of the update block (its row 0 past the 64 updates). -/
def updOf (k : Nat) (hh : Fin 4096) : Elt F .f32 :=
  if hk : k < 64 then x0 (ix3 (0 : Fin 1) (⟨k, hk⟩ : Fin 64) hh) else x0 (ix3 (0 : Fin 1) (0 : Fin 64) hh)

/-- The word the body reads off the row table at `(i, j)` names the row `rowOf` gives. -/
theorem row_word (c : Dev nD) (i : grid0.Coords) (xt1 : TbBuf (F := F) c rowM) (j : Nat) (hj : j < 64)
    (off : Fin 2 → Nat) (hin : ∀ a, off a + S1x1.size a ≤ S64x64.size a)
    (hoff : off = ![(Scalar.indexCast (BitVec.ofNat 32 (i 0).val)).toNat, j])
    (y : (Rect.unit (s := S64x64) off S1x1.size hin).shape.Idx) :
    (Scalar.indexCast (rowM.view.readAt (Elt F) (Rect.unit (s := S64x64) off S1x1.size hin).toLoadRect xt1 y)).toNat
      = rowOf c i xt1 j := by
  subst hoff
  unfold rowOf
  rw [dif_pos hj, View.readAt_apply]
  have hi : (i 0).val < 64 := (i 0).isLt
  have h : (Rect.unit (s := S64x64) ![(Scalar.indexCast (BitVec.ofNat 32 (i 0).val)).toNat, j] S1x1.size hin).toLoadRect.idx y
      = ix2 (i 0) ⟨j, hj⟩ := by
    funext a
    apply Fin.ext
    rw [LoadRect.idx_apply]
    match a with
    | ⟨0, h0⟩ =>
      have y0 : (y ⟨0, h0⟩).val < 1 := (y ⟨0, h0⟩).isLt
      show (BitVec.ofNat 32 (i 0).val).toNat + 1 * (y ⟨0, h0⟩).val = (i 0).val
      rw [BitVec.toNat_ofNat, Nat.mod_eq_of_lt (by omega)]
      omega
    | ⟨1, h1⟩ =>
      have y1 : (y ⟨1, h1⟩).val < 1 := (y ⟨1, h1⟩).isLt
      show j + 1 * (y ⟨1, h1⟩).val = j
      omega
  rw [h]
  rfl

/-- Row `j` of the update block as the body stores it — loaded, flattened, restored to a row — is that row. -/
theorem upd_row (arg3 : Memref sig .tc .vmem S1x64x4096 .f32) (harg3 : arg3.IsWhole) (x0 : Vec F S1x64x4096 .f32)
    (j : Nat) (hj : j < 64) (hin : ∀ a, (![0, j, 0] : Fin 3 → Nat) a + S1x1x4096.size a ≤ S1x64x4096.size a)
    (h1 : S1x1x4096.ShapeCasts S4096) (h2 : S4096.ShapeCasts S1x1x4096) (hh : Fin 4096) :
    shapeCast S1x1x4096 (shapeCast S4096
        (arg3.view.readAt (Elt F) (Rect.unit (s := S1x64x4096) ![0, j, 0] S1x1x4096.size hin).toLoadRect (harg3.unread x0)) h1) h2
        (Cert.RowStores.inRow hh)
      = updOf x0 j hh := by
  rw [shapeCast_shapeCast, View.readAt_apply, harg3.read_unread]
  unfold updOf
  rw [dif_pos hj]
  congr 1
  funext a
  apply Fin.ext
  rw [LoadRect.idx_apply]
  match a with
  | ⟨0, _⟩ => rfl
  | ⟨1, _⟩ => show j + 1 * 0 = j; omega
  | ⟨2, _⟩ => show 0 + 1 * hh.val = hh.val; omega

/-- A chunk of 64 rows loaded, flattened and restored to its shape is the buffer read under the chunk. -/
theorem chunk_read {κ : Kind} {sp : Space} (v : View sig κ sp S1x512x4096 .f32) (g : v.ty.Contents (Elt F))
    (off : Fin 3 → Nat) (hin : ∀ a, off a + S1x64x4096.size a ≤ S1x512x4096.size a)
    (h1 : S1x64x4096.ShapeCasts S64x4096) (h2 : S64x4096.ShapeCasts S1x64x4096)
    (x : (Rect.unit (s := S1x512x4096) off S1x64x4096.size hin).shape.Idx) :
    shapeCast S1x64x4096 (shapeCast S64x4096
        (v.readAt (Elt F) (Rect.unit (s := S1x512x4096) off S1x64x4096.size hin).toLoadRect g) h1) h2 x
      = v.read (Elt F) g ((Rect.unit (s := S1x512x4096) off S1x64x4096.size hin).emb x) := by
  rw [shapeCast_shapeCast]; rfl
/-- The cache block's buffer received the 64 row stores, in order. -/
theorem rows_of_run :
    Cert.RowStores.RowList (Val := Elt F) (rowOf c i xt1) (updOf x0) 64
      (kernelRun c i arg3 harg3 arg4 harg4 arg5 harg5 x0 f1 xt0 xt1 hrow).1.1 := by
  unfold kernelRun
  dsimp only
  sl_unfold_run_names
  iterate 64
    refine Cert.RowStores.RowList.cons _ _ _ _ _ ?_ (row_word c i xt1 _ (by decide) _ _ rfl _)
      (fun hh => upd_row arg3 harg3 x0 _ (by decide) _ _ _ hh)
  exact Cert.RowStores.RowList.nil

/-- Each chunk written to the result block is that chunk of the cache block's buffer as read after the row stores. -/
theorem out_pieces :
    ∀ p ∈ (kernelRun c i arg3 harg3 arg4 harg4 arg5 harg5 x0 f1 xt0 xt1 hrow).1.2, ∀ x : p.1.shape.Idx,
      p.2 x = arg4.view.read (Elt F) (arg4.view.writes (Elt F) f1 (kernelRun c i arg3 harg3 arg4 harg4 arg5 harg5 x0 f1 xt0 xt1 hrow).1.1) (p.1.emb x) := by
  unfold kernelRun
  dsimp only
  sl_unfold_run_names
  intro p hp
  simp only [List.mem_cons, List.not_mem_nil, or_false] at hp
  rcases hp with rfl | rfl | rfl | rfl | rfl | rfl | rfl | rfl <;>
    exact fun x => chunk_read _ _ _ _ _ _ x

/-- The eight chunks cover the result block. -/
theorem out_cover_pieces :
    ∀ y : S1x512x4096.Idx, ∃ p ∈ (kernelRun c i arg3 harg3 arg4 harg4 arg5 harg5 x0 f1 xt0 xt1 hrow).1.2, y ∈ p.1.set :=
  View.cover_of_tiledL _ S1x64x4096.size (by sl_kernel_rfl)

end

end Cert.Kernel.Hand

end
-- ==== Proof.K.Frame.lean ====
/-
  The frame of the one pallas_call, and its run with the result array named.

  Proof data: the update block's buffer is left as found; the CACHE block's buffer is left with the point's 64
  row stores laid over the block (the body writes an input's staging buffer); the result's buffer is left at
  what the eight chunk copies wrote. Because the slot words are pairwise distinct, consecutive points name
  different cache blocks, so the pipeline fetches the cache block afresh at every point and the body always
  finds the block of the array itself, never what an earlier point left.
-/
import proofs.«409922_j19043884990814_2_alg».proof.Proof.K.Body
import proofs.«409922_j19043884990814_2_alg».proof.Proof.K.Pieces

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the frame needs of the tables this memory holds: the pipeline's side condition, every row word a row of a
    cache block, the slot words pairwise distinct. -/
structure Tables : Prop where
  ok : Ok m
  rows : ∀ c : Dev nD, RowsOk (F := F) c (tbl m 1)
  inj : Function.Injective (tbl m 0 : S64.Idx → BitVec 32)

variable {m}

/-- The body's run at point `t`, on the point's staging buffers, blocks and tables. -/
abbrev runAt (h : Tables m) (c : Dev nD) (t : Fin (cfgM m h.ok).N) :=
  kernelRun (F := F) c (grid0.coords t) (stX m h.ok t) (hstX m h.ok t) (stC m h.ok t) (hstC m h.ok t) (stO m h.ok t) (hstO m h.ok t)
    (blk m h.ok c 0 t) ((hstC m h.ok t).unread (blk m h.ok c 1 t)) (tbl m 0) (tbl m 1) (h.rows c)

/-- What the cache block's buffer holds after the body at point `t`. -/
def cacheAt (h : Tables m) (c : Dev nD) (t : Fin (cfgM m h.ok).N) : Vec F S1x512x4096 .f32 :=
  (stC m h.ok t).view.read (Elt F) ((stC m h.ok t).view.writes (Elt F) ((hstC m h.ok t).unread (blk m h.ok c 1 t)) (runAt h c t).1.1)

/-- What the result block's buffer holds after the body at point `t` (its pieces cover it: read back over anything). -/
def outAt (h : Tables m) (c : Dev nD) (t : Fin (cfgM m h.ok).N) : Vec F S1x512x4096 .f32 :=
  (stO m h.ok t).view.read (Elt F) ((stO m h.ok t).view.writes (Elt F) (stO m h.ok t).view.junk (runAt h c t).1.2)

/-- The proof data of the pipeline on core `c`. -/
def dats (h : Tables m) (_ : Fin 1) (c : Dev nD) : Dat τ (Elt F) Unit ℕ (UR sig nD τ) ℕ (cfgM m h.ok) c where
  A w := Ent m c (Pipeline.arrRef spec0 w)
  after w t := match w with
    | ⟨0, _⟩ => blk m h.ok c 0 t
    | ⟨1, _⟩ => cacheAt h c t
    | ⟨2, _⟩ => outAt h c t
  Φ _ := iprop(Pipeline.ΦA spec0 c ∗ Pipeline.ΦT pre0 (tbl m) c)
  q _ := fullShare
  owed _ := 0

theorem dats_A (h : Tables m) (c : Dev nD) (w : Fin (cfgM m h.ok).W) : (dats h 0 c).A w = Ent m c (Pipeline.arrRef spec0 w) := by
  dsimp only [dats]

theorem after_out (h : Tables m) (c : Dev nD) (t : Fin (cfgM m h.ok).N) : (dats h 0 c).after 2 t = outAt h c t := by
  dsimp only [dats]; try rfl

/-! ## What the body finds in the input windows' buffers -/

theorem after_x (h : Tables m) (c : Dev nD) (t : Fin (cfgM m h.ok).N) : (dats h 0 c).after 0 t = blk m h.ok c 0 t := by
  dsimp only [dats]; try rfl

theorem after_cache (h : Tables m) (c : Dev nD) (t : Fin (cfgM m h.ok).N) : (dats h 0 c).after 1 t = cacheAt h c t := by
  dsimp only [dats]; try rfl

/-- The update block's buffer holds the block at every point: the body leaves it in place. -/
theorem before_x (h : Tables m) (c : Dev nD) (t : Fin (cfgM m h.ok).N) (d) : (dats h 0 c).before 0 t d = blk m h.ok c 0 t :=
  ((dats h 0 c).before_in_eq_fetched 0 rfl (fun _ => rfl) (fun _ _ _ => rfl)
      (fun t => by rw [after_x]; unfold Dat.blockOf blk; rw [dats_A]; try rfl) t d).trans
    (by unfold Dat.fetched Dat.blockOf blk; rw [dats_A]; try rfl)

/-- The grid is one axis of 64 points: a point's coordinate is the point. -/
theorem coord_val (t : Fin grid0.N) : (grid0.coords t 0).val = t.val := by
  show t.val / 1 % 64 = t.val
  rw [Nat.div_one]; exact Nat.mod_eq_of_lt (lt_of_lt_of_eq t.isLt N_0)

/-- A point as an index of the slot table. -/
def slotIx (t : Fin grid0.N) : S64.Idx := fun a => match a with | ⟨0, _⟩ => ⟨t.val, lt_of_lt_of_eq t.isLt N_0⟩

/-- The cache window's block index at a point: the point's slot word, then zeros. -/
theorem index_cache (h : Tables m) (t : Fin (cfgM m h.ok).N) :
    ((cfgM m h.ok).win 1).index t (0 : Fin 3) = (tbl m 0 (slotIx t)).toNat := by
  show (tbl m 0 _).toNat = _
  congr 2
  funext a
  match a with
  | ⟨0, _⟩ =>
    apply Fin.ext
    show (BitVec.ofNat 32 (grid0.coords t 0).val).toNat + 1 * 0 = t.val
    rw [coord_val, BitVec.toNat_ofNat]
    have := lt_of_lt_of_eq t.isLt N_0
    omega

/-- The slot words being pairwise distinct, the cache window is fetched at every point. -/
theorem fetch_cache (h : Tables m) (t : Fin (cfgM m h.ok).N) : ((cfgM m h.ok).win 1).fetch t = true := by
  rw [Window.fetch_in _ rfl]
  by_cases h0 : t.val = 0
  · exact .inl h0
  · refine .inr ⟨Nat.pos_of_ne_zero h0, fun he => ?_⟩
    have h1 := congrFun he (0 : Fin 3)
    rw [index_cache h, index_cache h] at h1
    have h2 := h.inj (BitVec.eq_of_toNat_eq h1)
    have h3 := congrArg (fun x : S64.Idx => (x 0).val) h2
    simp only [slotIx] at h3
    omega

/-- So the body finds the array's own block in the cache window's buffer at every point. -/
theorem before_cache (h : Tables m) (c : Dev nD) (t : Fin (cfgM m h.ok).N) (d) : (dats h 0 c).before 1 t d = blk m h.ok c 1 t := by
  unfold Dat.before; rw [if_pos (fetch_cache h t)]
  unfold Dat.fetched Dat.blockOf blk; rw [dats_A]; try rfl

/-! ## The body obligation -/

/-- A whole memref owned at contents `X` is its points-to at the raw contents that read `X`. -/
theorem owns_raw (c : Dev nD) {sp : Space} {S : Shape} {e : EltTy} (M : Memref sig .tc sp S e) (hM : M.IsWhole) (X : S.Idx → Elt F e) :
    (owns (c : Thread nD τ) M fullShare X : sProp 𝕄) ⊢ (M.view.loc (c : Thread nD τ) ↦[M.view.set]{fullShare} hM.unread X) := by
  unfold owns
  iintro ⟨%f, %hf, H⟩
  obtain rfl := hM.eq_unread hf
  iexact H

/-- The result block's pieces cover the block: eight chunks of 64 rows tile its 512 rows. -/
theorem out_cover (h : Tables m) (c : Dev nD) (t : Fin (cfgM m h.ok).N) : ∀ y, ∃ p ∈ (runAt h c t).1.2, y ∈ p.1.set :=
  out_cover_pieces _ _ _ _ _ _ _ _ _ _ _ _ _

/-- What the body is called with at point `t`, the windows one by one, -/
def bodyPre (h : Tables m) (c : Dev nD) (t : Fin (cfgM m h.ok).N) : sProp 𝕄 :=
  iprop((dats h 0 c).Φ t.castSucc ∗ (dats h 0 c).owesAt () t.castSucc
    ∗ (∃ d, owns (c : Thread nD τ) (stX m h.ok t) fullShare ((dats h 0 c).before 0 t d))
    ∗ (∃ d, owns (c : Thread nD τ) (stC m h.ok t) fullShare ((dats h 0 c).before 1 t d))
    ∗ (∃ d, owns (c : Thread nD τ) (stO m h.ok t) fullShare ((dats h 0 c).before 2 t d)))

/-- and what it returns. -/
def bodyPost (h : Tables m) (c : Dev nD) (t : Fin (cfgM m h.ok).N) : sProp 𝕄 :=
  iprop((dats h 0 c).Φ t.succ ∗ (dats h 0 c).owesAt () t.succ
    ∗ owns (c : Thread nD τ) (stX m h.ok t) fullShare ((dats h 0 c).after 0 t)
    ∗ owns (c : Thread nD τ) (stC m h.ok t) fullShare ((dats h 0 c).after 1 t)
    ∗ owns (c : Thread nD τ) (stO m h.ok t) fullShare ((dats h 0 c).after 2 t))

/-- The body at any point: the update block's and the cache block's buffers hold their blocks, so the run applies;
    the invariant passes through unread; the core owes nothing throughout. -/
theorem sound_body (h : Tables m) (c : Dev nD) (t : Fin (cfgM m h.ok).N) :
    bodyPre h c t ⊢ wp frame (wpE (defs₀ (F := F)) Variants.none c none) Set.univ (bodyAt (adm m h.ok) t) (fun _ => bodyPost h c t) := by
  unfold bodyPre bodyPost bodyAt
  simp only [before_x, before_cache]
  rw [show (dats h 0 c).Φ t.succ = (dats h 0 c).Φ t.castSucc from rfl,
    show (dats h 0 c).owesAt () t.succ = (dats h 0 c).owesAt () t.castSucc from rfl,
    after_x, after_cache, after_out]
  rw [show (dats h 0 c).Φ t.castSucc = iprop(Pipeline.ΦA spec0 c ∗ Pipeline.ΦT pre0 (tbl m) c) from rfl, tables_held]
  unfold cacheAt outAt
  iintro ⟨⟨HΦ, ⟨HT0, HT1⟩⟩, Ho, ⟨%d0, H0⟩, ⟨%d1, H1⟩, ⟨%d2, H2⟩⟩
  iapply ((runAt h c t).2 Set.univ _)
  isplitl [H0]; · iexact H0
  isplitl [H1]; · iapply (owns_raw c (stC m h.ok t) (hstC m h.ok t) (blk m h.ok c 1 t)); iexact H1
  isplitl [H2]; · iexists _; iexact H2
  isplitl [HT0]; · iexact HT0
  isplitl [HT1]; · iexact HT1
  iintro ⟨H0, H1, ⟨%e2, H2⟩, HT0, HT1⟩
  isplitl [HΦ HT0 HT1]
  · isplitl [HΦ]
    · iexact HΦ
    isplitl [HT0]; · iexact HT0
    iexact HT1
  isplitl [Ho]; · iexact Ho
  isplitl [H0]; · iexact H0
  isplitl [H1]
  · unfold owns; iexists _; isplitr
    swap; · iexact H1
    ipureintro; rfl
  unfold owns; iexists _; isplitr
  swap; · iexact H2
  ipureintro; exact View.read_writes_of_cover _ _ _ _ _ (out_cover h c t)

/-- The library's body obligation, at every point. -/
theorem body_obligation (h : Tables m) (c : Dev nD) : BodyObligation (dats (F := F) h 0 c) (defs₀ (F := F)) Variants.none () Set.univ := fun t => by
  rw [bigSep_W0, bigSep_W0]
  exact sound_body h c t

/-! ## The run and the frame -/

set_option backward.isDefEq.respectTransparency.types false in
/-- The frame run: every weakly fair execution of @main terminates with every windowed array at what the library
    computes from the proof data and every other unscoped buffer as the region found it. -/
theorem run_main (h : Tables m) :
    θ_run defs (onTc (τ := τ) (main (F := F))) (s₀ m ρ) (Pipeline.FramePost (Pipeline.pin pcfgs fun _ => adm m h.ok) (dats h) 0 (Ent m)) :=
  Pipeline.θ_run_frameP pcfgs (fun _ => adm m h.ok) (dats h) (0 : Fin 1) launch0 defs₀ Variants.none m ρ main
    (hbody := fun c => (body_obligation h c).loose) (hshare := fun c => (dats h 0 c).share_full fun _ => rfl)
    (howed := fun _ _ => rfl) (V := Ent m) (hmain := main_is_region m Variants.none) (hA := dats_A h) (hpf := Ent_pre m)
    (hΦ := fun _ _ => rfl)

/-- The same run with the result array named: what the write-backs of all points leave in it. -/
theorem run_named (h : Tables m) : θ_run defs (onTc (τ := τ) (main (F := F))) ⟨m, fun _ => 0, ρ⟩ (fun r => ∀ c : Dev nD,
      r.2.mem ((c.tc : Thread nD τ).loc main_v0) = (dats h 0 c).arrAt 2 (cfgM m h.ok).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ hp c => ⟨(hp c).1 2,
      ((hp c).1 0).trans (((dats h 0 c).arrAt_in 0 rfl _).trans (dats_A h c 0)),
      ((hp c).1 1).trans (((dats h 0 c).arrAt_in 1 rfl _).trans (dats_A h c 1)),
      (hp c).2 main_arg2 (by decide : main_arg2 ∈ Pipeline.restRefs sig spec0),
      (hp c).2 main_arg3 (by decide : main_arg3 ∈ Pipeline.restRefs sig spec0)⟩) (run_main ρ h)

/-- The frame: @main runs to its end, nothing faulting, the four argument arrays unchanged. -/
theorem frame (h : Tables m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ hp c => (hp c).2) (run_named ρ h)

end Cert.Kernel.Hand

end
-- ==== Proof.Spec.lean ====
/-
  The function both programs compute, stated once over the argument arrays.

  Sequence `i` owns cache slot `seq i`; its update `j` overwrites row `row (i, j)` of that slot with
  `x (i, j, ·)`, updates applied in increasing `j`, so the LAST update aimed at a row is the one that stays.
  The result's block `i` is slot `seq i` after sequence `i`'s own updates: row `r` is `x (i, j, ·)` for the
  last `j` with `row (i, j) = r`, and the cache's own row where no update aims at `r`.
-/
import Idealize.ShloMosaic.Lib.ValueIdx

noncomputable section

namespace Cert.Spec

open Idealize.ShloMosaic Idealize.ShloMosaic.ValueIdx

/-- The updates `x`, the cache, the sequences' slots, the rows the updates aim at, the result. -/
abbrev SX : Shape := ⟨3, ![64, 64, 4096]⟩
abbrev SC : Shape := ⟨3, ![128, 512, 4096]⟩
abbrev SO : Shape := ⟨3, ![64, 512, 4096]⟩
abbrev SQ : Shape := ⟨1, ![64]⟩
abbrev SR : Shape := ⟨2, ![64, 64]⟩

/-- Update `j` of sequence `i` aims at row `r`, and no later update of that sequence does. -/
def LastHit (row : SR.Idx → BitVec 32) (i : Fin 64) (r : Fin 512) (j : Fin 64) : Prop :=
  (row (ix2 i j)).toNat = r.val ∧ ∀ j' : Fin 64, j < j' → (row (ix2 i j')).toNat ≠ r.val

/-- At most one update is the last one aimed at a row. -/
theorem LastHit.unique {row : SR.Idx → BitVec 32} {i : Fin 64} {r : Fin 512} {j j' : Fin 64}
    (h : LastHit row i r j) (h' : LastHit row i r j') : j = j' := by
  rcases lt_trichotomy j j' with hlt | heq | hgt
  · exact absurd h'.1 (h.2 j' hlt)
  · exact heq
  · exact absurd h.1 (h'.2 j hgt)

/-- Either some update is the last aimed at row `r`, or none aims at it. -/
theorem lastHit_or_none (row : SR.Idx → BitVec 32) (i : Fin 64) (r : Fin 512) :
    (∃ j, LastHit row i r j) ∨ ∀ j : Fin 64, (row (ix2 i j)).toNat ≠ r.val := by
  classical
  by_cases h : ∃ j : Fin 64, (row (ix2 i j)).toNat = r.val
  · left
    let S : Finset (Fin 64) := Finset.univ.filter fun j => (row (ix2 i j)).toNat = r.val
    have hS : S.Nonempty := by
      obtain ⟨j, hj⟩ := h
      exact ⟨j, Finset.mem_filter.2 ⟨Finset.mem_univ _, hj⟩⟩
    refine ⟨S.max' hS, (Finset.mem_filter.1 (S.max'_mem hS)).2, fun j' hlt hj' => ?_⟩
    have : j' ≤ S.max' hS := S.le_max' j' (Finset.mem_filter.2 ⟨Finset.mem_univ _, hj'⟩)
    exact absurd hlt (not_lt.2 this)
  · right
    exact fun j hj => h ⟨j, hj⟩

/-- The result: block `i` is slot `seq i` of the cache with sequence `i`'s updates laid over it, the last one aimed
    at a row winning. (A slot word outside the cache is read modulo the slot count only to make the function total;
    every statement about `G` is made where the word is in range.) -/
def G {α : Type} (x : SX.Idx → α) (cache : SC.Idx → α) (seq : SQ.Idx → BitVec 32) (row : SR.Idx → BitVec 32) :
    SO.Idx → α := fun o =>
  open Classical in
  if h : ∃ j, LastHit row (o 0) (o 1) j then x (ix3 (o 0) (Classical.choose h) (o 2))
  else cache (ix3 (⟨(seq (ix1 (o 0))).toNat % 128, Nat.mod_lt _ (by decide)⟩ : Fin 128) (o 1) (o 2))

/-- Where update `j` is the last aimed at the row, the result is that update's row of `x`. -/
theorem G_hit {α : Type} (x : SX.Idx → α) (cache : SC.Idx → α) (seq : SQ.Idx → BitVec 32) (row : SR.Idx → BitVec 32)
    (o : SO.Idx) (j : Fin 64) (h : LastHit row (o 0) (o 1) j) :
    G x cache seq row o = x (ix3 (o 0) j (o 2)) := by
  unfold G
  have hex : ∃ j, LastHit row (o 0) (o 1) j := ⟨j, h⟩
  rw [dif_pos hex]
  rw [LastHit.unique (Classical.choose_spec hex) h]

/-- Where no update aims at the row, the result is the cache's row in the sequence's slot. -/
theorem G_miss {α : Type} (x : SX.Idx → α) (cache : SC.Idx → α) (seq : SQ.Idx → BitVec 32) (row : SR.Idx → BitVec 32)
    (o : SO.Idx) (s : Fin 128) (hs : (seq (ix1 (o 0))).toNat = s.val)
    (h : ∀ j : Fin 64, (row (ix2 (o 0) j)).toNat ≠ (o 1).val) :
    G x cache seq row o = cache (ix3 s (o 1) (o 2)) := by
  unfold G
  have hex : ¬ ∃ j, LastHit row (o 0) (o 1) j := fun ⟨j, hj⟩ => h j hj.1
  rw [dif_neg hex]
  congr 1
  have : (⟨(seq (ix1 (o 0))).toNat % 128, Nat.mod_lt _ (by decide)⟩ : Fin 128) = s := by
    apply Fin.ext; show (seq (ix1 (o 0))).toNat % 128 = s.val; rw [hs]; exact Nat.mod_eq_of_lt s.isLt
  rw [this]

end Cert.Spec

end
-- ==== Proof.PreFacts.lean ====
/-
  The precondition read back: what its being all ones says of the two integer tables.

  The printed predicate is a conjunction of five "all entries" tests. The two over the float arrays are not needed
  here. The other three say: every slot word lies in [0, 128) read signed; every row word lies in [0, 512) read
  signed; and at every pair (p, q) of sequences either the two slot words differ or p = q. A word in [0, n) signed
  is below n unsigned, and the third test is injectivity of the slot table.
-/
import proofs.«409922_j19043884990814_2_alg».proof.Pre_finite_inputs
import proofs.«409922_j19043884990814_2_alg».proof.Proof.Gen.Pre_finite_inputs
import proofs.«409922_j19043884990814_2_alg».proof.Proof.Spec
import Idealize.ShloMosaic.Lib.ReduceAll
import Idealize.ShloMosaic.Lib.StableHlo.Predicate
import Idealize.ShloMosaic.Lib.ValueIdx

noncomputable section

namespace Cert.PreFacts

open Idealize.ShloMosaic Idealize.ShloMosaic.ValueIdx Cert.Pre_finite_inputs
open Idealize.ShloMosaic.StableHlo.Predicate (ij ij_eta bcast_rows bcast_cols toInt_ofNat_small)

/-- The scalar shape has one index. -/
instance : Subsingleton S_.Idx := ⟨fun a b => funext fun d => d.elim0⟩

/-- A word in [0, n) read signed is below n read unsigned. -/
theorem toNat_lt_of_signed (w : BitVec 32) (n : Nat) (hn : n < 2 ^ 31)
    (h0 : IntOp.cmpi .sge w 0#32 = 1#1) (h1 : IntOp.cmpi .slt w (BitVec.ofNat 32 n) = 1#1) : w.toNat < n := by
  rw [IntOp.cmpi_sge, show (0#32 : BitVec 32).toInt = 0 from by decide] at h0
  rw [IntOp.cmpi_slt] at h1
  have hw : 2 * w.toNat < 2 ^ 32 := BitVec.toInt_pos_iff.1 h0
  rw [BitVec.toInt_eq_toNat_of_lt hw, toInt_ofNat_small n hn] at h1
  omega

variable {F : FTy → Type} [FloatOps F]

/-- The three integer tests of the precondition, each at every entry. -/
theorem split (a0 : FVec F S64x64x4096 .f32) (a1 : FVec F S128x512x4096 .f32) (a2 : IVec S64 32) (a3 : IVec S64x64 32)
    (h : fn (F := F) a0 a1 a2 a3 = fun _ => 1#1) :
    (∀ i : S64.Idx, IntOp.cmpi .sge (a2 i) 0#32 = 1#1 ∧ IntOp.cmpi .slt (a2 i) 128#32 = 1#1) ∧
    (∀ i : S64x64.Idx, IntOp.cmpi .sge (a3 i) 0#32 = 1#1 ∧ IntOp.cmpi .slt (a3 i) 512#32 = 1#1) ∧
    (∀ p q : Fin 64, a2 (Shape.Idx.ofFin p) ≠ a2 (Shape.Idx.ofFin q) ∨ BitVec.ofNat 32 p.val = BitVec.ofNat 32 q.val) := by
  have e := congrFun h ix0
  dsimp only [fn, fn_part1] at e
  obtain ⟨e1, h35⟩ := IntOp.andi_eq_one.1 e
  obtain ⟨e2, h22⟩ := IntOp.andi_eq_one.1 e1
  obtain ⟨-, h15⟩ := IntOp.andi_eq_one.1 e2
  refine ⟨fun i => ?_, fun i => ?_, fun p q => ?_⟩
  · exact IntOp.andi_eq_one.1 (Host.reduce_andi_all _ _ _ _ _ h15 i)
  · exact IntOp.andi_eq_one.1 (Host.reduce_andi_all _ _ _ _ _ h22 i)
  · have hb := Host.reduce_andi_all _ _ _ _ _ h35 (ij p q)
    rcases IntOp.ori_eq_one.1 hb with hne | heq
    · left
      have := IntOp.cmpi_ne.1 hne
      rwa [bcast_rows, bcast_cols] at this
    · right
      have := IntOp.cmpi_eq.1 heq
      rwa [bcast_rows, bcast_cols] at this

/-- Every slot word names a slot of the cache. -/
theorem seq_lt (a0 : FVec F S64x64x4096 .f32) (a1 : FVec F S128x512x4096 .f32) (a2 : IVec S64 32) (a3 : IVec S64x64 32)
    (h : fn (F := F) a0 a1 a2 a3 = fun _ => 1#1) : ∀ i : Cert.Spec.SQ.Idx, (a2 i).toNat < 128 := fun i =>
  toNat_lt_of_signed _ 128 (by decide) ((split a0 a1 a2 a3 h).1 i).1 ((split a0 a1 a2 a3 h).1 i).2

/-- Every row word names a row of a slot. -/
theorem row_lt (a0 : FVec F S64x64x4096 .f32) (a1 : FVec F S128x512x4096 .f32) (a2 : IVec S64 32) (a3 : IVec S64x64 32)
    (h : fn (F := F) a0 a1 a2 a3 = fun _ => 1#1) : ∀ i : Cert.Spec.SR.Idx, (a3 i).toNat < 512 := fun i =>
  toNat_lt_of_signed _ 512 (by decide) ((split a0 a1 a2 a3 h).2.1 i).1 ((split a0 a1 a2 a3 h).2.1 i).2

/-- Distinct sequences own distinct slots. -/
theorem seq_inj (a0 : FVec F S64x64x4096 .f32) (a1 : FVec F S128x512x4096 .f32) (a2 : IVec S64 32) (a3 : IVec S64x64 32)
    (h : fn (F := F) a0 a1 a2 a3 = fun _ => 1#1) : Function.Injective a2 := by
  intro i j hij
  rw [Shape.Idx.eq_ofFin i, Shape.Idx.eq_ofFin j] at hij ⊢
  rcases (split a0 a1 a2 a3 h).2.2 (i 0) (j 0) with hne | heq
  · exact absurd hij hne
  · have hv : (i 0).val = (j 0).val := by
      have := congrArg BitVec.toNat heq
      simp only [BitVec.toNat_ofNat] at this
      have hi := (i 0).isLt
      have hj := (j 0).isLt
      change (i 0).val < 64 at hi
      change (j 0).val < 64 at hj
      omega
    rw [Fin.ext hv]

end Cert.PreFacts

end
-- ==== Proof.K.Tables.lean ====
/-
  The precondition gives the frame what it needs of the tables: every slot word names a cache block, every row word
  a row of a block, and the slot words are pairwise distinct.
-/
import proofs.«409922_j19043884990814_2_alg».proof.Proof.K.Frame
import proofs.«409922_j19043884990814_2_alg».proof.Proof.PreFacts

set_option maxRecDepth 16384

noncomputable section

namespace Cert.Kernel.Hand

open Cert.Kernel Cert.Kernel.Gen
open Idealize.ShloMosaic Idealize.ShloMosaic.TcCoe
open Idealize.SL Idealize.SL.Sem

variable {F : FTy → Type} [FloatOps F]

variable {m : (ℓ : Loc nD τ sig) → Buf (Elt F) ℓ}

/-- The precondition, read on device 0, makes the tables fit. -/
theorem tables_of_pre
    (hpre : Cert.Pre_finite_inputs.fn (F := F) (m (((0 : Dev nD).tc : Thread nD τ).loc main_arg0)) (m (((0 : Dev nD).tc : Thread nD τ).loc main_arg1))
      (m (((0 : Dev nD).tc : Thread nD τ).loc main_arg2)) (m (((0 : Dev nD).tc : Thread nD τ).loc main_arg3)) = fun _ => 1#1) :
    Tables m := by
  have hseq := Cert.PreFacts.seq_lt _ _ _ _ hpre
  have hrow := Cert.PreFacts.row_lt _ _ _ _ hpre
  have hinj := Cert.PreFacts.seq_inj _ _ _ _ hpre
  refine ⟨?_, ?_, ?_⟩
  · intro i
    have hl : ∀ x, (tbl m 0 x).toNat < 128 := fun x => hseq x
    obtain ⟨w, hw, e⟩ : ∃ w : BitVec 32, w.toNat < 128 ∧ cc0_transform_1 k0_off1_inb numel1_S1 (tbl m) i = ![w.toNat, 0, 0] :=
      ⟨_, hl _, rfl⟩
    refine ⟨fun a => ?_, Or.inl rfl⟩
    rw [e]
    fin_cases a <;> simp [S1x512x4096, S128x512x4096] <;> omega
  · intro c R y
    obtain rfl : c = 0 := Subsingleton.elim _ _
    exact hrow _
  · exact hinj

end Cert.Kernel.Hand

end
-- ==== Proof.KI.Region.lean ====
/-
  The one pallas_call of @main as the pipeline library sees it, at the tables this memory holds.

  @main is the region alone, so what the region finds in every buffer is the launch memory. The two prefetched
  tables — the sequences' slot words and the rows the updates aim at — are read off that memory; the pipeline is
  taken at those contents, under its side condition `Ok` (every slot word names a block inside the cache). The
  body is handed, at grid point `t`, the two tables whole, the current staging buffer of the update block
  `x[t]`, of the cache block the slot word of `t` names, and of the result block `t`.
-/
import proofs.«409922_j19043884990814_2_alg».proof.Proof.Gen.KernelIdeal.Launch
import proofs.«409922_j19043884990814_2_alg».proof.Proof.Gen.KernelIdeal.Skeleton
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the region finds -/

/-- Core `c`'s buffers when the region is entered: the launch memory (no host operation runs before it). -/
abbrev Ent (c : Dev nD) (b : Ref sig .tc) : Buf (Elt F) ((c : Thread nD τ).loc b) := m ((c : Thread nD τ).loc b)

/-- @main is the region alone. -/
theorem main_is_region (𝒱₀ : Variants) :
    Pipeline.HMainP (Ix := Unit) (Name := ℕ) (U := UR sig nD τ) (Lvl := ℕ) pcfgs 0 defs₀ 𝒱₀ m (main (F := F)) (Ent m) :=
  Pipeline.hmainP_region pcfgs 0 defs₀ 𝒱₀ m main fun c => (main_chain c).trans rfl

/-- The tables as the region reads them (there is one device). -/
def tbl : pre0.Contents (Elt F) := fun j => Ent m (0 : Dev nD) (pre0.ref j)

theorem Ent_pre (c : Dev nD) (j : Fin 2) : Ent m c (pre0.ref j) = tbl m j := by
  obtain rfl : c = 0 := Subsingleton.elim _ _; rfl

/-- The pipeline's side condition of the tables: every cache block a slot word names lies inside the cache. -/
abbrev Ok : Prop := ok0 (F := F) (tbl m)

/-- The tables as admissible contents, and the pipeline at them. -/
abbrev adm (hO : Ok m) : (pcfg0 (F := F)).Adm := ⟨tbl m, hO⟩
abbrev cfgM (hO : Ok m) : Pipeline.Cfg sig Λ₀ := cfg0 (adm m hO)

/-! ## The tables as the body holds them -/

/-- The slot table and the row table as the body is handed them: whole buffers. -/
abbrev seqM : Memref sig .tc .smem S64 .i32 := Memref.whole main_arg2
abbrev hseqM : (seqM).IsWhole := Memref.isWhole_whole _
abbrev rowM : Memref sig .tc .smem S64x64 .i32 := Memref.whole main_arg3
abbrev hrowM : (rowM).IsWhole := Memref.isWhole_whole _

/-- A table's contents type, and the table held at the half share the region lends the body (read-only). -/
abbrev TbBuf (c : Dev nD) {S : Shape} {e : EltTy} (M : Memref sig .tc .smem S e) : Type := Buf (Elt F) (M.view.loc (c : Thread nD τ))
abbrev tbPt (c : Dev nD) {S : Shape} {e : EltTy} (M : Memref sig .tc .smem S e) (f : TbBuf (F := F) c M) : sProp 𝕄 :=
  M.view.loc (c : Thread nD τ) ↦{fullShare.right} f

/-- The tables' halves, table by table. -/
theorem tables_held (c : Dev nD) :
    (Pipeline.ΦT pre0 (tbl m) c : sProp 𝕄) = iprop(tbPt c seqM (tbl m 0) ∗ tbPt c rowM (tbl m 1)) := by
  unfold Pipeline.ΦT Pipeline.prefHeld
  rw [show (Finset.univ : Finset (Fin 2)) = insert (0 : Fin 2) {(1 : Fin 2)} from by decide,
    bigSep_insert (by decide), bigSep_singleton]
  rfl

/-! ## The windows' blocks and staging buffers -/

/-- Window `w`'s block at point `t`, read off its array as the region finds it. -/
def blk (hO : Ok m) (c : Dev nD) (w : Fin (cfgM m hO).W) (t : Fin (cfgM m hO).N) :
    (((cfgM m hO).win w).xblock ((cfgM m hO).grid.coords t)).Idx → Elt F ((cfgM m hO).win w).elt :=
  (((cfgM m hO).win w).blk t).view.read (Elt F) (Ent m c (Pipeline.arrRef spec0 w))

/-- The current staging buffer of each window at point `t`, as the pipeline passes it to the body. -/
abbrev stX (hO : Ok m) (t : Fin (cfgM m hO).N) : Memref sig .tc .vmem S1x64x4096 .f32 := spec0_0.stage ((cfgM m hO).slots t 0)
abbrev hstX (hO : Ok m) (t : Fin (cfgM m hO).N) : (stX m hO t).IsWhole := hstage0_0 (((cfgM m hO).slots t 0).cast nbuf0_0)
abbrev stC (hO : Ok m) (t : Fin (cfgM m hO).N) : Memref sig .tc .vmem S1x512x4096 .f32 := spec0_1.stage ((cfgM m hO).slots t 1)
abbrev hstC (hO : Ok m) (t : Fin (cfgM m hO).N) : (stC m hO t).IsWhole := hstage0_1 (((cfgM m hO).slots t 1).cast nbuf0_1)
abbrev stO (hO : Ok m) (t : Fin (cfgM m hO).N) : Memref sig .tc .vmem S1x512x4096 .f32 := spec0_2.stage ((cfgM m hO).slots t 2)
abbrev hstO (hO : Ok m) (t : Fin (cfgM m hO).N) : (stO m hO t).IsWhole := hstage0_2 (((cfgM m hO).slots t 2).cast nbuf0_2)

/-- The kernel body as the pipeline calls it at point `t`. -/
abbrev bodyAt (a : (pcfg0 (F := F)).Adm) (t : Fin (cfg0 a).N) : Prog (TpuEff nD τ sig (Elt F) Λ₀ .tc) PUnit :=
  cc0__kernel (grid0.coords t) (Memref.whole main_arg2) (Memref.isWhole_whole _) (Memref.whole main_arg3) (Memref.isWhole_whole _)
    (spec0_0.stage ((cfg0 a).slots t 0)) (hstage0_0 (((cfg0 a).slots t 0).cast nbuf0_0))
    (spec0_1.stage ((cfg0 a).slots t 1)) (hstage0_1 (((cfg0 a).slots t 1).cast nbuf0_1))
    (spec0_2.stage ((cfg0 a).slots t 2)) (hstage0_2 (((cfg0 a).slots t 2).cast nbuf0_2))

end Cert.KernelIdeal.Hand

end
-- ==== Proof.KI.Body.lean ====
/-
  The kernel body, run once on symbolic operands.

  At a grid point the body holds the two tables (read-only), the update block `x[t]` (read-only), the cache
  block of the point's slot, and the result block. It reads the 64 row words of the point, stores update row `j`
  of `x[t]` over row `row (t, j)` of the CACHE block's buffer, `j` increasing, and then copies that buffer into
  the result block in eight chunks of 64 rows. Each row store is in range because every row word is below 512
  (`hrow`). What the two written buffers end with — the pieces stored, last first — is found by the run.
-/
import proofs.«409922_j19043884990814_2_alg».proof.Proof.KI.Region

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Every word of the row table names a row of a cache block. -/
abbrev RowsOk (c : Dev nD) (xt1 : TbBuf (F := F) c rowM) : Prop :=
  ∀ (R : LoadRect S64x64) (y : R.shape.Idx), (Scalar.indexCast (rowM.view.readAt (Elt F) R xt1 y)).toNat < 512

/-- A row word below 512 keeps the unit row rectangle at that row inside a cache block. -/
theorem chk_of_rows (c : Dev nD) (xt1 : TbBuf (F := F) c rowM) (hrow : RowsOk c xt1)
    (R : LoadRect S64x64) (y : R.shape.Idx) :
    ∀ a, (![0, (Scalar.indexCast (rowM.view.readAt (Elt F) R xt1 y)).toNat, 0] : Fin 3 → Nat) a
      + S1x1x4096.size a ≤ S1x512x4096.size a := by
  intro a
  have h := hrow R y
  fin_cases a
  · show 0 + 1 ≤ 1; omega
  · show (Scalar.indexCast (rowM.view.readAt (Elt F) R xt1 y)).toNat + 1 ≤ 512; omega
  · show 0 + 4096 ≤ 4096; omega

set_option maxHeartbeats 4000000 in
/-- What the body's stores leave in the cache block's buffer and in the result block's buffer, as pieces (last
    first), with the run: from the update block at `x0`, the cache block's buffer whole at raw contents `f1`, the
    result's at anything and the tables at `xt0`, `xt1`, the body runs to its return with the update block and the
    tables as they were and the two written buffers at their pieces over what they held. -/
noncomputable def kernelRun (c : Dev nD) (i : grid0.Coords)
    (arg3 : Memref sig .tc .vmem S1x64x4096 .f32) (harg3 : arg3.IsWhole)
    (arg4 : Memref sig .tc .vmem S1x512x4096 .f32) (harg4 : arg4.IsWhole)
    (arg5 : Memref sig .tc .vmem S1x512x4096 .f32) (harg5 : arg5.IsWhole)
    (x0 : Vec F S1x64x4096 .f32) (f1 : Buf (Elt F) (arg4.view.loc (c : Thread nD τ)))
    (xt0 : TbBuf (F := F) c seqM) (xt1 : TbBuf (F := F) c rowM) (hrow : RowsOk c xt1) :
    { L : List (View.Piece (Elt F) S1x512x4096 .f32) × List (View.Piece (Elt F) S1x512x4096 .f32) //
      ∀ (E : Set ℕ) (K : PUnit → sProp 𝕄),
        iprop(owns (c : Thread nD τ) arg3 fullShare x0
            ∗ (arg4.view.loc (c : Thread nD τ) ↦[arg4.view.set]{fullShare} f1)
            ∗ (∃ d, owns (c : Thread nD τ) arg5 fullShare d)
            ∗ tbPt c seqM xt0 ∗ tbPt c rowM xt1
            ∗ (iprop(owns (c : Thread nD τ) arg3 fullShare x0
                ∗ (arg4.view.loc (c : Thread nD τ) ↦[arg4.view.set]{fullShare} arg4.view.writes (Elt F) f1 L.1)
                ∗ (∃ f, arg5.view.loc (c : Thread nD τ) ↦[arg5.view.set]{fullShare} arg5.view.writes (Elt F) f L.2)
                ∗ tbPt c seqM xt0 ∗ tbPt c rowM xt1) -∗ K ⟨⟩))
          ⊢ wp frame (wpE (defs₀ (F := F)) Variants.none c none) E
              (cc0__kernel i seqM hseqM rowM hrowM arg3 harg3 arg4 harg4 arg5 harg5) K } := by
  refine ⟨⟨?_, ?_⟩, fun E K => ?run⟩
  case run =>
    unfold owns
    iintro ⟨⟨%f0, %hf0, H0⟩, H1, ⟨%d2, %f2, -, H2⟩, HT0, HT1, Hk⟩
    obtain rfl := harg3.eq_unread hf0
    sl_exec_parts! (disch := exact chk_of_rows c xt1 hrow _ _)
    sl_step
    iapply Hk
    isplitl [H0]
    · iexists _; isplitr; · ipureintro; exact harg3.read_unread _
      iexact H0
    isplitl [H1]; · iexact H1
    isplitl [H2]; · iexists _; iexact H2
    isplitl [HT0]; · iexact HT0
    iexact HT1

end Cert.KernelIdeal.Hand

end
-- ==== Proof.KI.Pieces.lean ====
/-
  What the body's run left, read as mathematics.

  The cache block's buffer received the point's 64 row stores, store `k` writing row `k` of the update block at the
  row the table's word `(i, k)` names; the result block's buffer received eight chunks of 64 rows, each what a load
  of those rows of the cache block's buffer read after the 64 stores — so the eight pieces are restrictions of ONE
  function, the cache block's buffer as read after the stores, and together they cover the result block.
-/
import proofs.«409922_j19043884990814_2_alg».proof.Proof.KI.Body
import proofs.«409922_j19043884990814_2_alg».proof.Proof.RowStores
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.Sem

variable {F : FTy → Type} [FloatOps F]

section
variable (c : Dev nD) (i : grid0.Coords)
    (arg3 : Memref sig .tc .vmem S1x64x4096 .f32) (harg3 : arg3.IsWhole)
    (arg4 : Memref sig .tc .vmem S1x512x4096 .f32) (harg4 : arg4.IsWhole)
    (arg5 : Memref sig .tc .vmem S1x512x4096 .f32) (harg5 : arg5.IsWhole)
    (x0 : Vec F S1x64x4096 .f32) (f1 : Buf (Elt F) (arg4.view.loc (c : Thread nD τ)))
    (xt0 : TbBuf (F := F) c seqM) (xt1 : TbBuf (F := F) c rowM) (hrow : RowsOk c xt1)

/-- The row the table's word `(i, k)` names (zero past the 64 updates, to make it a function of a natural). -/
def rowOf (k : Nat) : Nat :=
  if hk : k < 64 then ((rowM.view.read (Elt F) xt1 : S64x64.Idx → BitVec 32) (ix2 (i 0) ⟨k, hk⟩)).toNat else 0

/-- Row `k` of the update block (its row 0 past the 64 updates). -/
def updOf (k : Nat) (hh : Fin 4096) : Elt F .f32 :=
  if hk : k < 64 then x0 (ix3 (0 : Fin 1) (⟨k, hk⟩ : Fin 64) hh) else x0 (ix3 (0 : Fin 1) (0 : Fin 64) hh)

/-- The word the body reads off the row table at `(i, j)` names the row `rowOf` gives. -/
theorem row_word (c : Dev nD) (i : grid0.Coords) (xt1 : TbBuf (F := F) c rowM) (j : Nat) (hj : j < 64)
    (off : Fin 2 → Nat) (hin : ∀ a, off a + S1x1.size a ≤ S64x64.size a)
    (hoff : off = ![(Scalar.indexCast (BitVec.ofNat 32 (i 0).val)).toNat, j])
    (y : (Rect.unit (s := S64x64) off S1x1.size hin).shape.Idx) :
    (Scalar.indexCast (rowM.view.readAt (Elt F) (Rect.unit (s := S64x64) off S1x1.size hin).toLoadRect xt1 y)).toNat
      = rowOf c i xt1 j := by
  subst hoff
  unfold rowOf
  rw [dif_pos hj, View.readAt_apply]
  have hi : (i 0).val < 64 := (i 0).isLt
  have h : (Rect.unit (s := S64x64) ![(Scalar.indexCast (BitVec.ofNat 32 (i 0).val)).toNat, j] S1x1.size hin).toLoadRect.idx y
      = ix2 (i 0) ⟨j, hj⟩ := by
    funext a
    apply Fin.ext
    rw [LoadRect.idx_apply]
    match a with
    | ⟨0, h0⟩ =>
      have y0 : (y ⟨0, h0⟩).val < 1 := (y ⟨0, h0⟩).isLt
      show (BitVec.ofNat 32 (i 0).val).toNat + 1 * (y ⟨0, h0⟩).val = (i 0).val
      rw [BitVec.toNat_ofNat, Nat.mod_eq_of_lt (by omega)]
      omega
    | ⟨1, h1⟩ =>
      have y1 : (y ⟨1, h1⟩).val < 1 := (y ⟨1, h1⟩).isLt
      show j + 1 * (y ⟨1, h1⟩).val = j
      omega
  rw [h]
  rfl

/-- Row `j` of the update block as the body stores it — loaded, flattened, restored to a row — is that row. -/
theorem upd_row (arg3 : Memref sig .tc .vmem S1x64x4096 .f32) (harg3 : arg3.IsWhole) (x0 : Vec F S1x64x4096 .f32)
    (j : Nat) (hj : j < 64) (hin : ∀ a, (![0, j, 0] : Fin 3 → Nat) a + S1x1x4096.size a ≤ S1x64x4096.size a)
    (h1 : S1x1x4096.ShapeCasts S4096) (h2 : S4096.ShapeCasts S1x1x4096) (hh : Fin 4096) :
    shapeCast S1x1x4096 (shapeCast S4096
        (arg3.view.readAt (Elt F) (Rect.unit (s := S1x64x4096) ![0, j, 0] S1x1x4096.size hin).toLoadRect (harg3.unread x0)) h1) h2
        (Cert.RowStores.inRow hh)
      = updOf x0 j hh := by
  rw [shapeCast_shapeCast, View.readAt_apply, harg3.read_unread]
  unfold updOf
  rw [dif_pos hj]
  congr 1
  funext a
  apply Fin.ext
  rw [LoadRect.idx_apply]
  match a with
  | ⟨0, _⟩ => rfl
  | ⟨1, _⟩ => show j + 1 * 0 = j; omega
  | ⟨2, _⟩ => show 0 + 1 * hh.val = hh.val; omega

/-- A chunk of 64 rows loaded, flattened and restored to its shape is the buffer read under the chunk. -/
theorem chunk_read {κ : Kind} {sp : Space} (v : View sig κ sp S1x512x4096 .f32) (g : v.ty.Contents (Elt F))
    (off : Fin 3 → Nat) (hin : ∀ a, off a + S1x64x4096.size a ≤ S1x512x4096.size a)
    (h1 : S1x64x4096.ShapeCasts S64x4096) (h2 : S64x4096.ShapeCasts S1x64x4096)
    (x : (Rect.unit (s := S1x512x4096) off S1x64x4096.size hin).shape.Idx) :
    shapeCast S1x64x4096 (shapeCast S64x4096
        (v.readAt (Elt F) (Rect.unit (s := S1x512x4096) off S1x64x4096.size hin).toLoadRect g) h1) h2 x
      = v.read (Elt F) g ((Rect.unit (s := S1x512x4096) off S1x64x4096.size hin).emb x) := by
  rw [shapeCast_shapeCast]; rfl
/-- The cache block's buffer received the 64 row stores, in order. -/
theorem rows_of_run :
    Cert.RowStores.RowList (Val := Elt F) (rowOf c i xt1) (updOf x0) 64
      (kernelRun c i arg3 harg3 arg4 harg4 arg5 harg5 x0 f1 xt0 xt1 hrow).1.1 := by
  unfold kernelRun
  dsimp only
  sl_unfold_run_names
  iterate 64
    refine Cert.RowStores.RowList.cons _ _ _ _ _ ?_ (row_word c i xt1 _ (by decide) _ _ rfl _)
      (fun hh => upd_row arg3 harg3 x0 _ (by decide) _ _ _ hh)
  exact Cert.RowStores.RowList.nil

/-- Each chunk written to the result block is that chunk of the cache block's buffer as read after the row stores. -/
theorem out_pieces :
    ∀ p ∈ (kernelRun c i arg3 harg3 arg4 harg4 arg5 harg5 x0 f1 xt0 xt1 hrow).1.2, ∀ x : p.1.shape.Idx,
      p.2 x = arg4.view.read (Elt F) (arg4.view.writes (Elt F) f1 (kernelRun c i arg3 harg3 arg4 harg4 arg5 harg5 x0 f1 xt0 xt1 hrow).1.1) (p.1.emb x) := by
  unfold kernelRun
  dsimp only
  sl_unfold_run_names
  intro p hp
  simp only [List.mem_cons, List.not_mem_nil, or_false] at hp
  rcases hp with rfl | rfl | rfl | rfl | rfl | rfl | rfl | rfl <;>
    exact fun x => chunk_read _ _ _ _ _ _ x

/-- The eight chunks cover the result block. -/
theorem out_cover_pieces :
    ∀ y : S1x512x4096.Idx, ∃ p ∈ (kernelRun c i arg3 harg3 arg4 harg4 arg5 harg5 x0 f1 xt0 xt1 hrow).1.2, y ∈ p.1.set :=
  View.cover_of_tiledL _ S1x64x4096.size (by sl_kernel_rfl)

end

end Cert.KernelIdeal.Hand

end
-- ==== Proof.KI.Frame.lean ====
/-
  The frame of the one pallas_call, and its run with the result array named.

  Proof data: the update block's buffer is left as found; the CACHE block's buffer is left with the point's 64
  row stores laid over the block (the body writes an input's staging buffer); the result's buffer is left at
  what the eight chunk copies wrote. Because the slot words are pairwise distinct, consecutive points name
  different cache blocks, so the pipeline fetches the cache block afresh at every point and the body always
  finds the block of the array itself, never what an earlier point left.
-/
import proofs.«409922_j19043884990814_2_alg».proof.Proof.KI.Body
import proofs.«409922_j19043884990814_2_alg».proof.Proof.KI.Pieces

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the frame needs of the tables this memory holds: the pipeline's side condition, every row word a row of a
    cache block, the slot words pairwise distinct. -/
structure Tables : Prop where
  ok : Ok m
  rows : ∀ c : Dev nD, RowsOk (F := F) c (tbl m 1)
  inj : Function.Injective (tbl m 0 : S64.Idx → BitVec 32)

variable {m}

/-- The body's run at point `t`, on the point's staging buffers, blocks and tables. -/
abbrev runAt (h : Tables m) (c : Dev nD) (t : Fin (cfgM m h.ok).N) :=
  kernelRun (F := F) c (grid0.coords t) (stX m h.ok t) (hstX m h.ok t) (stC m h.ok t) (hstC m h.ok t) (stO m h.ok t) (hstO m h.ok t)
    (blk m h.ok c 0 t) ((hstC m h.ok t).unread (blk m h.ok c 1 t)) (tbl m 0) (tbl m 1) (h.rows c)

/-- What the cache block's buffer holds after the body at point `t`. -/
def cacheAt (h : Tables m) (c : Dev nD) (t : Fin (cfgM m h.ok).N) : Vec F S1x512x4096 .f32 :=
  (stC m h.ok t).view.read (Elt F) ((stC m h.ok t).view.writes (Elt F) ((hstC m h.ok t).unread (blk m h.ok c 1 t)) (runAt h c t).1.1)

/-- What the result block's buffer holds after the body at point `t` (its pieces cover it: read back over anything). -/
def outAt (h : Tables m) (c : Dev nD) (t : Fin (cfgM m h.ok).N) : Vec F S1x512x4096 .f32 :=
  (stO m h.ok t).view.read (Elt F) ((stO m h.ok t).view.writes (Elt F) (stO m h.ok t).view.junk (runAt h c t).1.2)

/-- The proof data of the pipeline on core `c`. -/
def dats (h : Tables m) (_ : Fin 1) (c : Dev nD) : Dat τ (Elt F) Unit ℕ (UR sig nD τ) ℕ (cfgM m h.ok) c where
  A w := Ent m c (Pipeline.arrRef spec0 w)
  after w t := match w with
    | ⟨0, _⟩ => blk m h.ok c 0 t
    | ⟨1, _⟩ => cacheAt h c t
    | ⟨2, _⟩ => outAt h c t
  Φ _ := iprop(Pipeline.ΦA spec0 c ∗ Pipeline.ΦT pre0 (tbl m) c)
  q _ := fullShare
  owed _ := 0

theorem dats_A (h : Tables m) (c : Dev nD) (w : Fin (cfgM m h.ok).W) : (dats h 0 c).A w = Ent m c (Pipeline.arrRef spec0 w) := by
  dsimp only [dats]

theorem after_out (h : Tables m) (c : Dev nD) (t : Fin (cfgM m h.ok).N) : (dats h 0 c).after 2 t = outAt h c t := by
  dsimp only [dats]; try rfl

/-! ## What the body finds in the input windows' buffers -/

theorem after_x (h : Tables m) (c : Dev nD) (t : Fin (cfgM m h.ok).N) : (dats h 0 c).after 0 t = blk m h.ok c 0 t := by
  dsimp only [dats]; try rfl

theorem after_cache (h : Tables m) (c : Dev nD) (t : Fin (cfgM m h.ok).N) : (dats h 0 c).after 1 t = cacheAt h c t := by
  dsimp only [dats]; try rfl

/-- The update block's buffer holds the block at every point: the body leaves it in place. -/
theorem before_x (h : Tables m) (c : Dev nD) (t : Fin (cfgM m h.ok).N) (d) : (dats h 0 c).before 0 t d = blk m h.ok c 0 t :=
  ((dats h 0 c).before_in_eq_fetched 0 rfl (fun _ => rfl) (fun _ _ _ => rfl)
      (fun t => by rw [after_x]; unfold Dat.blockOf blk; rw [dats_A]; try rfl) t d).trans
    (by unfold Dat.fetched Dat.blockOf blk; rw [dats_A]; try rfl)

/-- The grid is one axis of 64 points: a point's coordinate is the point. -/
theorem coord_val (t : Fin grid0.N) : (grid0.coords t 0).val = t.val := by
  show t.val / 1 % 64 = t.val
  rw [Nat.div_one]; exact Nat.mod_eq_of_lt (lt_of_lt_of_eq t.isLt N_0)

/-- A point as an index of the slot table. -/
def slotIx (t : Fin grid0.N) : S64.Idx := fun a => match a with | ⟨0, _⟩ => ⟨t.val, lt_of_lt_of_eq t.isLt N_0⟩

/-- The cache window's block index at a point: the point's slot word, then zeros. -/
theorem index_cache (h : Tables m) (t : Fin (cfgM m h.ok).N) :
    ((cfgM m h.ok).win 1).index t (0 : Fin 3) = (tbl m 0 (slotIx t)).toNat := by
  show (tbl m 0 _).toNat = _
  congr 2
  funext a
  match a with
  | ⟨0, _⟩ =>
    apply Fin.ext
    show (BitVec.ofNat 32 (grid0.coords t 0).val).toNat + 1 * 0 = t.val
    rw [coord_val, BitVec.toNat_ofNat]
    have := lt_of_lt_of_eq t.isLt N_0
    omega

/-- The slot words being pairwise distinct, the cache window is fetched at every point. -/
theorem fetch_cache (h : Tables m) (t : Fin (cfgM m h.ok).N) : ((cfgM m h.ok).win 1).fetch t = true := by
  rw [Window.fetch_in _ rfl]
  by_cases h0 : t.val = 0
  · exact .inl h0
  · refine .inr ⟨Nat.pos_of_ne_zero h0, fun he => ?_⟩
    have h1 := congrFun he (0 : Fin 3)
    rw [index_cache h, index_cache h] at h1
    have h2 := h.inj (BitVec.eq_of_toNat_eq h1)
    have h3 := congrArg (fun x : S64.Idx => (x 0).val) h2
    simp only [slotIx] at h3
    omega

/-- So the body finds the array's own block in the cache window's buffer at every point. -/
theorem before_cache (h : Tables m) (c : Dev nD) (t : Fin (cfgM m h.ok).N) (d) : (dats h 0 c).before 1 t d = blk m h.ok c 1 t := by
  unfold Dat.before; rw [if_pos (fetch_cache h t)]
  unfold Dat.fetched Dat.blockOf blk; rw [dats_A]; try rfl

/-! ## The body obligation -/

/-- A whole memref owned at contents `X` is its points-to at the raw contents that read `X`. -/
theorem owns_raw (c : Dev nD) {sp : Space} {S : Shape} {e : EltTy} (M : Memref sig .tc sp S e) (hM : M.IsWhole) (X : S.Idx → Elt F e) :
    (owns (c : Thread nD τ) M fullShare X : sProp 𝕄) ⊢ (M.view.loc (c : Thread nD τ) ↦[M.view.set]{fullShare} hM.unread X) := by
  unfold owns
  iintro ⟨%f, %hf, H⟩
  obtain rfl := hM.eq_unread hf
  iexact H

/-- The result block's pieces cover the block: eight chunks of 64 rows tile its 512 rows. -/
theorem out_cover (h : Tables m) (c : Dev nD) (t : Fin (cfgM m h.ok).N) : ∀ y, ∃ p ∈ (runAt h c t).1.2, y ∈ p.1.set :=
  out_cover_pieces _ _ _ _ _ _ _ _ _ _ _ _ _

/-- What the body is called with at point `t`, the windows one by one, -/
def bodyPre (h : Tables m) (c : Dev nD) (t : Fin (cfgM m h.ok).N) : sProp 𝕄 :=
  iprop((dats h 0 c).Φ t.castSucc ∗ (dats h 0 c).owesAt () t.castSucc
    ∗ (∃ d, owns (c : Thread nD τ) (stX m h.ok t) fullShare ((dats h 0 c).before 0 t d))
    ∗ (∃ d, owns (c : Thread nD τ) (stC m h.ok t) fullShare ((dats h 0 c).before 1 t d))
    ∗ (∃ d, owns (c : Thread nD τ) (stO m h.ok t) fullShare ((dats h 0 c).before 2 t d)))

/-- and what it returns. -/
def bodyPost (h : Tables m) (c : Dev nD) (t : Fin (cfgM m h.ok).N) : sProp 𝕄 :=
  iprop((dats h 0 c).Φ t.succ ∗ (dats h 0 c).owesAt () t.succ
    ∗ owns (c : Thread nD τ) (stX m h.ok t) fullShare ((dats h 0 c).after 0 t)
    ∗ owns (c : Thread nD τ) (stC m h.ok t) fullShare ((dats h 0 c).after 1 t)
    ∗ owns (c : Thread nD τ) (stO m h.ok t) fullShare ((dats h 0 c).after 2 t))

/-- The body at any point: the update block's and the cache block's buffers hold their blocks, so the run applies;
    the invariant passes through unread; the core owes nothing throughout. -/
theorem sound_body (h : Tables m) (c : Dev nD) (t : Fin (cfgM m h.ok).N) :
    bodyPre h c t ⊢ wp frame (wpE (defs₀ (F := F)) Variants.none c none) Set.univ (bodyAt (adm m h.ok) t) (fun _ => bodyPost h c t) := by
  unfold bodyPre bodyPost bodyAt
  simp only [before_x, before_cache]
  rw [show (dats h 0 c).Φ t.succ = (dats h 0 c).Φ t.castSucc from rfl,
    show (dats h 0 c).owesAt () t.succ = (dats h 0 c).owesAt () t.castSucc from rfl,
    after_x, after_cache, after_out]
  rw [show (dats h 0 c).Φ t.castSucc = iprop(Pipeline.ΦA spec0 c ∗ Pipeline.ΦT pre0 (tbl m) c) from rfl, tables_held]
  unfold cacheAt outAt
  iintro ⟨⟨HΦ, ⟨HT0, HT1⟩⟩, Ho, ⟨%d0, H0⟩, ⟨%d1, H1⟩, ⟨%d2, H2⟩⟩
  iapply ((runAt h c t).2 Set.univ _)
  isplitl [H0]; · iexact H0
  isplitl [H1]; · iapply (owns_raw c (stC m h.ok t) (hstC m h.ok t) (blk m h.ok c 1 t)); iexact H1
  isplitl [H2]; · iexists _; iexact H2
  isplitl [HT0]; · iexact HT0
  isplitl [HT1]; · iexact HT1
  iintro ⟨H0, H1, ⟨%e2, H2⟩, HT0, HT1⟩
  isplitl [HΦ HT0 HT1]
  · isplitl [HΦ]
    · iexact HΦ
    isplitl [HT0]; · iexact HT0
    iexact HT1
  isplitl [Ho]; · iexact Ho
  isplitl [H0]; · iexact H0
  isplitl [H1]
  · unfold owns; iexists _; isplitr
    swap; · iexact H1
    ipureintro; rfl
  unfold owns; iexists _; isplitr
  swap; · iexact H2
  ipureintro; exact View.read_writes_of_cover _ _ _ _ _ (out_cover h c t)

/-- The library's body obligation, at every point. -/
theorem body_obligation (h : Tables m) (c : Dev nD) : BodyObligation (dats (F := F) h 0 c) (defs₀ (F := F)) Variants.none () Set.univ := fun t => by
  rw [bigSep_W0, bigSep_W0]
  exact sound_body h c t

/-! ## The run and the frame -/

set_option backward.isDefEq.respectTransparency.types false in
/-- The frame run: every weakly fair execution of @main terminates with every windowed array at what the library
    computes from the proof data and every other unscoped buffer as the region found it. -/
theorem run_main (h : Tables m) :
    θ_run defs (onTc (τ := τ) (main (F := F))) (s₀ m ρ) (Pipeline.FramePost (Pipeline.pin pcfgs fun _ => adm m h.ok) (dats h) 0 (Ent m)) :=
  Pipeline.θ_run_frameP pcfgs (fun _ => adm m h.ok) (dats h) (0 : Fin 1) launch0 defs₀ Variants.none m ρ main
    (hbody := fun c => (body_obligation h c).loose) (hshare := fun c => (dats h 0 c).share_full fun _ => rfl)
    (howed := fun _ _ => rfl) (V := Ent m) (hmain := main_is_region m Variants.none) (hA := dats_A h) (hpf := Ent_pre m)
    (hΦ := fun _ _ => rfl)

/-- The same run with the result array named: what the write-backs of all points leave in it. -/
theorem run_named (h : Tables m) : θ_run defs (onTc (τ := τ) (main (F := F))) ⟨m, fun _ => 0, ρ⟩ (fun r => ∀ c : Dev nD,
      r.2.mem ((c.tc : Thread nD τ).loc main_v0) = (dats h 0 c).arrAt 2 (cfgM m h.ok).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ hp c => ⟨(hp c).1 2,
      ((hp c).1 0).trans (((dats h 0 c).arrAt_in 0 rfl _).trans (dats_A h c 0)),
      ((hp c).1 1).trans (((dats h 0 c).arrAt_in 1 rfl _).trans (dats_A h c 1)),
      (hp c).2 main_arg2 (by decide : main_arg2 ∈ Pipeline.restRefs sig spec0),
      (hp c).2 main_arg3 (by decide : main_arg3 ∈ Pipeline.restRefs sig spec0)⟩) (run_main ρ h)

/-- The frame: @main runs to its end, nothing faulting, the four argument arrays unchanged. -/
theorem frame (h : Tables m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ hp c => (hp c).2) (run_named ρ h)

end Cert.KernelIdeal.Hand

end
-- ==== Proof.KI.Tables.lean ====
/-
  The precondition gives the frame what it needs of the tables: every slot word names a cache block, every row word
  a row of a block, and the slot words are pairwise distinct.
-/
import proofs.«409922_j19043884990814_2_alg».proof.Proof.KI.Frame
import proofs.«409922_j19043884990814_2_alg».proof.Proof.PreFacts

set_option maxRecDepth 16384

noncomputable section

namespace Cert.KernelIdeal.Hand

open Cert.KernelIdeal Cert.KernelIdeal.Gen
open Idealize.ShloMosaic Idealize.ShloMosaic.TcCoe
open Idealize.SL Idealize.SL.Sem

variable {F : FTy → Type} [FloatOps F]

variable {m : (ℓ : Loc nD τ sig) → Buf (Elt F) ℓ}

/-- The precondition, read on device 0, makes the tables fit. -/
theorem tables_of_pre
    (hpre : Cert.Pre_finite_inputs.fn (F := F) (m (((0 : Dev nD).tc : Thread nD τ).loc main_arg0)) (m (((0 : Dev nD).tc : Thread nD τ).loc main_arg1))
      (m (((0 : Dev nD).tc : Thread nD τ).loc main_arg2)) (m (((0 : Dev nD).tc : Thread nD τ).loc main_arg3)) = fun _ => 1#1) :
    Tables m := by
  have hseq := Cert.PreFacts.seq_lt _ _ _ _ hpre
  have hrow := Cert.PreFacts.row_lt _ _ _ _ hpre
  have hinj := Cert.PreFacts.seq_inj _ _ _ _ hpre
  refine ⟨?_, ?_, ?_⟩
  · intro i
    have hl : ∀ x, (tbl m 0 x).toNat < 128 := fun x => hseq x
    obtain ⟨w, hw, e⟩ : ∃ w : BitVec 32, w.toNat < 128 ∧ cc0_transform_1 k0_off1_inb numel1_S1 (tbl m) i = ![w.toNat, 0, 0] :=
      ⟨_, hl _, rfl⟩
    refine ⟨fun a => ?_, Or.inl rfl⟩
    rw [e]
    fin_cases a <;> simp [S1x512x4096, S128x512x4096] <;> omega
  · intro c R y
    obtain rfl : c = 0 := Subsingleton.elim _ _
    exact hrow _
  · exact hinj

end Cert.KernelIdeal.Hand

end
-- ==== Proof.KI.Value.lean ====
/-
  The kernel's value: the result array after the run is the specification `Cert.Spec.G` of the arguments.

  At point `t` the result block is a copy of the cache block's buffer after the point's row stores; that buffer,
  read at row `r`, is row `j` of the update block `x[t]` for the last `j` whose word aims at `r`, and the cache
  block's own row where none does; the update block and the cache block are blocks `t` and `seq t` of the argument
  arrays. The 64 result blocks tile the result array.
-/
import proofs.«409922_j19043884990814_2_alg».proof.Proof.KI.Frame
import proofs.«409922_j19043884990814_2_alg».proof.Proof.KI.Pieces
import proofs.«409922_j19043884990814_2_alg».proof.Proof.Spec
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable {F : FTy → Type} [FloatOps F]

variable {m : (ℓ : Loc nD τ sig) → Buf (Elt F) ℓ} (ρ : Dev nD → PrngReg)

/-- The specification at this memory's argument arrays, on core `c`. -/
abbrev specOf (m : (ℓ : Loc nD τ sig) → Buf (Elt F) ℓ) (c : Dev nD) : Cert.Spec.SO.Idx → Elt F .f32 :=
  Cert.Spec.G (m ((c.tc : Thread nD τ).loc main_arg0)) (m ((c.tc : Thread nD τ).loc main_arg1))
    (m ((c.tc : Thread nD τ).loc main_arg2)) (m ((c.tc : Thread nD τ).loc main_arg3))

/-! ## The grid and the windows' block indices -/

/-- A grid point as a sequence number. -/
def seqOf (t : Fin grid0.N) : Fin 64 := ⟨t.val, lt_of_lt_of_eq t.isLt N_0⟩

/-- The result window is written back at every point. -/
theorem flush_out (h : Tables m) : ∀ t : Fin (cfgM m h.ok).N, ((cfgM m h.ok).win 2).flush t = true :=
  (by decide +kernel : ∀ t : Fin grid0.N, Pipeline.Window.flushOf grid0 true cc0_transform_2 t = true)

/-- The update window's block index at a point: the point, then zeros. -/
theorem index_x (h : Tables m) (t : Fin (cfgM m h.ok).N) :
    ((cfgM m h.ok).win 0).index t (0 : Fin 3) = t.val ∧ ((cfgM m h.ok).win 0).index t (1 : Fin 3) = 0
      ∧ ((cfgM m h.ok).win 0).index t (2 : Fin 3) = 0 := by
  refine ⟨?_, rfl, rfl⟩
  show (BitVec.ofNat 32 (grid0.coords t 0).val).toNat = t.val
  rw [coord_val, BitVec.toNat_ofNat]
  have := lt_of_lt_of_eq t.isLt N_0
  omega

/-- The result window's block index at a point: the point, then zeros. -/
theorem index_o (h : Tables m) (t : Fin (cfgM m h.ok).N) :
    ((cfgM m h.ok).win 2).index t (0 : Fin 3) = t.val ∧ ((cfgM m h.ok).win 2).index t (1 : Fin 3) = 0
      ∧ ((cfgM m h.ok).win 2).index t (2 : Fin 3) = 0 := by
  refine ⟨?_, rfl, rfl⟩
  show (BitVec.ofNat 32 (grid0.coords t 0).val).toNat = t.val
  rw [coord_val, BitVec.toNat_ofNat]
  have := lt_of_lt_of_eq t.isLt N_0
  omega

/-- The cache window's block index at a point: the point's slot word, then zeros. -/
theorem index_c (h : Tables m) (t : Fin (cfgM m h.ok).N) :
    ((cfgM m h.ok).win 1).index t (0 : Fin 3) = (tbl m 0 (slotIx t)).toNat ∧ ((cfgM m h.ok).win 1).index t (1 : Fin 3) = 0
      ∧ ((cfgM m h.ok).win 1).index t (2 : Fin 3) = 0 :=
  ⟨index_cache h t, rfl, rfl⟩

/-! ## The input blocks as words of the argument arrays -/

/-- Row j of the update block at point t is row (t, j) of the updates. -/
theorem blk_x_apply (h : Tables m) (c : Dev nD) (t : Fin (cfgM m h.ok).N) (j : Fin 64) (hh : Fin 4096) :
    blk m h.ok c 0 t (ix3 (0 : Fin 1) j hh)
      = (m ((c.tc : Thread nD τ).loc main_arg0) : Cert.Spec.SX.Idx → Elt F .f32) (ix3 (seqOf t) j hh) := by
  obtain ⟨e0, e1, e2⟩ := index_x h t
  have key : ((((cfgM m h.ok).win 0).blk t).view.emb (ix3 (0 : Fin 1) j hh) : Cert.Spec.SX.Idx) = ix3 (seqOf t) j hh := by
    funext a
    apply Fin.ext
    match a with
    | ⟨0, _⟩ => show ((cfgM m h.ok).win 0).index t (0 : Fin 3) * 1 + 1 * 0 = t.val; rw [e0]; omega
    | ⟨1, _⟩ => show ((cfgM m h.ok).win 0).index t (1 : Fin 3) * 64 + 1 * j.val = j.val; rw [e1]; omega
    | ⟨2, _⟩ => show ((cfgM m h.ok).win 0).index t (2 : Fin 3) * 4096 + 1 * hh.val = hh.val; rw [e2]; omega
  exact congrArg (m ((c.tc : Thread nD τ).loc main_arg0) : Cert.Spec.SX.Idx → Elt F .f32) key

/-- Row r of the cache block at point t is row r of the cache's slot the point's slot word names. -/
theorem blk_c_apply (h : Tables m) (c : Dev nD) (t : Fin (cfgM m h.ok).N) (r : Fin 512) (hh : Fin 4096) :
    ∃ s : Fin 128, s.val = (tbl m 0 (slotIx t)).toNat ∧
      blk m h.ok c 1 t (ix3 (0 : Fin 1) r hh)
        = (m ((c.tc : Thread nD τ).loc main_arg1) : Cert.Spec.SC.Idx → Elt F .f32) (ix3 s r hh) := by
  obtain ⟨e0, e1, e2⟩ := index_c h t
  refine ⟨((((cfgM m h.ok).win 1).blk t).view.emb (ix3 (0 : Fin 1) r hh) : Cert.Spec.SC.Idx) (0 : Fin 3), ?_, ?_⟩
  · show ((cfgM m h.ok).win 1).index t (0 : Fin 3) * 1 + 1 * 0 = _
    rw [e0]; omega
  · have key : ((((cfgM m h.ok).win 1).blk t).view.emb (ix3 (0 : Fin 1) r hh) : Cert.Spec.SC.Idx)
        = ix3 (((((cfgM m h.ok).win 1).blk t).view.emb (ix3 (0 : Fin 1) r hh) : Cert.Spec.SC.Idx) (0 : Fin 3)) r hh := by
      funext a
      apply Fin.ext
      match a with
      | ⟨0, _⟩ => rfl
      | ⟨1, _⟩ => show ((cfgM m h.ok).win 1).index t (1 : Fin 3) * 512 + 1 * r.val = r.val; rw [e1]; omega
      | ⟨2, _⟩ => show ((cfgM m h.ok).win 1).index t (2 : Fin 3) * 4096 + 1 * hh.val = hh.val; rw [e2]; omega
    exact congrArg (m ((c.tc : Thread nD τ).loc main_arg1) : Cert.Spec.SC.Idx → Elt F .f32) key

/-! ## The cache block's buffer after the row stores -/

/-- The row table's word (t, k), as the body reads it, is the argument's. -/
theorem rowOf_eq (h : Tables m) (c : Dev nD) (t : Fin (cfgM m h.ok).N) (k : Fin 64) :
    rowOf (F := F) c (grid0.coords t) (tbl m 1) k.val
      = ((m ((c.tc : Thread nD τ).loc main_arg3) : Cert.Spec.SR.Idx → BitVec 32) (ix2 (seqOf t) k)).toNat := by
  obtain rfl : c = 0 := Subsingleton.elim _ _
  unfold rowOf
  rw [dif_pos k.isLt]
  have e : (ix2 (grid0.coords t 0) (⟨k.val, k.isLt⟩ : Fin 64) : S64x64.Idx) = ix2 (seqOf t) k := by
    funext a
    apply Fin.ext
    match a with
    | ⟨0, _⟩ => exact coord_val t
    | ⟨1, _⟩ => rfl
  exact congrArg (fun x : S64x64.Idx => ((m (((0 : Dev nD).tc : Thread nD τ).loc main_arg3) : S64x64.Idx → BitVec 32) x).toNat) e

/-- Row k of the update block, for k below 64. -/
theorem updOf_of_lt (x0 : Vec F S1x64x4096 .f32) (k : Fin 64) (hh : Fin 4096) :
    updOf x0 k.val hh = x0 (ix3 (0 : Fin 1) k hh) := by
  unfold updOf
  rw [dif_pos k.isLt]

/-- A point's index of the slot table is its sequence number. -/
theorem slotIx_eq (t : Fin grid0.N) : slotIx t = (ix1 (seqOf t) : S64.Idx) := by
  funext a
  match a with
  | ⟨0, _⟩ => rfl

/-- The cache block's buffer after the point's row stores, at row r: the specification's block t at row r. -/
theorem cacheAt_apply (h : Tables m) (c : Dev nD) (t : Fin (cfgM m h.ok).N) (r : Fin 512) (hh : Fin 4096) :
    cacheAt h c t (Cert.RowStores.inBuf r hh) = specOf m c (ix3 (seqOf t) r hh) := by
  have hL := rows_of_run (F := F) c (grid0.coords t) (stX m h.ok t) (hstX m h.ok t) (stC m h.ok t) (hstC m h.ok t)
    (stO m h.ok t) (hstO m h.ok t) (blk m h.ok c 0 t) ((hstC m h.ok t).unread (blk m h.ok c 1 t)) (tbl m 0) (tbl m 1) (h.rows c)
  unfold cacheAt
  rcases Cert.Spec.lastHit_or_none (m ((c.tc : Thread nD τ).loc main_arg3)) (seqOf t) r with ⟨j, hj⟩ | hno
  · refine (Cert.RowStores.read_rowList_hit _ _ hL r hh j.val j.isLt ((rowOf_eq h c t j).trans hj.1)
      (fun k' hk hk' heq => hj.2 ⟨k', hk'⟩ hk ((rowOf_eq h c t ⟨k', hk'⟩).symm.trans heq))).trans ?_
    refine (updOf_of_lt _ j hh).trans ?_
    refine (blk_x_apply h c t j hh).trans ?_
    exact (Cert.Spec.G_hit _ _ _ _ (ix3 (seqOf t) r hh) j hj).symm
  · refine (Cert.RowStores.read_rowList_miss _ _ hL r hh
      (fun k hk heq => hno ⟨k, hk⟩ ((rowOf_eq h c t ⟨k, hk⟩).symm.trans heq))).trans ?_
    refine (congrFun ((hstC m h.ok t).read_unread (blk m h.ok c 1 t)) _).trans ?_
    obtain ⟨s, hs, e⟩ := blk_c_apply h c t r hh
    refine e.trans ?_
    refine (Cert.Spec.G_miss _ _ _ _ (ix3 (seqOf t) r hh) s ?_ hno).symm
    obtain rfl : c = 0 := Subsingleton.elim _ _
    show ((m (((0 : Dev nD).tc : Thread nD τ).loc main_arg2) : S64.Idx → BitVec 32) (ix1 (seqOf t))).toNat = s.val
    rw [hs, slotIx_eq]
    rfl

/-- The result block's buffer after the body is the cache block's buffer as read after the row stores. -/
theorem outAt_eq (h : Tables m) (c : Dev nD) (t : Fin (cfgM m h.ok).N) : outAt h c t = cacheAt h c t := by
  funext y
  unfold outAt
  exact View.read_writes_apply_of_pieces (stO m h.ok t).view _ (cacheAt h c t) _
    (out_pieces c (grid0.coords t) (stX m h.ok t) (hstX m h.ok t) (stC m h.ok t) (hstC m h.ok t) (stO m h.ok t) (hstO m h.ok t)
      (blk m h.ok c 0 t) ((hstC m h.ok t).unread (blk m h.ok c 1 t)) (tbl m 0) (tbl m 1) (h.rows c)) y (out_cover h c t y)

/-! ## The write-backs -/

/-- What point t writes back is block t of the specification. -/
theorem flushed_eq (h : Tables m) (c : Dev nD) (t : Fin (cfgM m h.ok).N) :
    (dats h 0 c).flushed 2 t = (((cfgM m h.ok).win 2).blk t).view.read (Elt F) (specOf m c) := by
  funext y
  obtain ⟨e0, e1, e2⟩ := index_o h t
  have hy0 : (y (0 : Fin 3)).val < 1 := (y (0 : Fin 3)).isLt
  have hy1 : (y (1 : Fin 3)).val < 512 := (y (1 : Fin 3)).isLt
  have hy2 : (y (2 : Fin 3)).val < 4096 := (y (2 : Fin 3)).isLt
  have ey : (((cfgM m h.ok).win 2).xinj (grid0.coords t) y : S1x512x4096.Idx)
      = Cert.RowStores.inBuf ⟨(y (1 : Fin 3)).val, hy1⟩ ⟨(y (2 : Fin 3)).val, hy2⟩ := by
    funext a
    apply Fin.ext
    match a with
    | ⟨0, _⟩ => show (y (0 : Fin 3)).val = 0; omega
    | ⟨1, _⟩ => rfl
    | ⟨2, _⟩ => rfl
  have key : ((((cfgM m h.ok).win 2).blk t).view.emb y : Cert.Spec.SO.Idx)
      = ix3 (seqOf t) (⟨(y (1 : Fin 3)).val, hy1⟩ : Fin 512) (⟨(y (2 : Fin 3)).val, hy2⟩ : Fin 4096) := by
    funext a
    apply Fin.ext
    match a with
    | ⟨0, _⟩ => show ((cfgM m h.ok).win 2).index t (0 : Fin 3) * 1 + 1 * (y (0 : Fin 3)).val = t.val; rw [e0]; omega
    | ⟨1, _⟩ => show ((cfgM m h.ok).win 2).index t (1 : Fin 3) * 512 + 1 * (y (1 : Fin 3)).val = (y (1 : Fin 3)).val; rw [e1]; omega
    | ⟨2, _⟩ => show ((cfgM m h.ok).win 2).index t (2 : Fin 3) * 4096 + 1 * (y (2 : Fin 3)).val = (y (2 : Fin 3)).val; rw [e2]; omega
  show (dats h 0 c).after 2 t (((cfgM m h.ok).win 2).xinj (grid0.coords t) y)
    = specOf m c ((((cfgM m h.ok).win 2).blk t).view.emb y)
  refine (congrFun (after_out h c t) _).trans ((congrFun (outAt_eq h c t) _).trans ?_)
  refine (congrArg (cacheAt h c t) ey).trans ((cacheAt_apply h c t _ _).trans ?_)
  exact (congrArg (specOf m c) key).symm

/-- The result array after all write-backs is the specification. -/
theorem final_eq (h : Tables m) (c : Dev nD) :
    (dats h 0 c).arrAt 2 (cfgM m h.ok).N = (specOf m c : Cert.Spec.SO.Idx → Elt F .f32) := by
  refine (dats h 0 c).arrAt_eq_of_cover 2 (specOf m c) (fun t _ => flushed_eq h c t) fun i => ?_
  have hi0 : (i (0 : Fin 3)).val < 64 := (i (0 : Fin 3)).isLt
  have hi1 : (i (1 : Fin 3)).val < 512 := (i (1 : Fin 3)).isLt
  have hi2 : (i (2 : Fin 3)).val < 4096 := (i (2 : Fin 3)).isLt
  obtain ⟨t, ht⟩ : ∃ t : Fin (cfgM m h.ok).N, t.val = (i (0 : Fin 3)).val := ⟨⟨(i (0 : Fin 3)).val, lt_of_lt_of_eq hi0 N_0.symm⟩, rfl⟩
  refine ⟨t, flush_out h t, ?_⟩
  obtain ⟨e0, e1, e2⟩ := index_o h t
  refine (Finset.ext_iff.1 (View.set_slice_whole main_v0 (((cfgM m h.ok).win 2).rect t)) i).2 (Rect.mem_set_unit.2 fun a => ?_)
  match a with
  | ⟨0, _⟩ =>
    show ((cfgM m h.ok).win 2).index t (0 : Fin 3) * 1 ≤ (i (0 : Fin 3)).val
      ∧ (i (0 : Fin 3)).val < ((cfgM m h.ok).win 2).index t (0 : Fin 3) * 1 + 1
    rw [e0]; omega
  | ⟨1, _⟩ =>
    show ((cfgM m h.ok).win 2).index t (1 : Fin 3) * 512 ≤ (i (1 : Fin 3)).val
      ∧ (i (1 : Fin 3)).val < ((cfgM m h.ok).win 2).index t (1 : Fin 3) * 512 + 512
    rw [e1]; omega
  | ⟨2, _⟩ =>
    show ((cfgM m h.ok).win 2).index t (2 : Fin 3) * 4096 ≤ (i (2 : Fin 3)).val
      ∧ (i (2 : Fin 3)).val < ((cfgM m h.ok).win 2).index t (2 : Fin 3) * 4096 + 4096
    rw [e2]; omega

/-- The kernel's run ends with its result at the specification of the arguments, the arguments unchanged. -/
theorem run_G (h : Tables m) : θ_run defs (onTc (τ := τ) (main (F := F))) ⟨m, fun _ => 0, ρ⟩ (fun r => ∀ c : Dev nD,
      r.2.mem ((c.tc : Thread nD τ).loc main_v0) = (specOf m c : Cert.Spec.SO.Idx → Elt F .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ hr c => ⟨(hr c).1.trans (final_eq h c), (hr c).2⟩) (run_named ρ h)

end Cert.KernelIdeal.Hand

end
-- ==== Proof.RefScatter.lean ====
/-
  The reference's scatter and gather, read at an index.

  A fold of point updates over a strictly increasing list of update indices holds, at a target, the value of the
  LAST update aimed at the target, and the operand's value where none is. The scatter is such a fold over the
  updates in row-major order; with every slot and row word in range an update (i', j', h') lands at
  (slot i', row (i', j'), h'), and with the slots pairwise distinct the updates landing at (slot i, r, h) are the
  (i, j', h) with row (i, j') = r, ordered by j'. The gather of block i reads slot i, its start in range unclamped.
-/
import Idealize.ShloMosaic.Lib.ValueIdx
import Idealize.ShloMosaic.PureOps
import Mathlib.Data.List.Sort
import proofs.«409922_j19043884990814_2_alg».proof.Proof.Spec

noncomputable section

namespace Cert.ReferenceIdeal.RefScatter

open Idealize.ShloMosaic Idealize.ShloMosaic.ValueIdx Cert.Spec

/-! ## A fold of point updates -/

/-- Where no update of the list aims at the target, the fold leaves the target's value. -/
theorem foldl_miss {ι K α : Type} (step : (K → α) → ι → (K → α)) (key : ι → Option K) (k : K)
    (hmiss : ∀ r n, key n ≠ some k → step r n k = r k) :
    ∀ (l : List ι) (x : K → α), (∀ n ∈ l, key n ≠ some k) → l.foldl step x k = x k := by
  intro l
  induction l with
  | nil => intro x _; rfl
  | cons a t ih =>
    intro x h
    rw [List.foldl_cons, ih _ (fun n hn => h n (List.mem_cons_of_mem _ hn)),
      hmiss _ _ (h a (List.mem_cons_self ..))]

/-- Where update m of a strictly increasing list aims at the target and no later one does, the fold holds
    the value of update m at the target. -/
theorem foldl_hit {N : Nat} {K α : Type} (step : (K → α) → Fin N → (K → α)) (key : Fin N → Option K)
    (val : Fin N → α) (k : K)
    (hhit : ∀ r n, key n = some k → step r n k = val n)
    (hmiss : ∀ r n, key n ≠ some k → step r n k = r k) (m : Fin N) (hm : key m = some k) :
    ∀ (l : List (Fin N)) (x : K → α), l.Pairwise (· < ·) → m ∈ l → (∀ n ∈ l, m < n → key n ≠ some k) →
      l.foldl step x k = val m := by
  intro l
  induction l with
  | nil => intro x _ h; exact absurd h List.not_mem_nil
  | cons a t ih =>
    intro x hp hmem hlater
    rw [List.pairwise_cons] at hp
    rw [List.foldl_cons]
    by_cases ha : a = m
    · subst ha
      rw [foldl_miss step key k hmiss t _ (fun n hn => hlater n (List.mem_cons_of_mem _ hn) (hp.1 n hn))]
      exact hhit _ _ hm
    · have hmt : m ∈ t := by
        rcases List.mem_cons.1 hmem with h | h
        · exact absurd h.symm ha
        · exact h
      exact ih _ hp.2 hmt (fun n hn => hlater n (List.mem_cons_of_mem _ hn))

/-! ## The scatter's dimension numbers at these shapes -/

/-- The index vectors: one [slot, row] pair per update row. -/
abbrev SI : Shape := ⟨3, ![64, 64, 2]⟩

/-- The scatter's dimension numbers. -/
def dS : ScatterDims SC SI SX where
  updateWindowDims := [2]
  insertedWindowDims := [0, 1]
  scatterDimsToOperandDims := [0, 1]
  indexVectorDim := 2
  wf := by decide

theorem window0 (j : SX.Idx) : dS.window j 0 = 0 := by
  unfold ScatterDims.window; rw [dif_neg (by decide)]

theorem window1 (j : SX.Idx) : dS.window j 1 = 0 := by
  unfold ScatterDims.window; rw [dif_neg (by decide)]

theorem window2 (j : SX.Idx) : dS.window j 2 = (j 2).val := by
  unfold ScatterDims.window; rw [dif_pos (by decide)]; rfl

theorem start0 (j : SX.Idx) (idx : IVec SI 32) : dS.start j idx 0 = (idx (ix3 (j 0) (j 1) 0)).toInt := by
  unfold ScatterDims.start; rw [dif_pos (by decide)]
  congr 2
  funext b; refine Fin.ext ?_
  match b with
  | ⟨0, _⟩ => rfl
  | ⟨1, _⟩ => rfl
  | ⟨2, _⟩ => rfl

theorem start1 (j : SX.Idx) (idx : IVec SI 32) : dS.start j idx 1 = (idx (ix3 (j 0) (j 1) 1)).toInt := by
  unfold ScatterDims.start; rw [dif_pos (by decide)]
  congr 2
  funext b; refine Fin.ext ?_
  match b with
  | ⟨0, _⟩ => rfl
  | ⟨1, _⟩ => rfl
  | ⟨2, _⟩ => rfl

theorem start2 (j : SX.Idx) (idx : IVec SI 32) : dS.start j idx 2 = 0 := by
  unfold ScatterDims.start; rw [dif_neg (by decide)]

/-- With its slot word and row word in range, update j lands at (slot, row, j's third coordinate). -/
theorem resultIdx_eq (idx : IVec SI 32) (j : SX.Idx) (s : Fin 128) (ρ : Fin 512)
    (h0 : (idx (ix3 (j 0) (j 1) 0)).toInt = (s.val : Int)) (h1 : (idx (ix3 (j 0) (j 1) 1)).toInt = (ρ.val : Int)) :
    dS.resultIdx? j idx = some (ix3 s ρ (j 2)) := by
  have e0 : dS.start j idx 0 + dS.window j 0 = (s.val : Int) := by rw [start0, window0, h0]; simp
  have e1 : dS.start j idx 1 + dS.window j 1 = (ρ.val : Int) := by rw [start1, window1, h1]; simp
  have e2 : dS.start j idx 2 + dS.window j 2 = ((j 2).val : Int) := by rw [start2, window2]; simp
  have hs : s.val < 128 := s.isLt
  have hρ : ρ.val < 512 := ρ.isLt
  have hj : (j 2).val < 4096 := (j 2).isLt
  have hall : ∀ a, 0 ≤ dS.start j idx a + dS.window j a ∧ dS.start j idx a + dS.window j a < SC.size a := by
    intro a
    match a with
    | ⟨0, _⟩ => show 0 ≤ dS.start j idx 0 + dS.window j 0 ∧ dS.start j idx 0 + dS.window j 0 < ((128 : Nat) : Int); rw [e0]; omega
    | ⟨1, _⟩ => show 0 ≤ dS.start j idx 1 + dS.window j 1 ∧ dS.start j idx 1 + dS.window j 1 < ((512 : Nat) : Int); rw [e1]; omega
    | ⟨2, _⟩ => show 0 ≤ dS.start j idx 2 + dS.window j 2 ∧ dS.start j idx 2 + dS.window j 2 < ((4096 : Nat) : Int); rw [e2]; omega
  unfold ScatterDims.resultIdx?
  rw [dif_pos hall]
  congr 1
  funext a; refine Fin.ext ?_
  match a with
  | ⟨0, _⟩ => show (dS.start j idx 0 + dS.window j 0).toNat = s.val; rw [e0]; simp
  | ⟨1, _⟩ => show (dS.start j idx 1 + dS.window j 1).toNat = ρ.val; rw [e1]; simp
  | ⟨2, _⟩ => show (dS.start j idx 2 + dS.window j 2).toNat = (j 2).val; rw [e2]; simp

section Scatter
variable {α : Type} (x : SC.Idx → α) (idx : IVec SI 32) (upd : SX.Idx → α)
  (slot : Fin 64 → Fin 128) (row : Fin 64 → Fin 64 → Fin 512)
  (h0 : ∀ i j, (idx (ix3 i j 0)).toInt = ((slot i).val : Int))
  (h1 : ∀ i j, (idx (ix3 i j 1)).toInt = ((row i j).val : Int))
include h0 h1

/-- Where every slot and row word is in range, update n lands at (slot, row, third coordinate) of its index. -/
theorem key_eq (n : Fin SX.numel) :
    dS.resultIdx? (SX.rowMajor.symm n) idx
      = some (ix3 (slot (SX.rowMajor.symm n 0)) (row (SX.rowMajor.symm n 0) (SX.rowMajor.symm n 1)) (SX.rowMajor.symm n 2)) :=
  resultIdx_eq idx _ _ _ (h0 _ _) (h1 _ _)

/-- The scattered cache where no update of sequence i aims at row r: the cache's own word. -/
theorem scatter_miss (hinj : Function.Injective slot) (i : Fin 64) (r : Fin 512) (h : Fin 4096)
    (hno : ∀ j, row i j ≠ r) :
    Host.scatter dS (fun _ b => b) x idx upd (ix3 (slot i) r h) = x (ix3 (slot i) r h) := by
  unfold Host.scatter
  refine foldl_miss _ (fun n => dS.resultIdx? (SX.rowMajor.symm n) idx) _ ?_ _ _ ?_
  · intro r n hn
    dsimp only
    generalize dS.resultIdx? (SX.rowMajor.symm n) idx = q at hn
    cases q with
    | none => rfl
    | some i => exact if_neg (fun h => hn (by rw [h]))
  intro n _ hk
  rw [key_eq idx slot row h0 h1 n] at hk
  have hk' := Option.some.inj hk
  have e0 : slot (SX.rowMajor.symm n 0) = slot i := congrFun hk' 0
  have e1 : row (SX.rowMajor.symm n 0) (SX.rowMajor.symm n 1) = r := congrFun hk' 1
  rw [hinj e0] at e1
  exact hno _ e1

/-- The scattered cache where update j is the last of sequence i aimed at row r: that update's word. -/
theorem scatter_hit (hinj : Function.Injective slot) (i : Fin 64) (r : Fin 512) (h : Fin 4096) (j : Fin 64)
    (hj : row i j = r) (hlast : ∀ j', j < j' → row i j' ≠ r) :
    Host.scatter dS (fun _ b => b) x idx upd (ix3 (slot i) r h) = upd (ix3 i j h) := by
  unfold Host.scatter
  have hm : dS.resultIdx? (SX.rowMajor.symm (SX.rowMajor (ix3 i j h))) idx = some (ix3 (slot i) r h) := by
    rw [key_eq idx slot row h0 h1, Equiv.symm_apply_apply]
    show some (ix3 (slot i) (row i j) h) = _
    rw [hj]
  refine (foldl_hit _ (fun n => dS.resultIdx? (SX.rowMajor.symm n) idx) (fun n => upd (SX.rowMajor.symm n))
    (ix3 (slot i) r h) ?_ ?_ (SX.rowMajor (ix3 i j h)) hm (List.finRange SX.numel) x
    (List.sortedLT_finRange _).pairwise (List.mem_finRange _) ?_).trans ?_
  · intro r n hn
    dsimp only
    rw [hn]; exact if_pos rfl
  · intro r n hn
    dsimp only
    generalize dS.resultIdx? (SX.rowMajor.symm n) idx = q at hn
    cases q with
    | none => rfl
    | some i => exact if_neg (fun h => hn (by rw [h]))
  · intro n _ hlt hk
    rw [key_eq idx slot row h0 h1 n] at hk
    have hk' := Option.some.inj hk
    have e0 : slot (SX.rowMajor.symm n 0) = slot i := congrFun hk' 0
    have e1 : row (SX.rowMajor.symm n 0) (SX.rowMajor.symm n 1) = r := congrFun hk' 1
    have e2 : SX.rowMajor.symm n 2 = h := congrFun hk' 2
    have ei := hinj e0
    rw [ei] at e1
    have hle : ¬ j < SX.rowMajor.symm n 1 := fun hl => hlast _ hl e1
    have hn : n = SX.rowMajor (SX.rowMajor.symm n) := (Equiv.apply_symm_apply _ _).symm
    have hv : n.val = ((SX.rowMajor.symm n 0).val * 64 + (SX.rowMajor.symm n 1).val) * 4096 + (SX.rowMajor.symm n 2).val := by
      conv_lhs => rw [hn]
      exact Shape.rowMajor_val_three _
    have hm' : (SX.rowMajor (ix3 i j h)).val = (i.val * 64 + j.val) * 4096 + h.val := Shape.rowMajor_val_three _
    have hlt' : (SX.rowMajor (ix3 i j h)).val < n.val := hlt
    rw [hv, hm', ei, e2] at hlt'
    have : (SX.rowMajor.symm n 1).val ≤ j.val := Nat.le_of_not_lt hle
    omega
  · show upd (SX.rowMajor.symm (SX.rowMajor (ix3 i j h))) = _
    rw [Equiv.symm_apply_apply]

end Scatter

/-! ## The gather's dimension numbers at these shapes -/

/-- The gather's start indices: one slot word per block. -/
abbrev SG : Shape := ⟨2, ![64, 1]⟩

/-- The gather's dimension numbers. -/
def dG : GatherDims SC SG SO where
  offsetDims := [1, 2]
  collapsedSliceDims := [0]
  operandBatchingDims := []
  startIndicesBatchingDims := []
  startIndexMap := [0]
  indexVectorDim := 1
  sliceSizes := ![1, 512, 4096]
  wf := by decide

/-- Block i of the gather, its slot word in range, reads the operand's slot at the block's row and lane. -/
theorem gather_read {α : Type} (y : SC.Idx → α) (idx : IVec SG 32) (i : Fin 64) (r : Fin 512) (h : Fin 4096) (s : Fin 128)
    (hs : (idx (ix2 i 0)).toInt = (s.val : Int)) :
    Host.gather dG y idx (ix3 i r h) = y (ix3 s r h) := by
  unfold Host.gather
  congr 1
  funext a; refine Fin.ext ?_
  show dG.start (ix3 i r h) idx a + dG.batchCoord (ix3 i r h) a + dG.offCoord (ix3 i r h) a = _
  rw [GatherDims.batchCoord_eq_zero _ _ _ List.not_mem_nil, Nat.add_zero]
  match a with
  | ⟨0, _⟩ =>
    show dG.start (ix3 i r h) idx 0 + dG.offCoord (ix3 i r h) 0 = s.val
    rw [GatherDims.offCoord_eq_zero _ _ _ (by decide), Nat.add_zero]
    unfold GatherDims.start
    rw [dif_pos (by decide)]
    have hsi : dG.siIdx (ix3 i r h) ⟨List.idxOf (0 : Fin 3) dG.startIndexMap, List.idxOf_lt_length_iff.2 (by decide)⟩ = ix2 i 0 := by
      funext b; refine Fin.ext ?_
      match b with
      | ⟨0, _⟩ => rfl
      | ⟨1, _⟩ => rfl
    rw [hsi, hs]
    have := s.isLt
    show min ((s.val : Int)).toNat (128 - 1) = s.val
    simp; omega
  | ⟨1, _⟩ =>
    show dG.start (ix3 i r h) idx 1 + dG.offCoord (ix3 i r h) 1 = r.val
    unfold GatherDims.start GatherDims.offCoord
    rw [dif_neg (by decide), dif_pos (by decide), Nat.zero_add]; rfl
  | ⟨2, _⟩ =>
    show dG.start (ix3 i r h) idx 2 + dG.offCoord (ix3 i r h) 2 = h.val
    unfold GatherDims.start GatherDims.offCoord
    rw [dif_neg (by decide), dif_pos (by decide), Nat.zero_add]; rfl

end Cert.ReferenceIdeal.RefScatter

end
-- ==== Proof.RefValue.lean ====
/-
  The reference's value: its scatter followed by its gather is the specification `Cert.Spec.G` of the arguments,
  where every slot word is in range and the slot words are pairwise distinct and every row word is in range.
-/
import proofs.«409922_j19043884990814_2_alg».proof.Proof.Gen.ReferenceIdeal.Run
import proofs.«409922_j19043884990814_2_alg».proof.Proof.Gen.ReferenceIdeal.Read
import proofs.«409922_j19043884990814_2_alg».proof.Proof.Spec
import proofs.«409922_j19043884990814_2_alg».proof.Proof.RefScatter

noncomputable section

namespace Cert.ReferenceIdeal.RefValue

open Cert.ReferenceIdeal Cert.ReferenceIdeal.Gen Idealize.ShloMosaic Idealize.ShloMosaic.TcCoe Idealize.SL.Sem
open Cert.Spec Cert.ReferenceIdeal.RefScatter Cert.ReferenceIdeal.Read Idealize.ShloMosaic.ValueIdx

variable {F : FTy → Type} [FloatOps F]

/-- A word below 2^31 is nonnegative read signed. -/
theorem toInt_word (w : BitVec 32) (hw : w.toNat < 2147483648) : w.toInt = (w.toNat : Int) :=
  BitVec.toInt_eq_toNat_of_lt (by have : (2 : Nat) ^ 32 = 4294967296 := by norm_num
                                  omega)

/-- The normalisation of a negative index leaves a word below 2^31 as it is. -/
theorem norm_word (w a : BitVec 32) (hw : w.toNat < 2147483648) :
    Scalar.select (IntOp.cmpi .slt w 0#32) a w = w := by
  have hc : IntOp.cmpi .slt w 0#32 = 0#1 := by
    have hs : w.slt 0#32 = false := by
      simp only [BitVec.slt, decide_eq_false_iff_not, not_lt]
      rw [toInt_word w hw]; simp
    show BitVec.ofBool (w.slt 0#32) = 0#1
    rw [hs]; rfl
  rw [hc]; exact select_zero _ _

/-- The reference's result as a function of the arguments is the specification. -/
theorem result_eq (x0 : SX.Idx → Elt F .f32) (x1 : SC.Idx → Elt F .f32) (x2 : SQ.Idx → BitVec 32) (x3 : SR.Idx → BitVec 32)
    (hseq : ∀ i, (x2 i).toNat < 128) (hrow : ∀ i, (x3 i).toNat < 512) (hinj : Function.Injective x2) :
    val_main_v22 (F := F) x0 x1 x2 x3 = G x0 x1 x2 x3 := by
  funext o
  obtain ⟨i, r, h, rfl⟩ : ∃ (i : Fin 64) (r : Fin 512) (h : Fin 4096), o = ix3 i r h := ⟨o 0, o 1, o 2, eq_ix3 o⟩
  let slot : Fin 64 → Fin 128 := fun i => ⟨(x2 (ix1 i)).toNat, hseq _⟩
  let row : Fin 64 → Fin 64 → Fin 512 := fun i j => ⟨(x3 (ix2 i j)).toNat, hrow _⟩
  have hslot : Function.Injective slot := by
    intro a b hab
    have hv := congrArg Fin.val hab
    have := hinj (BitVec.eq_of_toNat_eq (x := x2 (ix1 a)) (y := x2 (ix1 b)) hv)
    exact congrFun this 0
  -- the gather's start word of block i is the slot word of sequence i
  have hg : ∀ i : Fin 64, (val_main_v21 (F := F) x2 (ix2 i 0)).toInt = ((slot i).val : Int) := by
    intro i
    have e : val_main_v21 (F := F) x2 (ix2 i 0) = x2 (ix1 i) := by
      rw [val_main_v21_apply, val_main_v20_apply, val_main_v17_apply, val_main_v16_apply, val_main_c_3_apply]
      have : idx_main_v21 (ix2 i (0 : Fin 1)) = ix1 i := by funext a; match a with | ⟨0, _⟩ => rfl
      rw [this]; exact norm_word (x2 (ix1 i)) _ (by have := hseq (ix1 i); omega)
    rw [e]; exact toInt_word (x2 (ix1 i)) (by have := hseq (ix1 i); omega)
  -- the index vector of update row (i, j) is [slot word of i, row word of (i, j)]
  have h0 : ∀ i j : Fin 64, (val_main_v14 (F := F) x2 x3 (ix3 i j 0)).toInt = ((slot i).val : Int) := by
    intro i j
    have e : val_main_v14 (F := F) x2 x3 (ix3 i j 0) = x2 (ix1 i) := by
      unfold val_main_v14
      refine (concatenate_pair_apply_left (t := S64x64x2) (s₁ := S64x64x1) (s₂ := S64x64x1) (2 : Fin 3)
        (val_main_v12 (F := F) x2) (val_main_v13 (F := F) x3) concatenates_S64x64x1_S64x64x1_S64x64x2_d2
        (ix3 i j (0 : Fin 2)) rfl (ix3 i j (0 : Fin 1))
        (fun b => by match b with | ⟨0, _⟩ => rfl | ⟨1, _⟩ => rfl | ⟨2, _⟩ => rfl)).trans ?_
      rw [val_main_v12_apply, val_main_v11_apply, val_main_v5_apply, val_main_v2_apply, val_main_v0_apply,
        val_main_v1_apply, val_main_c_apply]
      have : idx_main_v0 (idx_main_v11 (idx_main_v12 (ix3 i j (0 : Fin 1)))) = ix1 i := by
        funext a; match a with | ⟨0, _⟩ => rfl
      rw [this]; exact norm_word (x2 (ix1 i)) _ (by have := hseq (ix1 i); omega)
    rw [e]; exact toInt_word (x2 (ix1 i)) (by have := hseq (ix1 i); omega)
  have h1 : ∀ i j : Fin 64, (val_main_v14 (F := F) x2 x3 (ix3 i j 1)).toInt = ((row i j).val : Int) := by
    intro i j
    have e : val_main_v14 (F := F) x2 x3 (ix3 i j 1) = x3 (ix2 i j) := by
      unfold val_main_v14
      refine (concatenate_pair_apply_right (t := S64x64x2) (s₁ := S64x64x1) (s₂ := S64x64x1) (2 : Fin 3)
        (val_main_v12 (F := F) x2) (val_main_v13 (F := F) x3) concatenates_S64x64x1_S64x64x1_S64x64x2_d2
        (ix3 i j (1 : Fin 2)) rfl rfl (ix3 i j (0 : Fin 1))
        (fun b hb => by match b, hb with | ⟨0, _⟩, _ => rfl | ⟨1, _⟩, _ => rfl | ⟨2, _⟩, hb => exact absurd rfl hb) rfl).trans ?_
      rw [val_main_v13_apply, val_main_v10_apply, val_main_v7_apply, val_main_v6_apply, val_main_c_1_apply]
      have : idx_main_v13 (ix3 i j (0 : Fin 1)) = ix2 i j := by
        funext a; match a with | ⟨0, _⟩ => rfl | ⟨1, _⟩ => rfl
      rw [this]; exact norm_word (x3 (ix2 i j)) _ (by have := hrow (ix2 i j); omega)
    rw [e]; exact toInt_word (x3 (ix2 i j)) (by have := hrow (ix2 i j); omega)
  unfold val_main_v22 val_main_v15
  show Host.gather dG (Host.scatter dS (fun _ b => b) x1 (val_main_v14 (F := F) x2 x3) x0) (val_main_v21 (F := F) x2) (ix3 i r h) = _
  rw [gather_read _ _ i r h (slot i) (hg i)]
  rcases lastHit_or_none x3 i r with ⟨j, hj⟩ | hno
  · rw [scatter_hit x1 _ x0 slot row h0 h1 hslot i r h j (Fin.ext hj.1) (fun j' hl e => hj.2 j' hl (congrArg Fin.val e))]
    exact (G_hit x0 x1 x2 x3 (ix3 i r h) j hj).symm
  · rw [scatter_miss x1 _ x0 slot row h0 h1 hslot i r h (fun j e => hno j (congrArg Fin.val e))]
    exact (G_miss x0 x1 x2 x3 (ix3 i r h) (slot i) rfl hno).symm

/-- The reference's run ends with its result at the specification of the arguments, the arguments unchanged. -/
theorem run_G (m : (ℓ : Loc nD τ sig) → Buf (Elt F) ℓ) (ρ : Dev nD → PrngReg)
    (hseq : ∀ (c : Dev nD) (i : Cert.Spec.SQ.Idx), ((m ((c.tc : Thread nD τ).loc main_arg2) : Cert.Spec.SQ.Idx → BitVec 32) i).toNat < 128)
    (hrow : ∀ (c : Dev nD) (i : Cert.Spec.SR.Idx), ((m ((c.tc : Thread nD τ).loc main_arg3) : Cert.Spec.SR.Idx → BitVec 32) i).toNat < 512)
    (hinj : ∀ c : Dev nD, Function.Injective (m ((c.tc : Thread nD τ).loc main_arg2) : Cert.Spec.SQ.Idx → BitVec 32)) :
    θ_run defs (onTc (τ := τ) (main (F := F))) ⟨m, fun _ => 0, ρ⟩ fun r => ∀ c : Dev nD,
      r.2.mem ((c.tc : Thread nD τ).loc main_v22)
          = (Cert.Spec.G (m ((c.tc : Thread nD τ).loc main_arg0)) (m ((c.tc : Thread nD τ).loc main_arg1))
              (m ((c.tc : Thread nD τ).loc main_arg2)) (m ((c.tc : Thread nD τ).loc main_arg3)) : Cert.Spec.SO.Idx → Elt F .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans ((val_main_v22_eq _ _ _ _).trans
      (result_eq (F := F) _ _ _ _ (hseq c) (hrow c) (hinj c))), (h c).2⟩)
    (Cert.ReferenceIdeal.Value.run (F := F) m ρ)

end Cert.ReferenceIdeal.RefValue

end
-- ==== Proof.lean ====
/-
  Scatter the salient rows of `x` into the cache at (slot, row) and gather the running sequences' blocks back:
  the kernel against the reference, over the extended reals.

  Under the precondition — finite floats; every slot word in [0, 128) and every row word in [0, 512) (outside
  which the reference itself indexes out of range); the 64 slot words pairwise distinct (the running sequences are
  64 sequences, each with its own slot) — both programs compute `Cert.Spec.G`: block `i` of the result is slot
  `seq i` of the cache with sequence `i`'s rows of `x` laid over it, the last update aimed at a row winning.

  The kernel does it per sequence: it overwrites rows of the fetched cache block in its staging buffer, in update
  order, and copies the block out (Proof/KI: the body's run, the pipeline's proof data, the value). The reference
  scatters all updates into the whole cache in row-major order and gathers the 64 slots; distinct slots keep other
  sequences' updates out of a sequence's block, and within a sequence row-major order is update order (Proof/RefScatter,
  Proof/RefValue). No arithmetic is done on a float: the finiteness conjuncts are not used.
-/
import proofs.«409922_j19043884990814_2_alg».proof.Defs
import proofs.«409922_j19043884990814_2_alg».proof.Proof.K.Tables
import proofs.«409922_j19043884990814_2_alg».proof.Proof.KI.Tables
import proofs.«409922_j19043884990814_2_alg».proof.Proof.KI.Value
import proofs.«409922_j19043884990814_2_alg».proof.Proof.RefValue
import proofs.«409922_j19043884990814_2_alg».proof.Proof.PreFacts

noncomputable section

namespace Cert.Proof

open Idealize.ShloMosaic Idealize.SL.Sem

/-- The word-level kernel runs and leaves its arguments alone. -/
theorem frame_k : Cert.frame_Kernel (hKernel := Cert.Kernel.Gen.facts) (hPre_finite_inputs := Cert.Pre_finite_inputs.Gen.facts) :=
  fun m ρ hpre => Cert.Kernel.Hand.frame ρ (Cert.Kernel.Hand.tables_of_pre (hpre 0))

/-- So does the idealized kernel. -/
theorem frame_ki : Cert.frame_KernelIdeal (hKernelIdeal := Cert.KernelIdeal.Gen.facts) (hPre_finite_inputs := Cert.Pre_finite_inputs.Gen.facts) :=
  fun m ρ hpre => Cert.KernelIdeal.Hand.frame ρ (Cert.KernelIdeal.Hand.tables_of_pre (hpre 0))

/-- The reference is host operations only: its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- Both idealized programs end at the specification of the (agreeing) arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  have hp := hpre 0
  have ht := Cert.KernelIdeal.Hand.tables_of_pre hp
  refine ⟨fun c => Cert.KernelIdeal.Hand.specOf m c, Cert.KernelIdeal.Hand.run_G ρ ht, ?_⟩
  have e : ∀ c : Dev Cert.ReferenceIdeal.nD, c = 0 := fun c => Subsingleton.elim _ _
  have hseq := Cert.PreFacts.seq_lt _ _ _ _ hp
  have hrow := Cert.PreFacts.row_lt _ _ _ _ hp
  have hinj := Cert.PreFacts.seq_inj _ _ _ _ hp
  refine (θ_run Cert.ReferenceIdeal.defs _ _).mono (fun _ h c => ⟨(h c).1.trans ?_, (h c).2⟩)
    (Cert.ReferenceIdeal.RefValue.run_G (F := Ideal) m' ρ'
      (fun c i => by rw [e c, (hagree 0).2.2.1]; exact hseq i)
      (fun c i => by rw [e c, (hagree 0).2.2.2]; exact hrow i)
      (fun c => by rw [e c, (hagree 0).2.2.1]; exact hinj))
  rw [(hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
